-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S64x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S1 : Shape := ⟨1, ![1]⟩
abbrev S384x64 : Shape := ⟨2, ![384, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg9 : FVec F S384x64 .f32) (main_arg10 : FVec F S64 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S384x64 .f32 := Host.absf main_arg9
  let main_cst_6 : FVec F S_ .f32 := constant S_ .f32 0x7F800000#32
  let main_v20 : FVec F S384x64 .f32 := broadcastInDim S384x64 ![] bcast_S_S384x64 main_cst_6
  let main_v21 : IVec S384x64 1 := cmpf .olt main_v19 main_v20
  let main_c_7 : IVec S_ 1 := constantI S_ 1 1#1
  let main_v22 : IVec S_ 1 := (fun x v => Host.reduce IntOp.andi x v reducesTo_S384x64_S_d0_1 h_S_) main_v21 main_c_7
  let main_v23 : IVec S_ 1 := andi main_v18 main_v22
  let main_v24 : FVec F S64 .f32 := Host.absf main_arg10
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S100000 32) (main_arg2 : IVec S1600000 32) (main_arg3 : IVec S1600000 32) (main_arg4 : IVec S1600000 32) (main_arg5 : IVec S1600000 32) (main_arg6 : FVec F S128x128 .f32) (main_arg7 : FVec F S128 .f32) (main_arg8 : FVec F S1 .f32) (main_arg9 : FVec F S384x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg6
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg7
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1 .f32 := Host.absf main_arg8
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg9 main_arg10 main_v13 main_v16
-- ==== Kernel.lean ====
abbrev S100000x128 : Shape := ⟨2, ![100000, 128]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S1 : Shape := ⟨1, ![1]⟩
abbrev S384x64 : Shape := ⟨2, ![384, 64]⟩
abbrev S64 : Shape := ⟨1, ![64]⟩
abbrev S_ : Shape := ⟨0, ![]⟩
abbrev S1x1 : Shape := ⟨2, ![1, 1]⟩
abbrev S1x128 : Shape := ⟨2, ![1, 128]⟩
abbrev S5000x128 : Shape := ⟨2, ![5000, 128]⟩
abbrev S1600000x1 : Shape := ⟨2, ![1600000, 1]⟩
abbrev S1600000x128 : Shape := ⟨2, ![1600000, 128]⟩
abbrev S100000x384 : Shape := ⟨2, ![100000, 384]⟩
abbrev S100352x384 : Shape := ⟨2, ![100352, 384]⟩
abbrev S100352 : Shape := ⟨1, ![100352]⟩
abbrev S1x100352 : Shape := ⟨2, ![1, 100352]⟩
abbrev S1x64 : Shape := ⟨2, ![1, 64]⟩
abbrev S64x64 : Shape := ⟨2, ![64, 64]⟩
abbrev S2048x384 : Shape := ⟨2, ![2048, 384]⟩
abbrev S1x2048 : Shape := ⟨2, ![1, 2048]⟩
abbrev S64x384 : Shape := ⟨2, ![64, 384]⟩
abbrev S64x1 : Shape := ⟨2, ![64, 1]⟩
abbrev S64x2048 : Shape := ⟨2, ![64, 2048]⟩

abbrev nBuf : Space → Nat
  | .hbm => 54
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S1600000, .i32⟩
  | .hbm, ⟨6, _⟩ => ⟨S128x128, .f32⟩
  | .hbm, ⟨7, _⟩ => ⟨S128, .f32⟩
  | .hbm, ⟨8, _⟩ => ⟨S1, .f32⟩
  | .hbm, ⟨9, _⟩ => ⟨S384x64, .f32⟩
  | .hbm, ⟨10, _⟩ => ⟨S64, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S1x1, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x384, .f32⟩
  | .hbm, ⟨45, _⟩ => ⟨S_, .i32⟩
  | .hbm, ⟨46, _⟩ => ⟨S_, .f32⟩
  | .hbm, ⟨47, _⟩ => ⟨S100352x384, .f32⟩
  | .hbm, ⟨48, _⟩ => ⟨S_, .i32⟩
  | .hbm, ⟨49, _⟩ => ⟨S_, .i32⟩
  | .hbm, ⟨50, _⟩ => ⟨S100352, .i32⟩
  | .hbm, ⟨51, _⟩ => ⟨S1x100352, .i32⟩
  | .hbm, ⟨52, _⟩ => ⟨S1x64, .f32⟩
  | .hbm, ⟨53, _⟩ => ⟨S64x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S2048x384, .f32⟩
  | .local _ .vmem, ⟨10, _⟩ => ⟨S2048x384, .f32⟩
  | .local _ .vmem, ⟨11, _⟩ => ⟨S1x2048, .i32⟩
  | .local _ .vmem, ⟨12, _⟩ => ⟨S1x2048, .i32⟩
  | .local _ .vmem, ⟨13, _⟩ => ⟨S384x64, .f32⟩
  | .local _ .vmem, ⟨14, _⟩ => ⟨S1x64, .f32⟩
  | .local _ .vmem, ⟨15, _⟩ => ⟨S64x64, .f32⟩
  | .local _ .vmem, ⟨16, _⟩ => ⟨S64x384, .f32⟩
  | .local _ .vmem, ⟨17, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_call0_v0 : Ref sig .tc := ⟨.hbm, 46, rfl⟩
abbrev main_v26 : Ref sig .tc := ⟨.hbm, 47, rfl⟩
abbrev main_c_6 : Ref sig .tc := ⟨.hbm, 48, rfl⟩
abbrev main_call1_v0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![49], ![false]⟩

def k1_cond2 (i : grid1.Coords) : BitVec 1 :=
  let arg0 : BitVec 32 := BitVec.ofNat 32 (i 0).val
  let c48_i32 : BitVec 32 := 48#32
  let v28 : BitVec 1 := Scalar.cmpi .eq arg0 c48_i32
  let v29 : BitVec 32 := Scalar.extui v28
  let c0_i32_13 : BitVec 32 := 0#32
  let v30 : BitVec 1 := Scalar.cmpi .ne v29 c0_i32_13
  v30

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S384x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  bcast_S_S1 : S_.BroadcastsInDim S1 (![] : Fin 0 → Fin S1.rank)
  shapeCasts_S1_S1x1 : S1.ShapeCasts S1x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  pads_S100000x384_S100352x384_03520_000 : S100000x384.Pads (![0, 0] : Fin 2 → Nat) ![352, 0] ![0, 0] S100352x384
  h_S_ : 0 < S_.numel
  pads_S100000_S100352_03520 : S100000.Pads (![0] : Fin 1 → Nat) ![352] ![0] S100352
  shapeCasts_S100352_S1x100352 : S100352.ShapeCasts S1x100352
  shapeCasts_S64_S1x64 : S64.ShapeCasts S1x64
  inb_S64x384_S64x384_0_0 : ∀ a, (![0, 0] : Fin 2 → Nat) a + S64x384.size a ≤ S64x384.size a
  h_S64x384 : 0 < S64x384.numel
  shapeCasts_S64x384_S64x384 : S64x384.ShapeCasts S64x384
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S64x2048_d0_w32 : S64x2048.Iotas .tc 32 [0]
  broadcasts_S1x2048_S64x2048 : S1x2048.Broadcasts S64x2048
  natLt_1_32 : 1 < 32
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  reduces_S64x2048_S64 : S64x2048.Reduces [1] S64
  shapeCasts_S64_S64x1 : S64.ShapeCasts S64x1
  broadcasts_S64x1_S64x384 : S64x1.Broadcasts S64x384
  inb_S384x64_S384x64_0_0 : ∀ a, (![0, 0] : Fin 2 → Nat) a + S384x64.size a ≤ S384x64.size a
  h_S384x64 : 0 < S384x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x64_S64x64_0_0 : ∀ a, (![0, 0] : Fin 2 → Nat) a + S64x64.size a ≤ S64x64.size a
  h_S64x64 : 0 < S64x64.numel
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S64x2048_S2048x384_S64x384_1_0_0_1_n_n_wf : DotDims.WF S64x2048 S2048x384 S64x384 [1] [0] [0] [1] [] []
  dot_S64x384_S384x64_S64x64_1_0_0_1_n_n_wf : DotDims.WF S64x384 S384x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x384.size a ≤ S100352x384.size a
  hwx1_0 : ∀ i : grid1.Coords, EltTy.bits .f32 = 32 ∨ (Rect.block (s := S100352x384) S2048x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x100352.size a
  hwx1_1 : ∀ i : grid1.Coords, EltTy.bits .i32 = 32 ∨ (Rect.block (s := S1x100352) S1x2048.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384x64.size a ≤ S384x64.size a
  hwx1_2 : ∀ i : grid1.Coords, EltTy.bits .f32 = 32 ∨ (Rect.block (s := S384x64) S384x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S64x2048_S2048x384_S64x384_1_0_0_1_n_n : DotDims S64x2048 S2048x384 S64x384 where
  lhsContracting := [1]
  rhsContracting := [0]
  lhsNonContracting := [0]
  rhsNonContracting := [1]
  lhsBatch := []
  rhsBatch := []
  wf := dot_S64x2048_S2048x384_S64x384_1_0_0_1_n_n_wf
def dot_S64x384_S384x64_S64x64_1_0_0_1_n_n : DotDims S64x384 S384x64 S64x64 where
  lhsContracting := [1]
  rhsContracting := [0]
  lhsNonContracting := [0]
  rhsNonContracting := [1]
  lhsBatch := []
  rhsBatch := []
  wf := dot_S64x384_S384x64_S64x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S2048x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S384x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S64x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S1 : Shape := ⟨1, ![1]⟩
abbrev S384x64 : Shape := ⟨2, ![384, 64]⟩
abbrev S64 : Shape := ⟨1, ![64]⟩
abbrev S1x128 : Shape := ⟨2, ![1, 128]⟩
abbrev S_ : Shape := ⟨0, ![]⟩
abbrev S1x1 : Shape := ⟨2, ![1, 1]⟩
abbrev S1600000x1 : Shape := ⟨2, ![1600000, 1]⟩
abbrev S1600000x128 : Shape := ⟨2, ![1600000, 128]⟩
abbrev S100000x384 : Shape := ⟨2, ![100000, 384]⟩
abbrev S64x384 : Shape := ⟨2, ![64, 384]⟩
abbrev S100000x1 : Shape := ⟨2, ![100000, 1]⟩
abbrev S64x1 : Shape := ⟨2, ![64, 1]⟩
abbrev S64x64 : Shape := ⟨2, ![64, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S1600000, .i32⟩
  | .hbm, ⟨6, _⟩ => ⟨S128x128, .f32⟩
  | .hbm, ⟨7, _⟩ => ⟨S128, .f32⟩
  | .hbm, ⟨8, _⟩ => ⟨S1, .f32⟩
  | .hbm, ⟨9, _⟩ => ⟨S384x64, .f32⟩
  | .hbm, ⟨10, _⟩ => ⟨S64, .f32⟩
  | .hbm, ⟨11, _⟩ => ⟨S100000x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S_, .f32⟩
  | .hbm, ⟨16, _⟩ => ⟨S1, .f32⟩
  | .hbm, ⟨17, _⟩ => ⟨S1, .f32⟩
  | .hbm, ⟨18, _⟩ => ⟨S1x1, .f32⟩
  | .hbm, ⟨19, _⟩ => ⟨S100000x128, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x384, .f32⟩
  | .hbm, ⟨48, _⟩ => ⟨S_, .f32⟩
  | .hbm, ⟨49, _⟩ => ⟨S64x384, .f32⟩
  | .hbm, ⟨50, _⟩ => ⟨S100000x1, .i32⟩
  | .hbm, ⟨51, _⟩ => ⟨S64x384, .f32⟩
  | .hbm, ⟨52, _⟩ => ⟨S_, .f32⟩
  | .hbm, ⟨53, _⟩ => ⟨S100000x1, .f32⟩
  | .hbm, ⟨54, _⟩ => ⟨S_, .f32⟩
  | .hbm, ⟨55, _⟩ => ⟨S64x1, .f32⟩
  | .hbm, ⟨56, _⟩ => ⟨S100000x1, .i32⟩
  | .hbm, ⟨57, _⟩ => ⟨S64x1, .f32⟩
  | .hbm, ⟨58, _⟩ => ⟨S_, .f32⟩
  | .hbm, ⟨59, _⟩ => ⟨S64x1, .f32⟩
  | .hbm, ⟨60, _⟩ => ⟨S64x1, .f32⟩
  | .hbm, ⟨61, _⟩ => ⟨S64x384, .f32⟩
  | .hbm, ⟨62, _⟩ => ⟨S64x384, .f32⟩
  | .hbm, ⟨63, _⟩ => ⟨S64x64, .f32⟩
  | .hbm, ⟨64, _⟩ => ⟨S1x64, .f32⟩
  | .hbm, ⟨65, _⟩ => ⟨S64x64, .f32⟩
  | .hbm, ⟨66, _⟩ => ⟨S64x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1 : S_.BroadcastsInDim S1 (![] : Fin 0 → Fin S1.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  bcast_S_S64x384 : S_.BroadcastsInDim S64x384 (![] : Fin 0 → Fin S64x384.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S64x1 : S_.BroadcastsInDim S64x1 (![] : Fin 0 → Fin S64x1.rank)
  bcast_S64x1_S64x384_0_1 : S64x1.BroadcastsInDim S64x384 (![0, 1] : Fin 2 → Fin S64x384.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x384_S100000x1_S100000x384_1_0_0_1_wf : ScatterDims.WF S64x384 S100000x1 S100000x384 [1] [0] [0] 1
  scatter_S64x1_S100000x1_S100000x1_1_0_0_1_wf : ScatterDims.WF S64x1 S100000x1 S100000x1 [1] [0] [0] 1
  dot_S64x384_S384x64_S64x64_1_0_0_1_n_n_wf : DotDims.WF S64x384 S384x64 S64x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x384_S100000x1_S100000x384_1_0_0_1 : ScatterDims S64x384 S100000x1 S100000x384 where
  updateWindowDims := [1]
  insertedWindowDims := [0]
  scatterDimsToOperandDims := [0]
  indexVectorDim := 1
  wf := scatter_S64x384_S100000x1_S100000x384_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x384_S384x64_S64x64_1_0_0_1_n_n : DotDims S64x384 S384x64 S64x64 where
  lhsContracting := [1]
  rhsContracting := [0]
  lhsNonContracting := [0]
  rhsNonContracting := [1]
  lhsBatch := []
  rhsBatch := []
  wf := dot_S64x384_S384x64_S64x64_1_0_0_1_n_n_wf

class Facts : Prop extends Facts₀ where

variable [Facts]
-- ==== Proof.Kernel.Run.lean ====
/-
  The whole run of @main: host operations, the projection region, the gather / scatter-add stretch with the padding,
  the pooling region. Between two items every unscoped buffer of the core is held at a named contents; a region takes
  its windows' arrays out of that state, runs its pipeline, and puts them back at what the write-backs leave, every
  other buffer untouched. Each region's half — its proof data at the contents it is entered from, and the body
  obligation — is a parameter here (a record of statements); what is proved is the launch over them: every weakly
  fair execution ends, and at the end every unscoped buffer holds the last boundary's contents. The frame claim and
  the result array are both read off that.
-/
import proofs.«421251_j42829413875734_1_alg».proof.Proof.Kernel.RunCond
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's TensorCore buffers at some contents: what a region's half is stated at. -/
abbrev Entry (F : FTy → Type) : Type := (c : Dev nD) → (b : Ref sig .tc) → Buf (Elt F) ((c : Thread nD τ).loc b)

/-- THE PROJECTION REGION'S HALF: proof data for every entry contents, reading its arrays off them, with full shares
    and nothing owed, the class invariant in and out, and the body obligation. -/
structure Half0 where
  dat : Entry F → (c : Dev nD) → Dat τ (Elt F) Unit ℕ (UR sig nD τ) ℕ cfg0 c
  hA : ∀ V c w, (dat V c).A w = V c (Pipeline.arrRef spec0 w)
  hshare : ∀ V c w, (dat V c).share w = fullShare
  howed : ∀ V c t, (dat V c).owed t = 0
  hrec : ∀ V c t, (dat V c).recorded t = Set.univ
  hin : ∀ V c, (Pipeline.ΦA spec0 c : sProp 𝕄) ⊢ (dat V c).Φ 0
  hout : ∀ V c, (dat V c).Φ (Fin.last cfg0.N) ⊢ (Pipeline.ΦA spec0 c : sProp 𝕄)
  hbody : ∀ V c, BodyObligation (dat V c) (defs₀ (F := F)) Variants.none () Set.univ

/-- THE POOLING REGION'S HALF, the same. -/
structure Half1 where
  dat : Entry F → (c : Dev nD) → Dat τ (Elt F) Unit ℕ (UR sig nD τ) ℕ cfg1 c
  hA : ∀ V c w, (dat V c).A w = V c (Pipeline.arrRef spec1 w)
  hshare : ∀ V c w, (dat V c).share w = fullShare
  howed : ∀ V c t, (dat V c).owed t = 0
  hrec : ∀ V c t, (dat V c).recorded t = Set.univ
  hin : ∀ V c, (Pipeline.ΦA spec1 c : sProp 𝕄) ⊢ (dat V c).Φ 0
  hout : ∀ V c, (dat V c).Φ (Fin.last cfg1.N) ⊢ (Pipeline.ΦA spec1 c : sProp 𝕄)
  hbody : ∀ V c, BodyObligation (dat V c) (defs₀ (F := F)) Variants.none () Set.univ

variable (H0 : Half0 (F := F)) (H1 : Half1 (F := F))
variable (m : (ℓ : Loc nD τ sig) → Buf (Elt F) ℓ) (ρ : Dev nD → PrngReg)

/-! ## The contents at the regions' boundaries -/

/-- What the projection region is entered from: the launch memory after the first host operations. -/
abbrev E1 : Entry F := fun c b => V1 m c b

/-- After the projection region: its arrays at what its write-backs leave, every other buffer as entered. -/
def X2 (c : Dev nD) : Valuation τ sig (Elt F) :=
  Pipeline.withArrays spec0 c (V1 m c) fun w => (H0.dat (E1 m) c).arrAt w cfg0.N

/-- The regions' results, first stage: the projection's two outputs named, nothing yet for the pooling region. -/
def outsA : Outs (F := F) := fun _ r c => X2 H0 m c r

/-- What the pooling region is entered from: the host stretch between the regions run from the projection's results. -/
abbrev E7 : Entry F := fun c b => V7 m (outsA H0 m) c b

/-- After the pooling region: its arrays at what its write-backs leave, every other buffer as entered. -/
def X8 (c : Dev nD) : Valuation τ sig (Elt F) :=
  Pipeline.withArrays spec1 c (V7 m (outsA H0 m) c) fun w => (H1.dat (E7 H0 m) c).arrAt w cfg1.N

/-- The regions' results: after item 7 the pooling region's, before it the projection's. -/
def outs : Outs (F := F) := fun J r c => match J with
  | 8 => X8 H0 H1 m c r
  | _ => X2 H0 m c r

theorem outs_two (r : Ref sig .tc) (c : Dev nD) : outs H0 H1 m 2 r c = outsA H0 m 2 r c := rfl
theorem outs_eight (r : Ref sig .tc) (c : Dev nD) : outs H0 H1 m 8 r c = X8 H0 H1 m c r := rfl

theorem V2_outs (c : Dev nD) : V2 m (outs H0 H1 m) c = V2 m (outsA H0 m) c := rfl
theorem V7_outs (c : Dev nD) : V7 m (outs H0 H1 m) c = V7 m (outsA H0 m) c :=
  congrArg (StableHlo.after hostOps1_4) (congrArg (StableHlo.after hostOps1_3) (congrArg (StableHlo.after hostOps1_2)
    (congrArg (StableHlo.after hostOps1_1) (congrArg (StableHlo.after hostOps1) (V2_outs H0 H1 m c)))))

/-- The same contents read at the TensorCore's references. -/
abbrev E2 : Entry F := fun c b => V2 m (outs H0 H1 m) c b
abbrev E8 : Entry F := fun c b => V8 m (outs H0 H1 m) c b

/-! ## The proof data family -/

abbrev adm' : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (cfgs p) c
  | ⟨0, _⟩ => fun c => H0.dat (E1 m) c
  | ⟨1, _⟩ => fun c => H1.dat (E7 H0 m) c

abbrev 𝒱₀ : Variants := Variants.none
abbrev L : GSem nD τ sig → Finset Unit := fun _ => ∅
abbrev lv : GSem nD τ sig → Unit → ℕ := fun _ _ => 0

/-- What rides beside the buffers through every item: the core's generator register at some state, and the core
    owing nothing. -/
abbrev Rst (c : Dev nD) : sProp 𝕄 := iprop((∃ r, prngReg c r) ∗ ∃ W, owes (c : Thread nD τ) (0 : CellTallies nD τ sig Unit) W)

/-! ## The projection region's arrays at its exit -/

theorem devRef_ne {r r' : Ref sig .tc} (h : r ≠ r') : (Proc.devRef .tc r : DevRef τ sig) ≠ Proc.devRef .tc r' :=
  StableHlo.devRef_ne_of_ne h

theorem X2_arr (c : Dev nD) (w : Fin cfg0.W) :
    X2 H0 m c (Proc.devRef .tc (Pipeline.arrRef spec0 w)) = (H0.dat (E1 m) c).arrAt w cfg0.N := by
  unfold X2; exact Pipeline.withArrays_arr spec0 launch0.win.arr_inj c _ _ w

theorem X8_arr (c : Dev nD) (w : Fin cfg1.W) :
    X8 H0 H1 m c (Proc.devRef .tc (Pipeline.arrRef spec1 w)) = (H1.dat (E7 H0 m) c).arrAt w cfg1.N := by
  unfold X8; exact Pipeline.withArrays_arr spec1 launch1.win.arr_inj c _ _ w

/-- At the projection's exit each of its arrays holds what the pipeline leaves: an input array what it was entered
    with, an output array what the results name. -/
theorem hF0 (c : Dev nD) (w : Fin cfg0.W) :
    (pdats H0 H1 m 0 c).arrAt w cfg0.N = E2 H0 H1 m c (Pipeline.arrRef spec0 w) := by
  show (H0.dat (E1 m) c).arrAt w cfg0.N = V2 m (outs H0 H1 m) c (Proc.devRef .tc (Pipeline.arrRef spec0 w))
  match w with
  | ⟨0, _⟩ => exact (((H0.dat (E1 m) c).arrAt_in 0 rfl _).trans (H0.hA (E1 m) c 0)).trans (V2_of m (outs H0 H1 m) c main_arg0 (by decide)).symm
  | ⟨1, _⟩ => exact (((H0.dat (E1 m) c).arrAt_in 1 rfl _).trans (H0.hA (E1 m) c 1)).trans (V2_of m (outs H0 H1 m) c main_arg6 (by decide)).symm
  | ⟨2, _⟩ => exact (((H0.dat (E1 m) c).arrAt_in 2 rfl _).trans (H0.hA (E1 m) c 2)).trans (V2_of m (outs H0 H1 m) c main_v3 (by decide)).symm
  | ⟨3, _⟩ => exact (((H0.dat (E1 m) c).arrAt_in 3 rfl _).trans (H0.hA (E1 m) c 3)).trans (V2_of m (outs H0 H1 m) c main_v2 (by decide)).symm
  | ⟨4, _⟩ =>
    show _ = Function.update (Function.update (V1 m c) main_v4_0 (outs H0 H1 m 2 main_v4_0 c)) main_v4_1 (outs H0 H1 m 2 main_v4_1 c) main_v4_0
    rw [Function.update_of_ne (devRef_ne (by decide) : (Proc.devRef .tc main_v4_0 : DevRef τ sig) ≠ Proc.devRef .tc main_v4_1), Function.update_self]
    exact (X2_arr H0 m c 4).symm
  | ⟨5, _⟩ =>
    show _ = Function.update (Function.update (V1 m c) main_v4_0 (outs H0 H1 m 2 main_v4_0 c)) main_v4_1 (outs H0 H1 m 2 main_v4_1 c) main_v4_1
    rw [Function.update_self]
    exact (X2_arr H0 m c 5).symm

/-- Every buffer that is no array of the projection region holds at its exit what it held at its entry. -/
theorem hrest0 (c : Dev nD) : ∀ b, b ∉ Finset.univ.image (Pipeline.arrRef spec0) → E2 H0 H1 m c b = E1 m c b := fun b hb =>
  V2_of m (outs H0 H1 m) c b (by
    intro hmem
    simp only [List.mem_cons, List.mem_nil_iff, _root_.or_false] at hmem
    rcases hmem with rfl | rfl
    · exact hb (Finset.mem_image.mpr ⟨4, Finset.mem_univ _, rfl⟩)
    · exact hb (Finset.mem_image.mpr ⟨5, Finset.mem_univ _, rfl⟩))

/-! ## The pooling region's arrays at its exit -/

theorem hF1 (c : Dev nD) (w : Fin cfg1.W) :
    (pdats H0 H1 m 1 c).arrAt w cfg1.N = E8 H0 H1 m c (Pipeline.arrRef spec1 w) := by
  show (H1.dat (E7 H0 m) c).arrAt w cfg1.N = V8 m (outs H0 H1 m) c (Proc.devRef .tc (Pipeline.arrRef spec1 w))
  match w with
  | ⟨0, _⟩ => exact (((H1.dat (E7 H0 m) c).arrAt_in 0 rfl _).trans (H1.hA (E7 H0 m) c 0)).trans ((V8_of m (outs H0 H1 m) c main_v26 (by decide)).trans (congrFun (V7_outs H0 H1 m c) _)).symm
  | ⟨1, _⟩ => exact (((H1.dat (E7 H0 m) c).arrAt_in 1 rfl _).trans (H1.hA (E7 H0 m) c 1)).trans ((V8_of m (outs H0 H1 m) c main_v28 (by decide)).trans (congrFun (V7_outs H0 H1 m c) _)).symm
  | ⟨2, _⟩ => exact (((H1.dat (E7 H0 m) c).arrAt_in 2 rfl _).trans (H1.hA (E7 H0 m) c 2)).trans ((V8_of m (outs H0 H1 m) c main_arg9 (by decide)).trans (congrFun (V7_outs H0 H1 m c) _)).symm
  | ⟨3, _⟩ => exact (((H1.dat (E7 H0 m) c).arrAt_in 3 rfl _).trans (H1.hA (E7 H0 m) c 3)).trans ((V8_of m (outs H0 H1 m) c main_v29 (by decide)).trans (congrFun (V7_outs H0 H1 m c) _)).symm
  | ⟨4, _⟩ =>
    show _ = Function.update (V7 m (outs H0 H1 m) c) main_v30 (outs H0 H1 m 8 main_v30 c) main_v30
    rw [Function.update_self]
    exact (X8_arr H0 H1 m c 4).symm

theorem hrest1 (c : Dev nD) : ∀ b, b ∉ Finset.univ.image (Pipeline.arrRef spec1) → E8 H0 H1 m c b = E7 H0 m c b := fun b hb =>
  (V8_of m (outs H0 H1 m) c b (by
    intro hmem
    simp only [List.mem_cons, List.mem_nil_iff, _root_.or_false] at hmem
    subst hmem
    exact hb (Finset.mem_image.mpr ⟨4, Finset.mem_univ _, rfl⟩))).trans (congrFun (V7_outs H0 H1 m c) _)

/-! ## The regions as segments -/

set_option backward.isDefEq.respectTransparency.types false in
/-- THE PROJECTION REGION over the thread state: entered from every unscoped buffer at the contents after the first
    host operations, left with its two result arrays at what its write-backs leave and every other buffer as it was.
    Its arrays are split out of the unscoped buffers and put back; the generator register goes into the class invariant
    and comes out; nothing is owed; the kernel has no semaphore of its own. -/
def reg0 : Pipeline.RegionSeg (pcfgs (F := F)) adm' (pdats H0 H1 m) () defs₀ 𝒱₀ L lv 0 where
  win := launch0.win.to₀
  block_pos := launch0.block_pos
  stage_whole := launch0.stage_whole
  K := PEmpty
  osem k := k.elim
  ho := Pipeline.OwnSemFacts.none _
  hbody c := (H0.hbody (E1 m) c).loose
  hwaits := Pipeline.hwaits_of_owed_zero _ _ _ _ L lv 0 fun c t => H0.howed (E1 m) c t
  pre c := iprop(StableHlo.held (c : Thread nD τ) (Pipeline.ucRefs τ sig) (V1 m c) ∗ Rst c)
  post c := iprop(StableHlo.held (c : Thread nD τ) (Pipeline.ucRefs τ sig) (V2 m (outs H0 H1 m) c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have ho : ∀ t, (pdats H0 H1 m 0 c).owed t = 0 := fun t => H0.howed (E1 m) c t
    have hr : (pdats H0 H1 m 0 c).recorded 0 = Set.univ := H0.hrec (E1 m) c 0
    have hsplit := Pipeline.arrays_of_unscopedBufs (p := 0) (pcfgs (F := F)) adm' (pdats H0 H1 m) launch0.win launch0.arr_whole c
      (H0.hshare (E1 m) c) (E1 m c) (H0.hA (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl (by rw [hr]; trivial)
      iexact HO
    isplitl [Hp]; · iexact Hp
    iexact Hrest
  hin c := by
    have h : (Pipeline.ΦA spec0 c : sProp 𝕄) ⊢ (pdats H0 H1 m 0 c).Φ 0 := H0.hin (E1 m) c
    unfold Pipeline.ΦA at h
    iintro ⟨Hp, -, Hr⟩
    iapply h
    isplitl [Hr]; · iexact Hr
    iexact Hp
  hout c := by
    rw [Pipeline.ownSems0_none]
    have h : (pdats H0 H1 m 0 c).Φ (Fin.last (Pipeline.pin (pcfgs (F := F)) adm' 0).N) ⊢ (Pipeline.ΦA spec0 c : sProp 𝕄) := H0.hout (E1 m) c
    unfold Pipeline.ΦA at h
    iintro HΦ
    ihave H := h $$ HΦ
    icases H with ⟨Hr, Hp⟩
    isplitl [Hp]; · iexact Hp
    isplitr; · iempintro
    iexact Hr
  hexit c := by
    have ho : ∀ t, (pdats H0 H1 m 0 c).owed t = 0 := fun t => H0.howed (E1 m) c t
    have hjoin := Pipeline.unscopedBufs_of_arrays (p := 0) (pcfgs (F := F)) adm' (Ix := Unit) (Name := ℕ) (U := UR sig nD τ) (Lvl := ℕ)
      launch0.win launch0.arr_whole c (pdats H0 H1 m) (H0.hshare (E1 m) c)
      (E1 m c) (E2 H0 H1 m c) ((pdats H0 H1 m 0 c).arrAt · cfg0.N) (hF0 H0 H1 m c) (hrest0 H0 H1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
/-- THE POOLING REGION over the thread state: entered from every unscoped buffer at the contents after the stretch
    between the regions, left with its result array at what its one write-back leaves. The invariant it is handed is
    the class's; what it carries between points (the two accumulators) is its half's own business. -/
def reg1 : Pipeline.RegionSeg (pcfgs (F := F)) adm' (pdats H0 H1 m) () defs₀ 𝒱₀ L lv 1 where
  win := launch1.win.to₀
  block_pos := launch1.block_pos
  stage_whole := launch1.stage_whole
  K := PEmpty
  osem k := k.elim
  ho := Pipeline.OwnSemFacts.none _
  hbody c := (H1.hbody (E7 H0 m) c).loose
  hwaits := Pipeline.hwaits_of_owed_zero _ _ _ _ L lv 1 fun c t => H1.howed (E7 H0 m) c t
  pre c := iprop(StableHlo.held (c : Thread nD τ) (Pipeline.ucRefs τ sig) (V7 m (outsA H0 m) c) ∗ Rst c)
  post c := iprop(StableHlo.held (c : Thread nD τ) (Pipeline.ucRefs τ sig) (V8 m (outs H0 H1 m) c) ∗ Rst c)
  X c := iprop(∃ r, prngReg c r)
  Y c := iprop(∃ r, prngReg c r)
  Z c := Pipeline.unscopedRest (Ix := Unit) (Name := ℕ) (U := UR sig nD τ) (Lvl := ℕ) spec1 c (E7 H0 m c)
  hentry c := by
    rw [Pipeline.ownSems0_none]
    have ho : ∀ t, (pdats H0 H1 m 1 c).owed t = 0 := fun t => H1.howed (E7 H0 m) c t
    have hr : (pdats H0 H1 m 1 c).recorded 0 = Set.univ := H1.hrec (E7 H0 m) c 0
    have hsplit := Pipeline.arrays_of_unscopedBufs (p := 1) (pcfgs (F := F)) adm' (pdats H0 H1 m) launch1.win launch1.arr_whole c
      (H1.hshare (E7 H0 m) c) (E7 H0 m c) (H1.hA (E7 H0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl (by rw [hr]; trivial)
      iexact HO
    isplitl [Hp]; · iexact Hp
    iexact Hrest
  hin c := by
    have h : (Pipeline.ΦA spec1 c : sProp 𝕄) ⊢ (pdats H0 H1 m 1 c).Φ 0 := H1.hin (E7 H0 m) c
    unfold Pipeline.ΦA at h
    iintro ⟨Hp, -, Hr⟩
    iapply h
    isplitl [Hr]; · iexact Hr
    iexact Hp
  hout c := by
    rw [Pipeline.ownSems0_none]
    have h : (pdats H0 H1 m 1 c).Φ (Fin.last (Pipeline.pin (pcfgs (F := F)) adm' 1).N) ⊢ (Pipeline.ΦA spec1 c : sProp 𝕄) := H1.hout (E7 H0 m) c
    unfold Pipeline.ΦA at h
    iintro HΦ
    ihave H := h $$ HΦ
    icases H with ⟨Hr, Hp⟩
    isplitl [Hp]; · iexact Hp
    isplitr; · iempintro
    iexact Hr
  hexit c := by
    have ho : ∀ t, (pdats H0 H1 m 1 c).owed t = 0 := fun t => H1.howed (E7 H0 m) c t
    have hjoin := Pipeline.unscopedBufs_of_arrays (p := 1) (pcfgs (F := F)) adm' (Ix := Unit) (Name := ℕ) (U := UR sig nD τ) (Lvl := ℕ)
      launch1.win launch1.arr_whole c (pdats H0 H1 m) (H1.hshare (E7 H0 m) c)
      (E7 H0 m c) (E8 H0 H1 m c) ((pdats H0 H1 m 1 c).arrAt · cfg1.N) (hF1 H0 H1 m c) (hrest1 H0 H1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

/-! ## The launch -/

set_option backward.isDefEq.respectTransparency.types false in
/-- THE RUN. From any memory with zero counters every weakly fair execution of @main ends, nothing faulting, and at
    the end every unscoped buffer of every core holds the last boundary's contents: the launch memory carried through
    the host stretches and the two regions' results. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V8 m (outs H0 H1 m) c b) :=
  run_cond m (Ix := Unit) (U := UR sig nD τ) (Lvl := ℕ) emb₁ () 𝒱₀ L lv (fun _ _ => rfl) ρ (outs H0 H1 m) (pdats H0 H1 m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 H0 H1 m) (hpre0 := fun _ => .rfl) (hpost0 := fun _ => .rfl)
    (R1 := reg1 H0 H1 m)
    (hpre1 := fun c => by rw [V7_outs H0 H1 m c]; exact .rfl)
    (hpost1 := fun _ => .rfl)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include H0 H1 in
/-- At the end every argument array holds its launch contents: no host operation and no region writes an argument, so
    the last boundary's contents at an argument walk back to the launch memory. -/
theorem args_kept (r : PUnit × MemSt nD τ sig (Elt F))
    (h : ∀ c : Dev nD, ∀ b ∈ Pipeline.ucRefs τ sig, r.2.mem (((c : Thread nD τ)).1, b) = V8 m (outs H0 H1 m) c b) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(h c _ (mem_uc main_arg0 (by decide))).trans (V8_main_arg0 m (outs H0 H1 m) c),
   (h c _ (mem_uc main_arg1 (by decide))).trans (V8_main_arg1 m (outs H0 H1 m) c),
   (h c _ (mem_uc main_arg2 (by decide))).trans (V8_main_arg2 m (outs H0 H1 m) c),
   (h c _ (mem_uc main_arg3 (by decide))).trans (V8_main_arg3 m (outs H0 H1 m) c),
   (h c _ (mem_uc main_arg4 (by decide))).trans (V8_main_arg4 m (outs H0 H1 m) c),
   (h c _ (mem_uc main_arg5 (by decide))).trans (V8_main_arg5 m (outs H0 H1 m) c),
   (h c _ (mem_uc main_arg6 (by decide))).trans (V8_main_arg6 m (outs H0 H1 m) c),
   (h c _ (mem_uc main_arg7 (by decide))).trans (V8_main_arg7 m (outs H0 H1 m) c),
   (h c _ (mem_uc main_arg8 (by decide))).trans (V8_main_arg8 m (outs H0 H1 m) c),
   (h c _ (mem_uc main_arg9 (by decide))).trans (V8_main_arg9 m (outs H0 H1 m) c),
   (h c _ (mem_uc main_arg10 (by decide))).trans (V8_main_arg10 m (outs H0 H1 m) c)⟩

include H0 H1 in
/-- THE FRAME: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept H0 H1 m r h c) (run_all H0 H1 m ρ)

/-- THE RESULT ARRAY at the end is what the pooling region's one write-back leaves in it. -/
theorem result_eq (r : PUnit × MemSt nD τ sig (Elt F))
    (h : ∀ c : Dev nD, ∀ b ∈ Pipeline.ucRefs τ sig, r.2.mem (((c : Thread nD τ)).1, b) = V8 m (outs H0 H1 m) c b) (c : Dev nD) :
    r.2.mem ((c.tc : Thread nD τ).loc main_v30) = (H1.dat (E7 H0 m) c).arrAt 4 cfg1.N :=
  (h c _ (mem_uc main_v30 (by decide))).trans ((hF1 H0 H1 m c 4).symm)

end Cert.Kernel.Frm

end
-- ==== Proof.Kernel.R0.lean ====
/- REGION 0 of the program's @main: the projection kernel (custom_call 0), a pipeline of six windows over a grid
   of 20 points, at any float instance.

   The kernel's class-A half, stated at a PARAMETER V: the TensorCore's buffer contents when the region is entered.
   A window's BLOCK at a grid point is the rectangle of its array that the window's index map selects there, read
   off the array as the region finds it. Window 0 walks the rows of the activations, 5000 at a point; windows 1, 2
   and 3 (the weight matrix, the bias row, the scale) have a constant index map, so their block is the whole array
   at every point. The body reads the four input buffers and overwrites the two output buffers whole: the first with
   the biased product of the row block with the weights, the second with that product times the scale. -/
import proofs.«421251_j42829413875734_1_alg».proof.Proof.Gen.Kernel.Launch
import proofs.«421251_j42829413875734_1_alg».proof.Proof.Gen.Kernel.Skeleton
import proofs.«421251_j42829413875734_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 5000 rows is decided coordinate by coordinate
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array the index map selects there, read off the array as
    the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row window's current buffer holds its block at every point: it is fetched at every point, and the body
    leaves it as found. Stated for ANY proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole weight matrix at every point: fetched at the first point only, but
    its block index never moves, so what the first fetch left is still every later point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window's buffer holds the bias row at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The scale window's buffer holds the one scale entry at every point, for the same reason. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S1x1 := Rect.unit (s := S1x1) ![0, 0] S1x1.size inb_S1x1_S1x1_0_0

/-! ## What the body leaves in each output window's buffer -/

/-- The first output's buffer after the body, from the input blocks: one whole-buffer store of the row block times
    the weights (both rounded to bf16, accumulated in f32) plus the bias row broadcast down the rows. -/
def out0_4 (x0 : Vec F S5000x128 .f32) (x1 : Vec F S128x128 .f32) (x2 : Vec F S1x128 .f32) : Vec F S5000x128 .f32 :=
  View.canon [⟨r0_0, k0_pay1 (View.ld x0 r0_0) (View.ld x1 r0_1) (View.ld x2 r0_2)⟩]

/-- The second output's buffer after the body: one whole-buffer store of the first output's value times the scale
    entry broadcast over the block. -/
def out0_5 (x0 : Vec F S5000x128 .f32) (x1 : Vec F S128x128 .f32) (x2 : Vec F S1x128 .f32) (x3 : Vec F S1x1 .f32) : Vec F S5000x128 .f32 :=
  View.canon [⟨r0_0, k0_pay2 (View.ld x0 r0_0) (View.ld x1 r0_1) (View.ld x2 r0_2) (View.ld x3 r0_3)⟩]

/-- A single whole-buffer store tiles the buffer, so it covers every index (either output's). -/
theorem cover0_out (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the four inputs' at read contents `x0 … x3` and the two outputs' at
    anything, runs to a continuation holding the inputs' as they were and the outputs' at `out0_4` and `out0_5` of the
    inputs. The body also loads each output buffer once before it stores it; nothing uses what those loads read, so
    owning the output at SOME contents is all they need. The grid coordinate `i` is not read. -/
theorem sound_kernel0 (c : Dev nD) (E : Set ℕ) (i : grid0.Coords)
    (arg0 : Memref sig .tc .vmem S5000x128 .f32) (harg0 : arg0.IsWhole) (arg1 : Memref sig .tc .vmem S128x128 .f32) (harg1 : arg1.IsWhole)
    (arg2 : Memref sig .tc .vmem S1x128 .f32) (harg2 : arg2.IsWhole) (arg3 : Memref sig .tc .vmem S1x1 .f32) (harg3 : arg3.IsWhole)
    (arg4 : Memref sig .tc .vmem S5000x128 .f32) (harg4 : arg4.IsWhole) (arg5 : Memref sig .tc .vmem S5000x128 .f32) (harg5 : arg5.IsWhole)
    (x0 : Vec F S5000x128 .f32) (x1 : Vec F S128x128 .f32) (x2 : Vec F S1x128 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out0_4 x0 x1 x2)
            ∗ owns (c : Thread nD τ) arg5 fullShare (out0_5 x0 x1 x2 x3)) -∗ K ⟨⟩))
      ⊢ wp frame (wpE (defs₀ (F := F)) Variants.none c none) E
          (cc0__proj_kernel i arg0 harg0 arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-! ## The pipeline's proof data -/

/-- The proof data of the pipeline on core `c`: the arrays as the region finds them (`V`); after the body at point
    `t` each input's buffer still at its block, the first output's at the biased product of the blocks, the second's
    at that times the scale; the invariant is the untouched rest (the scoped buffers of the other call and the
    generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's debt, and each window's current staging
    buffer — an input's at what the pipeline left there, an output's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.Kernel.R1Runs.lean ====
/- REGION 1 (the pooling call): a grid of 49 points; at each point the body adds one block's contribution to two
   accumulators it keeps in scratch memory between points (a 64x384 sum and a 64x1 count), clears both first at
   point 0, and at point 48 divides, projects and stores the 64x64 result. This module holds what the three
   whole-body runs (one per control case) are stated over: each window's block read off the array the region finds,
   the two branch conditions in closed form over the grid, where the output window is idle, the staging and scratch
   memrefs, and the region invariant reshaped so that the two accumulators stand apart from the scoped buffers the
   body never touches. Everything is stated at a parameter V, the core's buffer contents when the region is entered. -/
import proofs.«421251_j42829413875734_1_alg».proof.Proof.Gen.Kernel.Launch
import proofs.«421251_j42829413875734_1_alg».proof.Proof.Gen.Kernel.Skeleton
import proofs.«421251_j42829413875734_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the data block of point `t`): its current staging buffer holds its block at every point, for any
    proof data whose array is `V`'s and whose body leaves the block in place. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the segment ids of point `t`'s rows): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the projection matrix, one block, fetched once): unfetched after the first point, its block index
    has not moved, so the buffer still holds the block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the bias row, one block, fetched once): the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (clear the accumulators), from the grid coordinate. -/
abbrev cond1_0 (i : grid1.Coords) : Prop := (Scalar.cmpi .ne (Scalar.extui (Scalar.cmpi .eq (BitVec.ofNat 32 (i 0).val) 0#32)) 0#32) = 1#1
/-- It holds at point 0 only — decided over the 49 points. -/
theorem hcond1_0 : ∀ t : Fin cfg1.N, cond1_0 (grid1.coords t) ↔ t.val % 49 = 0 :=
  (by decide +kernel : ∀ t : Fin grid1.N, cond1_0 (grid1.coords t) ↔ t.val % 49 = 0)

/-- The condition of the body's second conditional (finish and store the result), from the grid coordinate. -/
abbrev cond1_1 (i : grid1.Coords) : Prop := k1_cond2 i = 1#1
/-- It holds at point 48 only — decided over the 49 points. -/
theorem hcond1_1 : ∀ t : Fin cfg1.N, cond1_1 (grid1.coords t) ↔ t.val % 49 = 48 :=
  (by decide +kernel : ∀ t : Fin grid1.N, cond1_1 (grid1.coords t) ↔ t.val % 49 = 48)

/-! ## Where the windows are idle -/

/-- The four input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At the point of case A (the first) the output window is idle: the case stores nothing into it, -/
theorem idleAt1_4_A : ∀ t : Fin cfg1.N, cond1_0 (grid1.coords t) → ¬cond1_1 (grid1.coords t) → cfg1.idle 4 (grid1.coords t) = true := by decide +kernel
/-- and its block is not written back there. -/
theorem noFlush1_4_A : ∀ t : Fin cfg1.N, cond1_0 (grid1.coords t) → ¬cond1_1 (grid1.coords t) → (cfg1.win 4).flush t = false := by decide +kernel
/-- At the points of case B (1 to 47) the output window is idle, -/
theorem idleAt1_4_B : ∀ t : Fin cfg1.N, ¬cond1_0 (grid1.coords t) → ¬cond1_1 (grid1.coords t) → cfg1.idle 4 (grid1.coords t) = true := by decide +kernel
/-- and not written back. -/
theorem noFlush1_4_B : ∀ t : Fin cfg1.N, ¬cond1_0 (grid1.coords t) → ¬cond1_1 (grid1.coords t) → (cfg1.win 4).flush t = false := by decide +kernel
/-- At the point of case C (the last) the output window is live: the case stores the whole block. -/
theorem liveAt1_4_C : ∀ t : Fin cfg1.N, ¬cond1_0 (grid1.coords t) → cond1_1 (grid1.coords t) → cfg1.idle 4 (grid1.coords t) = false := by decide +kernel

/-! ## The memrefs the body is called with -/

/-- The output window's one staging buffer, through which its contents are stated. -/
abbrev VO1_4 : View sig .tc .vmem S64x64 .f32 := (Memref.whole cc1_stg4_0 : Memref sig .tc .vmem S64x64 .f32).view
/-- Each window's current staging memref at point `t`, spelled as the pipeline passes it, and its wholeness. -/
abbrev ms1_0 (t : Fin cfg1.N) : Memref sig .tc .vmem S2048x384 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S384x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
/-- The two scratch operands: whole scoped buffers of the kernel's own, passed beside the windows — the 64x384
    accumulator of sums and the 64x1 accumulator of counts. -/
abbrev scM1_0 : Memref sig .tc .vmem S64x384 .f32 := Memref.whole cc1_scratch0
abbrev scM1_1 : Memref sig .tc .vmem S64x1 .f32 := Memref.whole cc1_scratch1
/-- The same as views: what each accumulator holds is stated through them. -/
abbrev VS1_0 : View sig .tc .vmem S64x384 .f32 := scM1_0.view
abbrev VS1_1 : View sig .tc .vmem S64x1 .f32 := scM1_1.view

/-! ## The region invariant, the two accumulators apart -/

/-- A scoped buffer of the core, whole, at some contents. -/
abbrev anyAt (c : Dev nD) (b : Ref sig .tc) : sProp 𝕄 :=
  iprop(∃ f : Buf (Elt F) ((c : Thread nD τ).loc b), ((c : Thread nD τ).loc b) ↦{fullShare} f)

/-- The nine scoped buffers of the core that are neither a staging buffer of this call nor one of its two accumulators
    (the other call's staging buffers): the body never touches them; each rides along at some contents. -/
def R9 (c : Dev nD) : sProp 𝕄 :=
  iprop(anyAt (F := F) c cc0_stg0_0 ∗ anyAt (F := F) c cc0_stg0_1 ∗ anyAt (F := F) c cc0_stg1_0 ∗ anyAt (F := F) c cc0_stg2_0
    ∗ anyAt (F := F) c cc0_stg3_0 ∗ anyAt (F := F) c cc0_stg4_0 ∗ anyAt (F := F) c cc0_stg4_1 ∗ anyAt (F := F) c cc0_stg5_0
    ∗ anyAt (F := F) c cc0_stg5_1)

/-- Separating conjunction re-associated, as an equation. -/
theorem sep_assoc_eq {M : Type} [URA M] (P Q R : sProp M) : iprop((P ∗ Q) ∗ R) = iprop(P ∗ Q ∗ R) :=
  Idealize.SL.BI.Entails.antisymm Idealize.SL.BI.sep_assoc Idealize.SL.BI.sep_assoc'

/-- What the launch hands the region, reshaped: the nine untouched buffers bundled, each accumulator as a whole
    memref owned at some contents, and the generator register at some state. This is what the body obligation
    hands a run at the first point and what the region gives back at its end. -/
theorem PhiA1_eq (c : Dev nD) :
    (Pipeline.ΦA spec1 c : sProp 𝕄)
      = iprop(iprop(R9 (F := F) c ∗ (∃ d, owns (c : Thread nD τ) scM1_0 fullShare d) ∗ (∃ d, owns (c : Thread nD τ) scM1_1 fullShare d)) ∗ (∃ r, prngReg c r)) := by
  unfold Pipeline.ΦA R9; rw [scopedRest1_eq]; simp only [anyAt, scM1_0, scM1_1, owns_whole, sep_assoc_eq]; try rfl

end Cert.Kernel.Frm

end
-- ==== Proof.Kernel.R1RunA.lean ====
/- REGION 1, the whole-body run in CASE A: the first conditional taken, the second not — the first point of the grid. Both accumulators are cleared and
   then receive the first block's contribution (two stores each); the output's buffer is not touched. -/
import proofs.«421251_j42829413875734_1_alg».proof.Proof.Kernel.R1Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in each accumulator, as lists of stored pieces
    (last first), IN CASE A, WITH the proof that on whole memrefs the body runs to a continuation that holds the four
    inputs' buffers as they were and each written buffer with its pieces written. The body is its skeleton of memory
    operations, which is executed symbolically, each conditional decided by the case's hypotheses; the pieces are
    the witness that execution finds. -/
noncomputable def kernelRun1_A (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : cond1_0 i) (hc1 : ¬cond1_1 i)
    (x0 : Vec F S2048x384 .f32) (x1 : Vec F S1x2048 .i32) (x2 : Vec F S384x64 .f32) (x3 : Vec F S1x64 .f32) :
    Σ' (L4 : List (View.Piece (Elt F) S64x64 .f32)) (LS0 : List (View.Piece (Elt F) S64x384 .f32)), { LS1 : List (View.Piece (Elt F) S64x1 .f32) //
      ∀ (xi4 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__pool_kernel i arg1 harg1 arg2 harg2 arg3 harg3 arg4 harg4 arg5 harg5 arg6 harg6 arg7 harg7) K } := by
  refine ⟨[], ?_, ?_, fun xi4 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Frm

end
-- ==== Proof.Kernel.R1RunB.lean ====
/- REGION 1, the whole-body run in CASE B: neither conditional taken — the points 1 to 47. Each accumulator, found at what the point before left in it,
   receives this block's contribution (one store each); the output's buffer is not touched. -/
import proofs.«421251_j42829413875734_1_alg».proof.Proof.Kernel.R1RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in each accumulator, as lists of stored pieces
    (last first), IN CASE B, WITH the proof that on whole memrefs the body runs to a continuation that holds the four
    inputs' buffers as they were and each written buffer with its pieces written. The body is its skeleton of memory
    operations, which is executed symbolically, each conditional decided by the case's hypotheses; the pieces are
    the witness that execution finds. -/
noncomputable def kernelRun1_B (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : ¬cond1_1 i)
    (x0 : Vec F S2048x384 .f32) (x1 : Vec F S1x2048 .i32) (x2 : Vec F S384x64 .f32) (x3 : Vec F S1x64 .f32) (xs0 : Vec F S64x384 .f32) (xs1 : Vec F S64x1 .f32) :
    Σ' (L4 : List (View.Piece (Elt F) S64x64 .f32)) (LS0 : List (View.Piece (Elt F) S64x384 .f32)), { LS1 : List (View.Piece (Elt F) S64x1 .f32) //
      ∀ (xi4 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__pool_kernel i arg1 harg1 arg2 harg2 arg3 harg3 arg4 harg4 arg5 harg5 arg6 harg6 arg7 harg7) K } := by
  refine ⟨[], ?_, ?_, fun xi4 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Frm

end
-- ==== Proof.Kernel.R1RunC.lean ====
/- REGION 1, the whole-body run in CASE C: the first conditional not taken, the second taken — the last point of the grid. Each accumulator receives the
   last block's contribution (one store each); then the sums are divided by the counts (at least one), projected,
   the bias added, and the result stored over the whole of the output's buffer (one store). -/
import proofs.«421251_j42829413875734_1_alg».proof.Proof.Kernel.R1RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in each accumulator, as lists of stored pieces
    (last first), IN CASE C, WITH the proof that on whole memrefs the body runs to a continuation that holds the four
    inputs' buffers as they were and each written buffer with its pieces written. The body is its skeleton of memory
    operations, which is executed symbolically, each conditional decided by the case's hypotheses; the pieces are
    the witness that execution finds. -/
noncomputable def kernelRun1_C (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i)
    (x0 : Vec F S2048x384 .f32) (x1 : Vec F S1x2048 .i32) (x2 : Vec F S384x64 .f32) (x3 : Vec F S1x64 .f32) (xs0 : Vec F S64x384 .f32) (xs1 : Vec F S64x1 .f32) :
    Σ' (L4 : List (View.Piece (Elt F) S64x64 .f32)) (LS0 : List (View.Piece (Elt F) S64x384 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__pool_kernel i arg1 harg1 arg2 harg2 arg3 harg3 arg4 harg4 arg5 harg5 arg6 harg6 arg7 harg7) K } := by
  refine ⟨?_, ?_, ?_, fun E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.Kernel.Frm

end
-- ==== Proof.Kernel.R1.lean ====
/- REGION 1 (the pooling call), the rest of its class-R half: what each case's run leaves in the output's buffer and in the
   two accumulators, read back as contents; the accumulation over the 49 points (a triple: the output's buffer, the sums,
   the counts, by recursion on the point); the pipeline's proof data at a parameter V (the core's buffer contents when
   the region is entered); the body obligation at a generic point, case by case; and the invariant's two ends. The
   invariant carries, after each point, both accumulators at exactly what that point left in them. -/
import proofs.«421251_j42829413875734_1_alg».proof.Proof.Kernel.R1RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

/-! ## What each case leaves -/

/-- Case A stores nothing into the output (the window is idle at its points and not written back there): no pieces —
    a placeholder (junk read back) that nothing consults, since at these points the window is neither written back nor
    read at the next point. -/
def out1_A_4 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : cond1_0 i) (hc1 : ¬cond1_1 i)
    (x0 : Vec F S2048x384 .f32) (x1 : Vec F S1x2048 .i32) (x2 : Vec F S384x64 .f32) (x3 : Vec F S1x64 .f32) : Vec F S64x64 .f32 :=
  VO1_4.read (Elt F) (VO1_4.writes (Elt F) VO1_4.junk (kernelRun1_A c i arg1 harg1 arg2 harg2 arg3 harg3 arg4 harg4 arg5 harg5 arg6 harg6 arg7 harg7 hc0 hc1 x0 x1 x2 x3).1)

/-- Case A's pieces for the accumulator of sums cover it: 2 pieces of the whole 64x384 extent. -/
theorem scover1_A_0 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : cond1_0 i) (hc1 : ¬cond1_1 i)
    (x0 : Vec F S2048x384 .f32) (x1 : Vec F S1x2048 .i32) (x2 : Vec F S384x64 .f32) (x3 : Vec F S1x64 .f32) (y : S64x384.Idx) :
    ∃ pc ∈ (kernelRun1_A c i arg1 harg1 arg2 harg2 arg3 harg3 arg4 harg4 arg5 harg5 arg6 harg6 arg7 harg7 hc0 hc1 x0 x1 x2 x3).2.1, y ∈ pc.1.set :=
  View.cover_of_tiledL (kernelRun1_A c i arg1 harg1 arg2 harg2 arg3 harg3 arg4 harg4 arg5 harg5 arg6 harg6 arg7 harg7 hc0 hc1 x0 x1 x2 x3).2.1 S64x384.size (by sl_kernel_rfl) y

/-- What case A leaves in the accumulator of sums: its pieces read back over junk — zero plus the first block's segment sums (the one-hot of the ids times the data block). -/
def sout1_A_0 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : cond1_0 i) (hc1 : ¬cond1_1 i)
    (x0 : Vec F S2048x384 .f32) (x1 : Vec F S1x2048 .i32) (x2 : Vec F S384x64 .f32) (x3 : Vec F S1x64 .f32) : Vec F S64x384 .f32 :=
  VS1_0.read (Elt F) (VS1_0.writes (Elt F) VS1_0.junk (kernelRun1_A c i arg1 harg1 arg2 harg2 arg3 harg3 arg4 harg4 arg5 harg5 arg6 harg6 arg7 harg7 hc0 hc1 x0 x1 x2 x3).2.1)

/-- Case A's pieces for the accumulator of counts cover it: 2 pieces of the whole 64x1 extent. -/
theorem scover1_A_1 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : cond1_0 i) (hc1 : ¬cond1_1 i)
    (x0 : Vec F S2048x384 .f32) (x1 : Vec F S1x2048 .i32) (x2 : Vec F S384x64 .f32) (x3 : Vec F S1x64 .f32) (y : S64x1.Idx) :
    ∃ pc ∈ (kernelRun1_A c i arg1 harg1 arg2 harg2 arg3 harg3 arg4 harg4 arg5 harg5 arg6 harg6 arg7 harg7 hc0 hc1 x0 x1 x2 x3).2.2.1, y ∈ pc.1.set :=
  View.cover_of_tiledL (kernelRun1_A c i arg1 harg1 arg2 harg2 arg3 harg3 arg4 harg4 arg5 harg5 arg6 harg6 arg7 harg7 hc0 hc1 x0 x1 x2 x3).2.2.1 S64x1.size (by sl_kernel_rfl) y

/-- What case A leaves in the accumulator of counts: its pieces read back over junk — zero plus the first block's segment counts. -/
def sout1_A_1 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : cond1_0 i) (hc1 : ¬cond1_1 i)
    (x0 : Vec F S2048x384 .f32) (x1 : Vec F S1x2048 .i32) (x2 : Vec F S384x64 .f32) (x3 : Vec F S1x64 .f32) : Vec F S64x1 .f32 :=
  VS1_1.read (Elt F) (VS1_1.writes (Elt F) VS1_1.junk (kernelRun1_A c i arg1 harg1 arg2 harg2 arg3 harg3 arg4 harg4 arg5 harg5 arg6 harg6 arg7 harg7 hc0 hc1 x0 x1 x2 x3).2.2.1)

/-- Case B stores nothing into the output (the window is idle at its points and not written back there): no pieces —
    a placeholder (junk read back) that nothing consults, since at these points the window is neither written back nor
    read at the next point. -/
def out1_B_4 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : ¬cond1_1 i)
    (x0 : Vec F S2048x384 .f32) (x1 : Vec F S1x2048 .i32) (x2 : Vec F S384x64 .f32) (x3 : Vec F S1x64 .f32) (xs0 : Vec F S64x384 .f32) (xs1 : Vec F S64x1 .f32) : Vec F S64x64 .f32 :=
  VO1_4.read (Elt F) (VO1_4.writes (Elt F) VO1_4.junk (kernelRun1_B c i arg1 harg1 arg2 harg2 arg3 harg3 arg4 harg4 arg5 harg5 arg6 harg6 arg7 harg7 hc0 hc1 x0 x1 x2 x3 xs0 xs1).1)

/-- Case B's pieces for the accumulator of sums cover it: 1 piece of the whole 64x384 extent. -/
theorem scover1_B_0 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : ¬cond1_1 i)
    (x0 : Vec F S2048x384 .f32) (x1 : Vec F S1x2048 .i32) (x2 : Vec F S384x64 .f32) (x3 : Vec F S1x64 .f32) (xs0 : Vec F S64x384 .f32) (xs1 : Vec F S64x1 .f32) (y : S64x384.Idx) :
    ∃ pc ∈ (kernelRun1_B c i arg1 harg1 arg2 harg2 arg3 harg3 arg4 harg4 arg5 harg5 arg6 harg6 arg7 harg7 hc0 hc1 x0 x1 x2 x3 xs0 xs1).2.1, y ∈ pc.1.set :=
  View.cover_of_tiledL (kernelRun1_B c i arg1 harg1 arg2 harg2 arg3 harg3 arg4 harg4 arg5 harg5 arg6 harg6 arg7 harg7 hc0 hc1 x0 x1 x2 x3 xs0 xs1).2.1 S64x384.size (by sl_kernel_rfl) y

/-- What case B leaves in the accumulator of sums: its pieces read back over junk — what the point before left plus this block's segment sums. -/
def sout1_B_0 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : ¬cond1_1 i)
    (x0 : Vec F S2048x384 .f32) (x1 : Vec F S1x2048 .i32) (x2 : Vec F S384x64 .f32) (x3 : Vec F S1x64 .f32) (xs0 : Vec F S64x384 .f32) (xs1 : Vec F S64x1 .f32) : Vec F S64x384 .f32 :=
  VS1_0.read (Elt F) (VS1_0.writes (Elt F) VS1_0.junk (kernelRun1_B c i arg1 harg1 arg2 harg2 arg3 harg3 arg4 harg4 arg5 harg5 arg6 harg6 arg7 harg7 hc0 hc1 x0 x1 x2 x3 xs0 xs1).2.1)

/-- Case B's pieces for the accumulator of counts cover it: 1 piece of the whole 64x1 extent. -/
theorem scover1_B_1 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : ¬cond1_1 i)
    (x0 : Vec F S2048x384 .f32) (x1 : Vec F S1x2048 .i32) (x2 : Vec F S384x64 .f32) (x3 : Vec F S1x64 .f32) (xs0 : Vec F S64x384 .f32) (xs1 : Vec F S64x1 .f32) (y : S64x1.Idx) :
    ∃ pc ∈ (kernelRun1_B c i arg1 harg1 arg2 harg2 arg3 harg3 arg4 harg4 arg5 harg5 arg6 harg6 arg7 harg7 hc0 hc1 x0 x1 x2 x3 xs0 xs1).2.2.1, y ∈ pc.1.set :=
  View.cover_of_tiledL (kernelRun1_B c i arg1 harg1 arg2 harg2 arg3 harg3 arg4 harg4 arg5 harg5 arg6 harg6 arg7 harg7 hc0 hc1 x0 x1 x2 x3 xs0 xs1).2.2.1 S64x1.size (by sl_kernel_rfl) y

/-- What case B leaves in the accumulator of counts: its pieces read back over junk — what the point before left plus this block's segment counts. -/
def sout1_B_1 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : ¬cond1_1 i)
    (x0 : Vec F S2048x384 .f32) (x1 : Vec F S1x2048 .i32) (x2 : Vec F S384x64 .f32) (x3 : Vec F S1x64 .f32) (xs0 : Vec F S64x384 .f32) (xs1 : Vec F S64x1 .f32) : Vec F S64x1 .f32 :=
  VS1_1.read (Elt F) (VS1_1.writes (Elt F) VS1_1.junk (kernelRun1_B c i arg1 harg1 arg2 harg2 arg3 harg3 arg4 harg4 arg5 harg5 arg6 harg6 arg7 harg7 hc0 hc1 x0 x1 x2 x3 xs0 xs1).2.2.1)

/-- Case C's one store into the output covers its 64x64 block (checked by evaluating the tiling test on the run's
    pieces). -/
theorem cover1_C_4 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i)
    (x0 : Vec F S2048x384 .f32) (x1 : Vec F S1x2048 .i32) (x2 : Vec F S384x64 .f32) (x3 : Vec F S1x64 .f32) (xs0 : Vec F S64x384 .f32) (xs1 : Vec F S64x1 .f32) (y : S64x64.Idx) :
    ∃ pc ∈ (kernelRun1_C c i arg1 harg1 arg2 harg2 arg3 harg3 arg4 harg4 arg5 harg5 arg6 harg6 arg7 harg7 hc0 hc1 x0 x1 x2 x3 xs0 xs1).1, y ∈ pc.1.set :=
  View.cover_of_tiledL (kernelRun1_C c i arg1 harg1 arg2 harg2 arg3 harg3 arg4 harg4 arg5 harg5 arg6 harg6 arg7 harg7 hc0 hc1 x0 x1 x2 x3 xs0 xs1).1 S64x64.size (by sl_kernel_rfl) y

/-- What case C leaves in the output's staging buffer: its piece read back over junk — the sums divided by the counts
    (at least one), projected, plus the bias. -/
def out1_C_4 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i)
    (x0 : Vec F S2048x384 .f32) (x1 : Vec F S1x2048 .i32) (x2 : Vec F S384x64 .f32) (x3 : Vec F S1x64 .f32) (xs0 : Vec F S64x384 .f32) (xs1 : Vec F S64x1 .f32) : Vec F S64x64 .f32 :=
  VO1_4.read (Elt F) (VO1_4.writes (Elt F) VO1_4.junk (kernelRun1_C c i arg1 harg1 arg2 harg2 arg3 harg3 arg4 harg4 arg5 harg5 arg6 harg6 arg7 harg7 hc0 hc1 x0 x1 x2 x3 xs0 xs1).1)

/-- Case C's pieces for the accumulator of sums cover it: 1 piece of the whole 64x384 extent. -/
theorem scover1_C_0 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i)
    (x0 : Vec F S2048x384 .f32) (x1 : Vec F S1x2048 .i32) (x2 : Vec F S384x64 .f32) (x3 : Vec F S1x64 .f32) (xs0 : Vec F S64x384 .f32) (xs1 : Vec F S64x1 .f32) (y : S64x384.Idx) :
    ∃ pc ∈ (kernelRun1_C c i arg1 harg1 arg2 harg2 arg3 harg3 arg4 harg4 arg5 harg5 arg6 harg6 arg7 harg7 hc0 hc1 x0 x1 x2 x3 xs0 xs1).2.1, y ∈ pc.1.set :=
  View.cover_of_tiledL (kernelRun1_C c i arg1 harg1 arg2 harg2 arg3 harg3 arg4 harg4 arg5 harg5 arg6 harg6 arg7 harg7 hc0 hc1 x0 x1 x2 x3 xs0 xs1).2.1 S64x384.size (by sl_kernel_rfl) y

/-- What case C leaves in the accumulator of sums: its pieces read back over junk — what the point before left plus the last block's segment sums. -/
def sout1_C_0 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i)
    (x0 : Vec F S2048x384 .f32) (x1 : Vec F S1x2048 .i32) (x2 : Vec F S384x64 .f32) (x3 : Vec F S1x64 .f32) (xs0 : Vec F S64x384 .f32) (xs1 : Vec F S64x1 .f32) : Vec F S64x384 .f32 :=
  VS1_0.read (Elt F) (VS1_0.writes (Elt F) VS1_0.junk (kernelRun1_C c i arg1 harg1 arg2 harg2 arg3 harg3 arg4 harg4 arg5 harg5 arg6 harg6 arg7 harg7 hc0 hc1 x0 x1 x2 x3 xs0 xs1).2.1)

/-- Case C's pieces for the accumulator of counts cover it: 1 piece of the whole 64x1 extent. -/
theorem scover1_C_1 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i)
    (x0 : Vec F S2048x384 .f32) (x1 : Vec F S1x2048 .i32) (x2 : Vec F S384x64 .f32) (x3 : Vec F S1x64 .f32) (xs0 : Vec F S64x384 .f32) (xs1 : Vec F S64x1 .f32) (y : S64x1.Idx) :
    ∃ pc ∈ (kernelRun1_C c i arg1 harg1 arg2 harg2 arg3 harg3 arg4 harg4 arg5 harg5 arg6 harg6 arg7 harg7 hc0 hc1 x0 x1 x2 x3 xs0 xs1).2.2.1, y ∈ pc.1.set :=
  View.cover_of_tiledL (kernelRun1_C c i arg1 harg1 arg2 harg2 arg3 harg3 arg4 harg4 arg5 harg5 arg6 harg6 arg7 harg7 hc0 hc1 x0 x1 x2 x3 xs0 xs1).2.2.1 S64x1.size (by sl_kernel_rfl) y

/-- What case C leaves in the accumulator of counts: its pieces read back over junk — what the point before left plus the last block's segment counts. -/
def sout1_C_1 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i)
    (x0 : Vec F S2048x384 .f32) (x1 : Vec F S1x2048 .i32) (x2 : Vec F S384x64 .f32) (x3 : Vec F S1x64 .f32) (xs0 : Vec F S64x384 .f32) (xs1 : Vec F S64x1 .f32) : Vec F S64x1 .f32 :=
  VS1_1.read (Elt F) (VS1_1.writes (Elt F) VS1_1.junk (kernelRun1_C c i arg1 harg1 arg2 harg2 arg3 harg3 arg4 harg4 arg5 harg5 arg6 harg6 arg7 harg7 hc0 hc1 x0 x1 x2 x3 xs0 xs1).2.2.1)

/-! ## What the buffers hold after each point -/

/-- THE ACCUMULATION. What the output's staging buffer and the two accumulators hold after the body at position `n` (a
    triple: the output's buffer, the sums, the counts): the case the closed forms select at `n`, run at the point's
    memrefs and input blocks, each accumulator at what this leaves at `n - 1`. Position 0 is case A; a later position
    is case C if it is the last and case B otherwise (no later position is a multiple of 49: no case there). -/
def outsAt1 (c : Dev nD) : (n : ℕ) → n < cfg1.N → Vec F S64x64 .f32 × Vec F S64x384 .f32 × Vec F S64x1 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 49 = 0 then
      False.elim (by have hN : n + 1 < 49 := lt_of_lt_of_eq hn (show cfg1.N = 49 from N_1); omega)
    else
      if h1 : (n + 1) % 49 = 48 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)

/-- `outsAt1` at the point of case A: that case's contents. -/
theorem outsAt1_A (c : Dev nD) (t : Fin cfg1.N) (h0 : t.val % 49 = 0) (h1 : ¬t.val % 49 = 48) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (by exfalso; have hN : n + 1 < 49 := lt_of_lt_of_eq hn (show cfg1.N = 49 from N_1); (try dsimp only at h0); omega)

/-- `outsAt1` at a point of case B: that case's contents, over what the point before left. -/
theorem outsAt1_B (c : Dev nD) (t : Fin cfg1.N) (h0 : ¬t.val % 49 = 0) (h1 : ¬t.val % 49 = 48) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at the point of case C: that case's contents, over what the point before left. -/
theorem outsAt1_C (c : Dev nD) (t : Fin cfg1.N) (h0 : ¬t.val % 49 = 0) (h1 : t.val % 49 = 48) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point what the launch hands the region (every scoped
    buffer that is no staging buffer of this call at anything, the generator register at some state); afterwards the
    nine untouched buffers at anything, each accumulator at exactly what the point before left in it (`outsAt1`'s second
    and third components), and the generator register at some state. -/
def PhiS1 (c : Dev nD) : (n : ℕ) → n ≤ cfg1.N → sProp 𝕄
  | 0, _ => Pipeline.ΦA spec1 c
  | n + 1, hn => iprop(iprop(R9 (F := F) c ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop(R9 (F := F) c ∗ owns (c : Thread nD τ) scM1_0 fullShare ((outsAt1 V c n hn).2.1) ∗ owns (c : Thread nD τ) scM1_1 fullShare ((outsAt1 V c n hn).2.2)) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(R9 (F := F) c ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

/-- The proof data of this pipeline on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The proof data bounds the core's recorded waits by nothing (the body takes on no new units): the field at its default. -/
theorem rec1 (c : Dev nD) (t : Fin (cfg1.N + 1)) : (dat1 V c).recorded t = Set.univ := rfl

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the closed forms say which case the point is in; the
    invariant hands the body both accumulators — at anything at the first point, where the body clears them before
    reading, and otherwise at exactly what the point before left — with the generator register, the nine untouched
    buffers passing by; the case's run applies; the accumulators come back with the case's pieces written, which cover
    them, hence at this point's contents. At the first point and the middle points the output's buffer is handed back as
    found (idle, not written back); at the last point it comes back covered by the one store. The core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 49 := lt_of_lt_of_eq t.isLt (show cfg1.N = 49 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 49 = 0
  · by_cases h1 : t.val % 49 = 48
    · exfalso; omega
    · rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1; (try dsimp only)
      have hz : t.val = 0 := by omega
      rw [PhiS1_castSucc V c t, PhiS1_zero V c _ _ hz, PhiA1_eq]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 49 = 48
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1; (try dsimp only)
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1; (try dsimp only)
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulators' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1⟩, Hg⟩
  isplitl [HR HS0 HS1]
  · isplitl [HR]; · iexact HR
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 49 := N_1; omega)

end Cert.Kernel.Frm

end
-- ==== Proof.Kernel.Halves.lean ====
/-
  The two regions' halves put into the launch: the projection region's proof data (class A: each output buffer is the
  body's one store over the input blocks) and the pooling region's (the two accumulators carried between points, the
  result stored at the last point only), with the facts the launch asks of them. The program's frame claim and the
  contents of its result array at the end follow.
-/
import proofs.«421251_j42829413875734_1_alg».proof.Proof.Kernel.Run
import proofs.«421251_j42829413875734_1_alg».proof.Proof.Kernel.R0
import proofs.«421251_j42829413875734_1_alg».proof.Proof.Kernel.R1

noncomputable section

namespace Cert.Kernel.Frm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The projection region's half: its invariant is the class's at every point. -/
def half0 : Half0 (F := F) where
  dat := dat0
  hA := A_eq0
  hshare V c := (dat0 V c).share_full fun _ => rfl
  howed _ _ _ := rfl
  hrec _ _ _ := rfl
  hin V c := by rw [show (dat0 V c).Φ 0 = Pipeline.ΦA spec0 c from rfl]
  hout V c := by rw [show (dat0 V c).Φ (Fin.last cfg0.N) = Pipeline.ΦA spec0 c from rfl]
  hbody := body_obligation0

/-- The pooling region's half: the class invariant before the first point and after the last, the accumulators named
    in between. -/
def half1 : Half1 (F := F) where
  dat := dat1
  hA := A_eq1
  hshare V c := (dat1 V c).share_full fun _ => rfl
  howed _ _ _ := rfl
  hrec _ _ _ := rfl
  hin := hin1
  hout := hout1
  hbody := body_obligation1

variable (m : (ℓ : Loc nD τ sig) → Buf (Elt F) ℓ) (ρ : Dev nD → PrngReg)

/-- What the pooling region is entered from. -/
abbrev entry1 : Entry F := E7 (half0 (F := F)) m

/-- THE PROGRAM'S FRAME: it runs to the end, faults nowhere, and leaves every argument array as launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame half0 half1 m ρ

end Cert.Kernel.Frm

end
-- ==== Proof.KernelIdeal.Run.lean ====
/-
  The whole run of @main: host operations, the projection region, the gather / scatter-add stretch with the padding,
  the pooling region. Between two items every unscoped buffer of the core is held at a named contents; a region takes
  its windows' arrays out of that state, runs its pipeline, and puts them back at what the write-backs leave, every
  other buffer untouched. Each region's half — its proof data at the contents it is entered from, and the body
  obligation — is a parameter here (a record of statements); what is proved is the launch over them: every weakly
  fair execution ends, and at the end every unscoped buffer holds the last boundary's contents. The frame claim and
  the result array are both read off that.
-/
import proofs.«421251_j42829413875734_1_alg».proof.Proof.KernelIdeal.RunCond
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's TensorCore buffers at some contents: what a region's half is stated at. -/
abbrev Entry (F : FTy → Type) : Type := (c : Dev nD) → (b : Ref sig .tc) → Buf (Elt F) ((c : Thread nD τ).loc b)

/-- THE PROJECTION REGION'S HALF: proof data for every entry contents, reading its arrays off them, with full shares
    and nothing owed, the class invariant in and out, and the body obligation. -/
structure Half0 where
  dat : Entry F → (c : Dev nD) → Dat τ (Elt F) Unit ℕ (UR sig nD τ) ℕ cfg0 c
  hA : ∀ V c w, (dat V c).A w = V c (Pipeline.arrRef spec0 w)
  hshare : ∀ V c w, (dat V c).share w = fullShare
  howed : ∀ V c t, (dat V c).owed t = 0
  hrec : ∀ V c t, (dat V c).recorded t = Set.univ
  hin : ∀ V c, (Pipeline.ΦA spec0 c : sProp 𝕄) ⊢ (dat V c).Φ 0
  hout : ∀ V c, (dat V c).Φ (Fin.last cfg0.N) ⊢ (Pipeline.ΦA spec0 c : sProp 𝕄)
  hbody : ∀ V c, BodyObligation (dat V c) (defs₀ (F := F)) Variants.none () Set.univ

/-- THE POOLING REGION'S HALF, the same. -/
structure Half1 where
  dat : Entry F → (c : Dev nD) → Dat τ (Elt F) Unit ℕ (UR sig nD τ) ℕ cfg1 c
  hA : ∀ V c w, (dat V c).A w = V c (Pipeline.arrRef spec1 w)
  hshare : ∀ V c w, (dat V c).share w = fullShare
  howed : ∀ V c t, (dat V c).owed t = 0
  hrec : ∀ V c t, (dat V c).recorded t = Set.univ
  hin : ∀ V c, (Pipeline.ΦA spec1 c : sProp 𝕄) ⊢ (dat V c).Φ 0
  hout : ∀ V c, (dat V c).Φ (Fin.last cfg1.N) ⊢ (Pipeline.ΦA spec1 c : sProp 𝕄)
  hbody : ∀ V c, BodyObligation (dat V c) (defs₀ (F := F)) Variants.none () Set.univ

variable (H0 : Half0 (F := F)) (H1 : Half1 (F := F))
variable (m : (ℓ : Loc nD τ sig) → Buf (Elt F) ℓ) (ρ : Dev nD → PrngReg)

/-! ## The contents at the regions' boundaries -/

/-- What the projection region is entered from: the launch memory after the first host operations. -/
abbrev E1 : Entry F := fun c b => V1 m c b

/-- After the projection region: its arrays at what its write-backs leave, every other buffer as entered. -/
def X2 (c : Dev nD) : Valuation τ sig (Elt F) :=
  Pipeline.withArrays spec0 c (V1 m c) fun w => (H0.dat (E1 m) c).arrAt w cfg0.N

/-- The regions' results, first stage: the projection's two outputs named, nothing yet for the pooling region. -/
def outsA : Outs (F := F) := fun _ r c => X2 H0 m c r

/-- What the pooling region is entered from: the host stretch between the regions run from the projection's results. -/
abbrev E7 : Entry F := fun c b => V7 m (outsA H0 m) c b

/-- After the pooling region: its arrays at what its write-backs leave, every other buffer as entered. -/
def X8 (c : Dev nD) : Valuation τ sig (Elt F) :=
  Pipeline.withArrays spec1 c (V7 m (outsA H0 m) c) fun w => (H1.dat (E7 H0 m) c).arrAt w cfg1.N

/-- The regions' results: after item 7 the pooling region's, before it the projection's. -/
def outs : Outs (F := F) := fun J r c => match J with
  | 8 => X8 H0 H1 m c r
  | _ => X2 H0 m c r

theorem outs_two (r : Ref sig .tc) (c : Dev nD) : outs H0 H1 m 2 r c = outsA H0 m 2 r c := rfl
theorem outs_eight (r : Ref sig .tc) (c : Dev nD) : outs H0 H1 m 8 r c = X8 H0 H1 m c r := rfl

theorem V2_outs (c : Dev nD) : V2 m (outs H0 H1 m) c = V2 m (outsA H0 m) c := rfl
theorem V7_outs (c : Dev nD) : V7 m (outs H0 H1 m) c = V7 m (outsA H0 m) c :=
  congrArg (StableHlo.after hostOps1_4) (congrArg (StableHlo.after hostOps1_3) (congrArg (StableHlo.after hostOps1_2)
    (congrArg (StableHlo.after hostOps1_1) (congrArg (StableHlo.after hostOps1) (V2_outs H0 H1 m c)))))

/-- The same contents read at the TensorCore's references. -/
abbrev E2 : Entry F := fun c b => V2 m (outs H0 H1 m) c b
abbrev E8 : Entry F := fun c b => V8 m (outs H0 H1 m) c b

/-! ## The proof data family -/

abbrev adm' : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (cfgs p) c
  | ⟨0, _⟩ => fun c => H0.dat (E1 m) c
  | ⟨1, _⟩ => fun c => H1.dat (E7 H0 m) c

abbrev 𝒱₀ : Variants := Variants.none
abbrev L : GSem nD τ sig → Finset Unit := fun _ => ∅
abbrev lv : GSem nD τ sig → Unit → ℕ := fun _ _ => 0

/-- What rides beside the buffers through every item: the core's generator register at some state, and the core
    owing nothing. -/
abbrev Rst (c : Dev nD) : sProp 𝕄 := iprop((∃ r, prngReg c r) ∗ ∃ W, owes (c : Thread nD τ) (0 : CellTallies nD τ sig Unit) W)

/-! ## The projection region's arrays at its exit -/

theorem devRef_ne {r r' : Ref sig .tc} (h : r ≠ r') : (Proc.devRef .tc r : DevRef τ sig) ≠ Proc.devRef .tc r' :=
  StableHlo.devRef_ne_of_ne h

theorem X2_arr (c : Dev nD) (w : Fin cfg0.W) :
    X2 H0 m c (Proc.devRef .tc (Pipeline.arrRef spec0 w)) = (H0.dat (E1 m) c).arrAt w cfg0.N := by
  unfold X2; exact Pipeline.withArrays_arr spec0 launch0.win.arr_inj c _ _ w

theorem X8_arr (c : Dev nD) (w : Fin cfg1.W) :
    X8 H0 H1 m c (Proc.devRef .tc (Pipeline.arrRef spec1 w)) = (H1.dat (E7 H0 m) c).arrAt w cfg1.N := by
  unfold X8; exact Pipeline.withArrays_arr spec1 launch1.win.arr_inj c _ _ w

/-- At the projection's exit each of its arrays holds what the pipeline leaves: an input array what it was entered
    with, an output array what the results name. -/
theorem hF0 (c : Dev nD) (w : Fin cfg0.W) :
    (pdats H0 H1 m 0 c).arrAt w cfg0.N = E2 H0 H1 m c (Pipeline.arrRef spec0 w) := by
  show (H0.dat (E1 m) c).arrAt w cfg0.N = V2 m (outs H0 H1 m) c (Proc.devRef .tc (Pipeline.arrRef spec0 w))
  match w with
  | ⟨0, _⟩ => exact (((H0.dat (E1 m) c).arrAt_in 0 rfl _).trans (H0.hA (E1 m) c 0)).trans (V2_of m (outs H0 H1 m) c main_arg0 (by decide)).symm
  | ⟨1, _⟩ => exact (((H0.dat (E1 m) c).arrAt_in 1 rfl _).trans (H0.hA (E1 m) c 1)).trans (V2_of m (outs H0 H1 m) c main_arg6 (by decide)).symm
  | ⟨2, _⟩ => exact (((H0.dat (E1 m) c).arrAt_in 2 rfl _).trans (H0.hA (E1 m) c 2)).trans (V2_of m (outs H0 H1 m) c main_v3 (by decide)).symm
  | ⟨3, _⟩ => exact (((H0.dat (E1 m) c).arrAt_in 3 rfl _).trans (H0.hA (E1 m) c 3)).trans (V2_of m (outs H0 H1 m) c main_v2 (by decide)).symm
  | ⟨4, _⟩ =>
    show _ = Function.update (Function.update (V1 m c) main_v4_0 (outs H0 H1 m 2 main_v4_0 c)) main_v4_1 (outs H0 H1 m 2 main_v4_1 c) main_v4_0
    rw [Function.update_of_ne (devRef_ne (by decide) : (Proc.devRef .tc main_v4_0 : DevRef τ sig) ≠ Proc.devRef .tc main_v4_1), Function.update_self]
    exact (X2_arr H0 m c 4).symm
  | ⟨5, _⟩ =>
    show _ = Function.update (Function.update (V1 m c) main_v4_0 (outs H0 H1 m 2 main_v4_0 c)) main_v4_1 (outs H0 H1 m 2 main_v4_1 c) main_v4_1
    rw [Function.update_self]
    exact (X2_arr H0 m c 5).symm

/-- Every buffer that is no array of the projection region holds at its exit what it held at its entry. -/
theorem hrest0 (c : Dev nD) : ∀ b, b ∉ Finset.univ.image (Pipeline.arrRef spec0) → E2 H0 H1 m c b = E1 m c b := fun b hb =>
  V2_of m (outs H0 H1 m) c b (by
    intro hmem
    simp only [List.mem_cons, List.mem_nil_iff, _root_.or_false] at hmem
    rcases hmem with rfl | rfl
    · exact hb (Finset.mem_image.mpr ⟨4, Finset.mem_univ _, rfl⟩)
    · exact hb (Finset.mem_image.mpr ⟨5, Finset.mem_univ _, rfl⟩))

/-! ## The pooling region's arrays at its exit -/

theorem hF1 (c : Dev nD) (w : Fin cfg1.W) :
    (pdats H0 H1 m 1 c).arrAt w cfg1.N = E8 H0 H1 m c (Pipeline.arrRef spec1 w) := by
  show (H1.dat (E7 H0 m) c).arrAt w cfg1.N = V8 m (outs H0 H1 m) c (Proc.devRef .tc (Pipeline.arrRef spec1 w))
  match w with
  | ⟨0, _⟩ => exact (((H1.dat (E7 H0 m) c).arrAt_in 0 rfl _).trans (H1.hA (E7 H0 m) c 0)).trans ((V8_of m (outs H0 H1 m) c main_v26 (by decide)).trans (congrFun (V7_outs H0 H1 m c) _)).symm
  | ⟨1, _⟩ => exact (((H1.dat (E7 H0 m) c).arrAt_in 1 rfl _).trans (H1.hA (E7 H0 m) c 1)).trans ((V8_of m (outs H0 H1 m) c main_v28 (by decide)).trans (congrFun (V7_outs H0 H1 m c) _)).symm
  | ⟨2, _⟩ => exact (((H1.dat (E7 H0 m) c).arrAt_in 2 rfl _).trans (H1.hA (E7 H0 m) c 2)).trans ((V8_of m (outs H0 H1 m) c main_arg9 (by decide)).trans (congrFun (V7_outs H0 H1 m c) _)).symm
  | ⟨3, _⟩ => exact (((H1.dat (E7 H0 m) c).arrAt_in 3 rfl _).trans (H1.hA (E7 H0 m) c 3)).trans ((V8_of m (outs H0 H1 m) c main_v29 (by decide)).trans (congrFun (V7_outs H0 H1 m c) _)).symm
  | ⟨4, _⟩ =>
    show _ = Function.update (V7 m (outs H0 H1 m) c) main_v30 (outs H0 H1 m 8 main_v30 c) main_v30
    rw [Function.update_self]
    exact (X8_arr H0 H1 m c 4).symm

theorem hrest1 (c : Dev nD) : ∀ b, b ∉ Finset.univ.image (Pipeline.arrRef spec1) → E8 H0 H1 m c b = E7 H0 m c b := fun b hb =>
  (V8_of m (outs H0 H1 m) c b (by
    intro hmem
    simp only [List.mem_cons, List.mem_nil_iff, _root_.or_false] at hmem
    subst hmem
    exact hb (Finset.mem_image.mpr ⟨4, Finset.mem_univ _, rfl⟩))).trans (congrFun (V7_outs H0 H1 m c) _)

/-! ## The regions as segments -/

set_option backward.isDefEq.respectTransparency.types false in
/-- THE PROJECTION REGION over the thread state: entered from every unscoped buffer at the contents after the first
    host operations, left with its two result arrays at what its write-backs leave and every other buffer as it was.
    Its arrays are split out of the unscoped buffers and put back; the generator register goes into the class invariant
    and comes out; nothing is owed; the kernel has no semaphore of its own. -/
def reg0 : Pipeline.RegionSeg (pcfgs (F := F)) adm' (pdats H0 H1 m) () defs₀ 𝒱₀ L lv 0 where
  win := launch0.win.to₀
  block_pos := launch0.block_pos
  stage_whole := launch0.stage_whole
  K := PEmpty
  osem k := k.elim
  ho := Pipeline.OwnSemFacts.none _
  hbody c := (H0.hbody (E1 m) c).loose
  hwaits := Pipeline.hwaits_of_owed_zero _ _ _ _ L lv 0 fun c t => H0.howed (E1 m) c t
  pre c := iprop(StableHlo.held (c : Thread nD τ) (Pipeline.ucRefs τ sig) (V1 m c) ∗ Rst c)
  post c := iprop(StableHlo.held (c : Thread nD τ) (Pipeline.ucRefs τ sig) (V2 m (outs H0 H1 m) c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have ho : ∀ t, (pdats H0 H1 m 0 c).owed t = 0 := fun t => H0.howed (E1 m) c t
    have hr : (pdats H0 H1 m 0 c).recorded 0 = Set.univ := H0.hrec (E1 m) c 0
    have hsplit := Pipeline.arrays_of_unscopedBufs (p := 0) (pcfgs (F := F)) adm' (pdats H0 H1 m) launch0.win launch0.arr_whole c
      (H0.hshare (E1 m) c) (E1 m c) (H0.hA (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl (by rw [hr]; trivial)
      iexact HO
    isplitl [Hp]; · iexact Hp
    iexact Hrest
  hin c := by
    have h : (Pipeline.ΦA spec0 c : sProp 𝕄) ⊢ (pdats H0 H1 m 0 c).Φ 0 := H0.hin (E1 m) c
    unfold Pipeline.ΦA at h
    iintro ⟨Hp, -, Hr⟩
    iapply h
    isplitl [Hr]; · iexact Hr
    iexact Hp
  hout c := by
    rw [Pipeline.ownSems0_none]
    have h : (pdats H0 H1 m 0 c).Φ (Fin.last (Pipeline.pin (pcfgs (F := F)) adm' 0).N) ⊢ (Pipeline.ΦA spec0 c : sProp 𝕄) := H0.hout (E1 m) c
    unfold Pipeline.ΦA at h
    iintro HΦ
    ihave H := h $$ HΦ
    icases H with ⟨Hr, Hp⟩
    isplitl [Hp]; · iexact Hp
    isplitr; · iempintro
    iexact Hr
  hexit c := by
    have ho : ∀ t, (pdats H0 H1 m 0 c).owed t = 0 := fun t => H0.howed (E1 m) c t
    have hjoin := Pipeline.unscopedBufs_of_arrays (p := 0) (pcfgs (F := F)) adm' (Ix := Unit) (Name := ℕ) (U := UR sig nD τ) (Lvl := ℕ)
      launch0.win launch0.arr_whole c (pdats H0 H1 m) (H0.hshare (E1 m) c)
      (E1 m c) (E2 H0 H1 m c) ((pdats H0 H1 m 0 c).arrAt · cfg0.N) (hF0 H0 H1 m c) (hrest0 H0 H1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
/-- THE POOLING REGION over the thread state: entered from every unscoped buffer at the contents after the stretch
    between the regions, left with its result array at what its one write-back leaves. The invariant it is handed is
    the class's; what it carries between points (the two accumulators) is its half's own business. -/
def reg1 : Pipeline.RegionSeg (pcfgs (F := F)) adm' (pdats H0 H1 m) () defs₀ 𝒱₀ L lv 1 where
  win := launch1.win.to₀
  block_pos := launch1.block_pos
  stage_whole := launch1.stage_whole
  K := PEmpty
  osem k := k.elim
  ho := Pipeline.OwnSemFacts.none _
  hbody c := (H1.hbody (E7 H0 m) c).loose
  hwaits := Pipeline.hwaits_of_owed_zero _ _ _ _ L lv 1 fun c t => H1.howed (E7 H0 m) c t
  pre c := iprop(StableHlo.held (c : Thread nD τ) (Pipeline.ucRefs τ sig) (V7 m (outsA H0 m) c) ∗ Rst c)
  post c := iprop(StableHlo.held (c : Thread nD τ) (Pipeline.ucRefs τ sig) (V8 m (outs H0 H1 m) c) ∗ Rst c)
  X c := iprop(∃ r, prngReg c r)
  Y c := iprop(∃ r, prngReg c r)
  Z c := Pipeline.unscopedRest (Ix := Unit) (Name := ℕ) (U := UR sig nD τ) (Lvl := ℕ) spec1 c (E7 H0 m c)
  hentry c := by
    rw [Pipeline.ownSems0_none]
    have ho : ∀ t, (pdats H0 H1 m 1 c).owed t = 0 := fun t => H1.howed (E7 H0 m) c t
    have hr : (pdats H0 H1 m 1 c).recorded 0 = Set.univ := H1.hrec (E7 H0 m) c 0
    have hsplit := Pipeline.arrays_of_unscopedBufs (p := 1) (pcfgs (F := F)) adm' (pdats H0 H1 m) launch1.win launch1.arr_whole c
      (H1.hshare (E7 H0 m) c) (E7 H0 m c) (H1.hA (E7 H0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl (by rw [hr]; trivial)
      iexact HO
    isplitl [Hp]; · iexact Hp
    iexact Hrest
  hin c := by
    have h : (Pipeline.ΦA spec1 c : sProp 𝕄) ⊢ (pdats H0 H1 m 1 c).Φ 0 := H1.hin (E7 H0 m) c
    unfold Pipeline.ΦA at h
    iintro ⟨Hp, -, Hr⟩
    iapply h
    isplitl [Hr]; · iexact Hr
    iexact Hp
  hout c := by
    rw [Pipeline.ownSems0_none]
    have h : (pdats H0 H1 m 1 c).Φ (Fin.last (Pipeline.pin (pcfgs (F := F)) adm' 1).N) ⊢ (Pipeline.ΦA spec1 c : sProp 𝕄) := H1.hout (E7 H0 m) c
    unfold Pipeline.ΦA at h
    iintro HΦ
    ihave H := h $$ HΦ
    icases H with ⟨Hr, Hp⟩
    isplitl [Hp]; · iexact Hp
    isplitr; · iempintro
    iexact Hr
  hexit c := by
    have ho : ∀ t, (pdats H0 H1 m 1 c).owed t = 0 := fun t => H1.howed (E7 H0 m) c t
    have hjoin := Pipeline.unscopedBufs_of_arrays (p := 1) (pcfgs (F := F)) adm' (Ix := Unit) (Name := ℕ) (U := UR sig nD τ) (Lvl := ℕ)
      launch1.win launch1.arr_whole c (pdats H0 H1 m) (H1.hshare (E7 H0 m) c)
      (E7 H0 m c) (E8 H0 H1 m c) ((pdats H0 H1 m 1 c).arrAt · cfg1.N) (hF1 H0 H1 m c) (hrest1 H0 H1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

/-! ## The launch -/

set_option backward.isDefEq.respectTransparency.types false in
/-- THE RUN. From any memory with zero counters every weakly fair execution of @main ends, nothing faulting, and at
    the end every unscoped buffer of every core holds the last boundary's contents: the launch memory carried through
    the host stretches and the two regions' results. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V8 m (outs H0 H1 m) c b) :=
  run_cond m (Ix := Unit) (U := UR sig nD τ) (Lvl := ℕ) emb₁ () 𝒱₀ L lv (fun _ _ => rfl) ρ (outs H0 H1 m) (pdats H0 H1 m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 H0 H1 m) (hpre0 := fun _ => .rfl) (hpost0 := fun _ => .rfl)
    (R1 := reg1 H0 H1 m)
    (hpre1 := fun c => by rw [V7_outs H0 H1 m c]; exact .rfl)
    (hpost1 := fun _ => .rfl)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include H0 H1 in
/-- At the end every argument array holds its launch contents: no host operation and no region writes an argument, so
    the last boundary's contents at an argument walk back to the launch memory. -/
theorem args_kept (r : PUnit × MemSt nD τ sig (Elt F))
    (h : ∀ c : Dev nD, ∀ b ∈ Pipeline.ucRefs τ sig, r.2.mem (((c : Thread nD τ)).1, b) = V8 m (outs H0 H1 m) c b) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(h c _ (mem_uc main_arg0 (by decide))).trans (V8_main_arg0 m (outs H0 H1 m) c),
   (h c _ (mem_uc main_arg1 (by decide))).trans (V8_main_arg1 m (outs H0 H1 m) c),
   (h c _ (mem_uc main_arg2 (by decide))).trans (V8_main_arg2 m (outs H0 H1 m) c),
   (h c _ (mem_uc main_arg3 (by decide))).trans (V8_main_arg3 m (outs H0 H1 m) c),
   (h c _ (mem_uc main_arg4 (by decide))).trans (V8_main_arg4 m (outs H0 H1 m) c),
   (h c _ (mem_uc main_arg5 (by decide))).trans (V8_main_arg5 m (outs H0 H1 m) c),
   (h c _ (mem_uc main_arg6 (by decide))).trans (V8_main_arg6 m (outs H0 H1 m) c),
   (h c _ (mem_uc main_arg7 (by decide))).trans (V8_main_arg7 m (outs H0 H1 m) c),
   (h c _ (mem_uc main_arg8 (by decide))).trans (V8_main_arg8 m (outs H0 H1 m) c),
   (h c _ (mem_uc main_arg9 (by decide))).trans (V8_main_arg9 m (outs H0 H1 m) c),
   (h c _ (mem_uc main_arg10 (by decide))).trans (V8_main_arg10 m (outs H0 H1 m) c)⟩

include H0 H1 in
/-- THE FRAME: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept H0 H1 m r h c) (run_all H0 H1 m ρ)

/-- THE RESULT ARRAY at the end is what the pooling region's one write-back leaves in it. -/
theorem result_eq (r : PUnit × MemSt nD τ sig (Elt F))
    (h : ∀ c : Dev nD, ∀ b ∈ Pipeline.ucRefs τ sig, r.2.mem (((c : Thread nD τ)).1, b) = V8 m (outs H0 H1 m) c b) (c : Dev nD) :
    r.2.mem ((c.tc : Thread nD τ).loc main_v30) = (H1.dat (E7 H0 m) c).arrAt 4 cfg1.N :=
  (h c _ (mem_uc main_v30 (by decide))).trans ((hF1 H0 H1 m c 4).symm)

end Cert.KernelIdeal.Frm

end
-- ==== Proof.KernelIdeal.R0.lean ====
/- REGION 0 of the program's @main: the projection kernel (custom_call 0), a pipeline of six windows over a grid
   of 20 points, at any float instance.

   The kernel's class-A half, stated at a PARAMETER V: the TensorCore's buffer contents when the region is entered.
   A window's BLOCK at a grid point is the rectangle of its array that the window's index map selects there, read
   off the array as the region finds it. Window 0 walks the rows of the activations, 5000 at a point; windows 1, 2
   and 3 (the weight matrix, the bias row, the scale) have a constant index map, so their block is the whole array
   at every point. The body reads the four input buffers and overwrites the two output buffers whole: the first with
   the biased product of the row block with the weights, the second with that product times the scale. -/
import proofs.«421251_j42829413875734_1_alg».proof.Proof.Gen.KernelIdeal.Launch
import proofs.«421251_j42829413875734_1_alg».proof.Proof.Gen.KernelIdeal.Skeleton
import proofs.«421251_j42829413875734_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 5000 rows is decided coordinate by coordinate
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rectangle of its array the index map selects there, read off the array as
    the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row window's current buffer holds its block at every point: it is fetched at every point, and the body
    leaves it as found. Stated for ANY proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole weight matrix at every point: fetched at the first point only, but
    its block index never moves, so what the first fetch left is still every later point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window's buffer holds the bias row at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The scale window's buffer holds the one scale entry at every point, for the same reason. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S1x1 := Rect.unit (s := S1x1) ![0, 0] S1x1.size inb_S1x1_S1x1_0_0

/-! ## What the body leaves in each output window's buffer -/

/-- The first output's buffer after the body, from the input blocks: one whole-buffer store of the row block times
    the weights (both rounded to bf16, accumulated in f32) plus the bias row broadcast down the rows. -/
def out0_4 (x0 : Vec F S5000x128 .f32) (x1 : Vec F S128x128 .f32) (x2 : Vec F S1x128 .f32) : Vec F S5000x128 .f32 :=
  View.canon [⟨r0_0, k0_pay1 (View.ld x0 r0_0) (View.ld x1 r0_1) (View.ld x2 r0_2)⟩]

/-- The second output's buffer after the body: one whole-buffer store of the first output's value times the scale
    entry broadcast over the block. -/
def out0_5 (x0 : Vec F S5000x128 .f32) (x1 : Vec F S128x128 .f32) (x2 : Vec F S1x128 .f32) (x3 : Vec F S1x1 .f32) : Vec F S5000x128 .f32 :=
  View.canon [⟨r0_0, k0_pay2 (View.ld x0 r0_0) (View.ld x1 r0_1) (View.ld x2 r0_2) (View.ld x3 r0_3)⟩]

/-- A single whole-buffer store tiles the buffer, so it covers every index (either output's). -/
theorem cover0_out (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the four inputs' at read contents `x0 … x3` and the two outputs' at
    anything, runs to a continuation holding the inputs' as they were and the outputs' at `out0_4` and `out0_5` of the
    inputs. The body also loads each output buffer once before it stores it; nothing uses what those loads read, so
    owning the output at SOME contents is all they need. The grid coordinate `i` is not read. -/
theorem sound_kernel0 (c : Dev nD) (E : Set ℕ) (i : grid0.Coords)
    (arg0 : Memref sig .tc .vmem S5000x128 .f32) (harg0 : arg0.IsWhole) (arg1 : Memref sig .tc .vmem S128x128 .f32) (harg1 : arg1.IsWhole)
    (arg2 : Memref sig .tc .vmem S1x128 .f32) (harg2 : arg2.IsWhole) (arg3 : Memref sig .tc .vmem S1x1 .f32) (harg3 : arg3.IsWhole)
    (arg4 : Memref sig .tc .vmem S5000x128 .f32) (harg4 : arg4.IsWhole) (arg5 : Memref sig .tc .vmem S5000x128 .f32) (harg5 : arg5.IsWhole)
    (x0 : Vec F S5000x128 .f32) (x1 : Vec F S128x128 .f32) (x2 : Vec F S1x128 .f32) (x3 : Vec F S1x1 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out0_4 x0 x1 x2)
            ∗ owns (c : Thread nD τ) arg5 fullShare (out0_5 x0 x1 x2 x3)) -∗ K ⟨⟩))
      ⊢ wp frame (wpE (defs₀ (F := F)) Variants.none c none) E
          (cc0__proj_kernel i arg0 harg0 arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-! ## The pipeline's proof data -/

/-- The proof data of the pipeline on core `c`: the arrays as the region finds them (`V`); after the body at point
    `t` each input's buffer still at its block, the first output's at the biased product of the blocks, the second's
    at that times the scale; the invariant is the untouched rest (the scoped buffers of the other call and the
    generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's debt, and each window's current staging
    buffer — an input's at what the pipeline left there, an output's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KernelIdeal.R1Runs.lean ====
/- REGION 1 (the pooling call): a grid of 49 points; at each point the body adds one block's contribution to two
   accumulators it keeps in scratch memory between points (a 64x384 sum and a 64x1 count), clears both first at
   point 0, and at point 48 divides, projects and stores the 64x64 result. This module holds what the three
   whole-body runs (one per control case) are stated over: each window's block read off the array the region finds,
   the two branch conditions in closed form over the grid, where the output window is idle, the staging and scratch
   memrefs, and the region invariant reshaped so that the two accumulators stand apart from the scoped buffers the
   body never touches. Everything is stated at a parameter V, the core's buffer contents when the region is entered. -/
import proofs.«421251_j42829413875734_1_alg».proof.Proof.Gen.KernelIdeal.Launch
import proofs.«421251_j42829413875734_1_alg».proof.Proof.Gen.KernelIdeal.Skeleton
import proofs.«421251_j42829413875734_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the data block of point `t`): its current staging buffer holds its block at every point, for any
    proof data whose array is `V`'s and whose body leaves the block in place. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the segment ids of point `t`'s rows): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the projection matrix, one block, fetched once): unfetched after the first point, its block index
    has not moved, so the buffer still holds the block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the bias row, one block, fetched once): the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (clear the accumulators), from the grid coordinate. -/
abbrev cond1_0 (i : grid1.Coords) : Prop := (Scalar.cmpi .ne (Scalar.extui (Scalar.cmpi .eq (BitVec.ofNat 32 (i 0).val) 0#32)) 0#32) = 1#1
/-- It holds at point 0 only — decided over the 49 points. -/
theorem hcond1_0 : ∀ t : Fin cfg1.N, cond1_0 (grid1.coords t) ↔ t.val % 49 = 0 :=
  (by decide +kernel : ∀ t : Fin grid1.N, cond1_0 (grid1.coords t) ↔ t.val % 49 = 0)

/-- The condition of the body's second conditional (finish and store the result), from the grid coordinate. -/
abbrev cond1_1 (i : grid1.Coords) : Prop := k1_cond2 i = 1#1
/-- It holds at point 48 only — decided over the 49 points. -/
theorem hcond1_1 : ∀ t : Fin cfg1.N, cond1_1 (grid1.coords t) ↔ t.val % 49 = 48 :=
  (by decide +kernel : ∀ t : Fin grid1.N, cond1_1 (grid1.coords t) ↔ t.val % 49 = 48)

/-! ## Where the windows are idle -/

/-- The four input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At the point of case A (the first) the output window is idle: the case stores nothing into it, -/
theorem idleAt1_4_A : ∀ t : Fin cfg1.N, cond1_0 (grid1.coords t) → ¬cond1_1 (grid1.coords t) → cfg1.idle 4 (grid1.coords t) = true := by decide +kernel
/-- and its block is not written back there. -/
theorem noFlush1_4_A : ∀ t : Fin cfg1.N, cond1_0 (grid1.coords t) → ¬cond1_1 (grid1.coords t) → (cfg1.win 4).flush t = false := by decide +kernel
/-- At the points of case B (1 to 47) the output window is idle, -/
theorem idleAt1_4_B : ∀ t : Fin cfg1.N, ¬cond1_0 (grid1.coords t) → ¬cond1_1 (grid1.coords t) → cfg1.idle 4 (grid1.coords t) = true := by decide +kernel
/-- and not written back. -/
theorem noFlush1_4_B : ∀ t : Fin cfg1.N, ¬cond1_0 (grid1.coords t) → ¬cond1_1 (grid1.coords t) → (cfg1.win 4).flush t = false := by decide +kernel
/-- At the point of case C (the last) the output window is live: the case stores the whole block. -/
theorem liveAt1_4_C : ∀ t : Fin cfg1.N, ¬cond1_0 (grid1.coords t) → cond1_1 (grid1.coords t) → cfg1.idle 4 (grid1.coords t) = false := by decide +kernel

/-! ## The memrefs the body is called with -/

/-- The output window's one staging buffer, through which its contents are stated. -/
abbrev VO1_4 : View sig .tc .vmem S64x64 .f32 := (Memref.whole cc1_stg4_0 : Memref sig .tc .vmem S64x64 .f32).view
/-- Each window's current staging memref at point `t`, spelled as the pipeline passes it, and its wholeness. -/
abbrev ms1_0 (t : Fin cfg1.N) : Memref sig .tc .vmem S2048x384 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S384x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
/-- The two scratch operands: whole scoped buffers of the kernel's own, passed beside the windows — the 64x384
    accumulator of sums and the 64x1 accumulator of counts. -/
abbrev scM1_0 : Memref sig .tc .vmem S64x384 .f32 := Memref.whole cc1_scratch0
abbrev scM1_1 : Memref sig .tc .vmem S64x1 .f32 := Memref.whole cc1_scratch1
/-- The same as views: what each accumulator holds is stated through them. -/
abbrev VS1_0 : View sig .tc .vmem S64x384 .f32 := scM1_0.view
abbrev VS1_1 : View sig .tc .vmem S64x1 .f32 := scM1_1.view

/-! ## The region invariant, the two accumulators apart -/

/-- A scoped buffer of the core, whole, at some contents. -/
abbrev anyAt (c : Dev nD) (b : Ref sig .tc) : sProp 𝕄 :=
  iprop(∃ f : Buf (Elt F) ((c : Thread nD τ).loc b), ((c : Thread nD τ).loc b) ↦{fullShare} f)

/-- The nine scoped buffers of the core that are neither a staging buffer of this call nor one of its two accumulators
    (the other call's staging buffers): the body never touches them; each rides along at some contents. -/
def R9 (c : Dev nD) : sProp 𝕄 :=
  iprop(anyAt (F := F) c cc0_stg0_0 ∗ anyAt (F := F) c cc0_stg0_1 ∗ anyAt (F := F) c cc0_stg1_0 ∗ anyAt (F := F) c cc0_stg2_0
    ∗ anyAt (F := F) c cc0_stg3_0 ∗ anyAt (F := F) c cc0_stg4_0 ∗ anyAt (F := F) c cc0_stg4_1 ∗ anyAt (F := F) c cc0_stg5_0
    ∗ anyAt (F := F) c cc0_stg5_1)

/-- Separating conjunction re-associated, as an equation. -/
theorem sep_assoc_eq {M : Type} [URA M] (P Q R : sProp M) : iprop((P ∗ Q) ∗ R) = iprop(P ∗ Q ∗ R) :=
  Idealize.SL.BI.Entails.antisymm Idealize.SL.BI.sep_assoc Idealize.SL.BI.sep_assoc'

/-- What the launch hands the region, reshaped: the nine untouched buffers bundled, each accumulator as a whole
    memref owned at some contents, and the generator register at some state. This is what the body obligation
    hands a run at the first point and what the region gives back at its end. -/
theorem PhiA1_eq (c : Dev nD) :
    (Pipeline.ΦA spec1 c : sProp 𝕄)
      = iprop(iprop(R9 (F := F) c ∗ (∃ d, owns (c : Thread nD τ) scM1_0 fullShare d) ∗ (∃ d, owns (c : Thread nD τ) scM1_1 fullShare d)) ∗ (∃ r, prngReg c r)) := by
  unfold Pipeline.ΦA R9; rw [scopedRest1_eq]; simp only [anyAt, scM1_0, scM1_1, owns_whole, sep_assoc_eq]; try rfl

end Cert.KernelIdeal.Frm

end
-- ==== Proof.KernelIdeal.R1RunA.lean ====
/- REGION 1, the whole-body run in CASE A: the first conditional taken, the second not — the first point of the grid. Both accumulators are cleared and
   then receive the first block's contribution (two stores each); the output's buffer is not touched. -/
import proofs.«421251_j42829413875734_1_alg».proof.Proof.KernelIdeal.R1Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in each accumulator, as lists of stored pieces
    (last first), IN CASE A, WITH the proof that on whole memrefs the body runs to a continuation that holds the four
    inputs' buffers as they were and each written buffer with its pieces written. The body is its skeleton of memory
    operations, which is executed symbolically, each conditional decided by the case's hypotheses; the pieces are
    the witness that execution finds. -/
noncomputable def kernelRun1_A (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : cond1_0 i) (hc1 : ¬cond1_1 i)
    (x0 : Vec F S2048x384 .f32) (x1 : Vec F S1x2048 .i32) (x2 : Vec F S384x64 .f32) (x3 : Vec F S1x64 .f32) :
    Σ' (L4 : List (View.Piece (Elt F) S64x64 .f32)) (LS0 : List (View.Piece (Elt F) S64x384 .f32)), { LS1 : List (View.Piece (Elt F) S64x1 .f32) //
      ∀ (xi4 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__pool_kernel i arg1 harg1 arg2 harg2 arg3 harg3 arg4 harg4 arg5 harg5 arg6 harg6 arg7 harg7) K } := by
  refine ⟨[], ?_, ?_, fun xi4 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Frm

end
-- ==== Proof.KernelIdeal.R1RunB.lean ====
/- REGION 1, the whole-body run in CASE B: neither conditional taken — the points 1 to 47. Each accumulator, found at what the point before left in it,
   receives this block's contribution (one store each); the output's buffer is not touched. -/
import proofs.«421251_j42829413875734_1_alg».proof.Proof.KernelIdeal.R1RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in each accumulator, as lists of stored pieces
    (last first), IN CASE B, WITH the proof that on whole memrefs the body runs to a continuation that holds the four
    inputs' buffers as they were and each written buffer with its pieces written. The body is its skeleton of memory
    operations, which is executed symbolically, each conditional decided by the case's hypotheses; the pieces are
    the witness that execution finds. -/
noncomputable def kernelRun1_B (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : ¬cond1_1 i)
    (x0 : Vec F S2048x384 .f32) (x1 : Vec F S1x2048 .i32) (x2 : Vec F S384x64 .f32) (x3 : Vec F S1x64 .f32) (xs0 : Vec F S64x384 .f32) (xs1 : Vec F S64x1 .f32) :
    Σ' (L4 : List (View.Piece (Elt F) S64x64 .f32)) (LS0 : List (View.Piece (Elt F) S64x384 .f32)), { LS1 : List (View.Piece (Elt F) S64x1 .f32) //
      ∀ (xi4 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__pool_kernel i arg1 harg1 arg2 harg2 arg3 harg3 arg4 harg4 arg5 harg5 arg6 harg6 arg7 harg7) K } := by
  refine ⟨[], ?_, ?_, fun xi4 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Frm

end
-- ==== Proof.KernelIdeal.R1RunC.lean ====
/- REGION 1, the whole-body run in CASE C: the first conditional not taken, the second taken — the last point of the grid. Each accumulator receives the
   last block's contribution (one store each); then the sums are divided by the counts (at least one), projected,
   the bias added, and the result stored over the whole of the output's buffer (one store). -/
import proofs.«421251_j42829413875734_1_alg».proof.Proof.KernelIdeal.R1RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in each accumulator, as lists of stored pieces
    (last first), IN CASE C, WITH the proof that on whole memrefs the body runs to a continuation that holds the four
    inputs' buffers as they were and each written buffer with its pieces written. The body is its skeleton of memory
    operations, which is executed symbolically, each conditional decided by the case's hypotheses; the pieces are
    the witness that execution finds. -/
noncomputable def kernelRun1_C (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i)
    (x0 : Vec F S2048x384 .f32) (x1 : Vec F S1x2048 .i32) (x2 : Vec F S384x64 .f32) (x3 : Vec F S1x64 .f32) (xs0 : Vec F S64x384 .f32) (xs1 : Vec F S64x1 .f32) :
    Σ' (L4 : List (View.Piece (Elt F) S64x64 .f32)) (LS0 : List (View.Piece (Elt F) S64x384 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__pool_kernel i arg1 harg1 arg2 harg2 arg3 harg3 arg4 harg4 arg5 harg5 arg6 harg6 arg7 harg7) K } := by
  refine ⟨?_, ?_, ?_, fun E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.KernelIdeal.Frm

end
-- ==== Proof.KernelIdeal.R1.lean ====
/- REGION 1 (the pooling call), the rest of its class-R half: what each case's run leaves in the output's buffer and in the
   two accumulators, read back as contents; the accumulation over the 49 points (a triple: the output's buffer, the sums,
   the counts, by recursion on the point); the pipeline's proof data at a parameter V (the core's buffer contents when
   the region is entered); the body obligation at a generic point, case by case; and the invariant's two ends. The
   invariant carries, after each point, both accumulators at exactly what that point left in them. -/
import proofs.«421251_j42829413875734_1_alg».proof.Proof.KernelIdeal.R1RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

/-! ## What each case leaves -/

/-- Case A stores nothing into the output (the window is idle at its points and not written back there): no pieces —
    a placeholder (junk read back) that nothing consults, since at these points the window is neither written back nor
    read at the next point. -/
def out1_A_4 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : cond1_0 i) (hc1 : ¬cond1_1 i)
    (x0 : Vec F S2048x384 .f32) (x1 : Vec F S1x2048 .i32) (x2 : Vec F S384x64 .f32) (x3 : Vec F S1x64 .f32) : Vec F S64x64 .f32 :=
  VO1_4.read (Elt F) (VO1_4.writes (Elt F) VO1_4.junk (kernelRun1_A c i arg1 harg1 arg2 harg2 arg3 harg3 arg4 harg4 arg5 harg5 arg6 harg6 arg7 harg7 hc0 hc1 x0 x1 x2 x3).1)

/-- Case A's pieces for the accumulator of sums cover it: 2 pieces of the whole 64x384 extent. -/
theorem scover1_A_0 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : cond1_0 i) (hc1 : ¬cond1_1 i)
    (x0 : Vec F S2048x384 .f32) (x1 : Vec F S1x2048 .i32) (x2 : Vec F S384x64 .f32) (x3 : Vec F S1x64 .f32) (y : S64x384.Idx) :
    ∃ pc ∈ (kernelRun1_A c i arg1 harg1 arg2 harg2 arg3 harg3 arg4 harg4 arg5 harg5 arg6 harg6 arg7 harg7 hc0 hc1 x0 x1 x2 x3).2.1, y ∈ pc.1.set :=
  View.cover_of_tiledL (kernelRun1_A c i arg1 harg1 arg2 harg2 arg3 harg3 arg4 harg4 arg5 harg5 arg6 harg6 arg7 harg7 hc0 hc1 x0 x1 x2 x3).2.1 S64x384.size (by sl_kernel_rfl) y

/-- What case A leaves in the accumulator of sums: its pieces read back over junk — zero plus the first block's segment sums (the one-hot of the ids times the data block). -/
def sout1_A_0 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : cond1_0 i) (hc1 : ¬cond1_1 i)
    (x0 : Vec F S2048x384 .f32) (x1 : Vec F S1x2048 .i32) (x2 : Vec F S384x64 .f32) (x3 : Vec F S1x64 .f32) : Vec F S64x384 .f32 :=
  VS1_0.read (Elt F) (VS1_0.writes (Elt F) VS1_0.junk (kernelRun1_A c i arg1 harg1 arg2 harg2 arg3 harg3 arg4 harg4 arg5 harg5 arg6 harg6 arg7 harg7 hc0 hc1 x0 x1 x2 x3).2.1)

/-- Case A's pieces for the accumulator of counts cover it: 2 pieces of the whole 64x1 extent. -/
theorem scover1_A_1 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : cond1_0 i) (hc1 : ¬cond1_1 i)
    (x0 : Vec F S2048x384 .f32) (x1 : Vec F S1x2048 .i32) (x2 : Vec F S384x64 .f32) (x3 : Vec F S1x64 .f32) (y : S64x1.Idx) :
    ∃ pc ∈ (kernelRun1_A c i arg1 harg1 arg2 harg2 arg3 harg3 arg4 harg4 arg5 harg5 arg6 harg6 arg7 harg7 hc0 hc1 x0 x1 x2 x3).2.2.1, y ∈ pc.1.set :=
  View.cover_of_tiledL (kernelRun1_A c i arg1 harg1 arg2 harg2 arg3 harg3 arg4 harg4 arg5 harg5 arg6 harg6 arg7 harg7 hc0 hc1 x0 x1 x2 x3).2.2.1 S64x1.size (by sl_kernel_rfl) y

/-- What case A leaves in the accumulator of counts: its pieces read back over junk — zero plus the first block's segment counts. -/
def sout1_A_1 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : cond1_0 i) (hc1 : ¬cond1_1 i)
    (x0 : Vec F S2048x384 .f32) (x1 : Vec F S1x2048 .i32) (x2 : Vec F S384x64 .f32) (x3 : Vec F S1x64 .f32) : Vec F S64x1 .f32 :=
  VS1_1.read (Elt F) (VS1_1.writes (Elt F) VS1_1.junk (kernelRun1_A c i arg1 harg1 arg2 harg2 arg3 harg3 arg4 harg4 arg5 harg5 arg6 harg6 arg7 harg7 hc0 hc1 x0 x1 x2 x3).2.2.1)

/-- Case B stores nothing into the output (the window is idle at its points and not written back there): no pieces —
    a placeholder (junk read back) that nothing consults, since at these points the window is neither written back nor
    read at the next point. -/
def out1_B_4 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : ¬cond1_1 i)
    (x0 : Vec F S2048x384 .f32) (x1 : Vec F S1x2048 .i32) (x2 : Vec F S384x64 .f32) (x3 : Vec F S1x64 .f32) (xs0 : Vec F S64x384 .f32) (xs1 : Vec F S64x1 .f32) : Vec F S64x64 .f32 :=
  VO1_4.read (Elt F) (VO1_4.writes (Elt F) VO1_4.junk (kernelRun1_B c i arg1 harg1 arg2 harg2 arg3 harg3 arg4 harg4 arg5 harg5 arg6 harg6 arg7 harg7 hc0 hc1 x0 x1 x2 x3 xs0 xs1).1)

/-- Case B's pieces for the accumulator of sums cover it: 1 piece of the whole 64x384 extent. -/
theorem scover1_B_0 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : ¬cond1_1 i)
    (x0 : Vec F S2048x384 .f32) (x1 : Vec F S1x2048 .i32) (x2 : Vec F S384x64 .f32) (x3 : Vec F S1x64 .f32) (xs0 : Vec F S64x384 .f32) (xs1 : Vec F S64x1 .f32) (y : S64x384.Idx) :
    ∃ pc ∈ (kernelRun1_B c i arg1 harg1 arg2 harg2 arg3 harg3 arg4 harg4 arg5 harg5 arg6 harg6 arg7 harg7 hc0 hc1 x0 x1 x2 x3 xs0 xs1).2.1, y ∈ pc.1.set :=
  View.cover_of_tiledL (kernelRun1_B c i arg1 harg1 arg2 harg2 arg3 harg3 arg4 harg4 arg5 harg5 arg6 harg6 arg7 harg7 hc0 hc1 x0 x1 x2 x3 xs0 xs1).2.1 S64x384.size (by sl_kernel_rfl) y

/-- What case B leaves in the accumulator of sums: its pieces read back over junk — what the point before left plus this block's segment sums. -/
def sout1_B_0 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : ¬cond1_1 i)
    (x0 : Vec F S2048x384 .f32) (x1 : Vec F S1x2048 .i32) (x2 : Vec F S384x64 .f32) (x3 : Vec F S1x64 .f32) (xs0 : Vec F S64x384 .f32) (xs1 : Vec F S64x1 .f32) : Vec F S64x384 .f32 :=
  VS1_0.read (Elt F) (VS1_0.writes (Elt F) VS1_0.junk (kernelRun1_B c i arg1 harg1 arg2 harg2 arg3 harg3 arg4 harg4 arg5 harg5 arg6 harg6 arg7 harg7 hc0 hc1 x0 x1 x2 x3 xs0 xs1).2.1)

/-- Case B's pieces for the accumulator of counts cover it: 1 piece of the whole 64x1 extent. -/
theorem scover1_B_1 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : ¬cond1_1 i)
    (x0 : Vec F S2048x384 .f32) (x1 : Vec F S1x2048 .i32) (x2 : Vec F S384x64 .f32) (x3 : Vec F S1x64 .f32) (xs0 : Vec F S64x384 .f32) (xs1 : Vec F S64x1 .f32) (y : S64x1.Idx) :
    ∃ pc ∈ (kernelRun1_B c i arg1 harg1 arg2 harg2 arg3 harg3 arg4 harg4 arg5 harg5 arg6 harg6 arg7 harg7 hc0 hc1 x0 x1 x2 x3 xs0 xs1).2.2.1, y ∈ pc.1.set :=
  View.cover_of_tiledL (kernelRun1_B c i arg1 harg1 arg2 harg2 arg3 harg3 arg4 harg4 arg5 harg5 arg6 harg6 arg7 harg7 hc0 hc1 x0 x1 x2 x3 xs0 xs1).2.2.1 S64x1.size (by sl_kernel_rfl) y

/-- What case B leaves in the accumulator of counts: its pieces read back over junk — what the point before left plus this block's segment counts. -/
def sout1_B_1 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : ¬cond1_1 i)
    (x0 : Vec F S2048x384 .f32) (x1 : Vec F S1x2048 .i32) (x2 : Vec F S384x64 .f32) (x3 : Vec F S1x64 .f32) (xs0 : Vec F S64x384 .f32) (xs1 : Vec F S64x1 .f32) : Vec F S64x1 .f32 :=
  VS1_1.read (Elt F) (VS1_1.writes (Elt F) VS1_1.junk (kernelRun1_B c i arg1 harg1 arg2 harg2 arg3 harg3 arg4 harg4 arg5 harg5 arg6 harg6 arg7 harg7 hc0 hc1 x0 x1 x2 x3 xs0 xs1).2.2.1)

/-- Case C's one store into the output covers its 64x64 block (checked by evaluating the tiling test on the run's
    pieces). -/
theorem cover1_C_4 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i)
    (x0 : Vec F S2048x384 .f32) (x1 : Vec F S1x2048 .i32) (x2 : Vec F S384x64 .f32) (x3 : Vec F S1x64 .f32) (xs0 : Vec F S64x384 .f32) (xs1 : Vec F S64x1 .f32) (y : S64x64.Idx) :
    ∃ pc ∈ (kernelRun1_C c i arg1 harg1 arg2 harg2 arg3 harg3 arg4 harg4 arg5 harg5 arg6 harg6 arg7 harg7 hc0 hc1 x0 x1 x2 x3 xs0 xs1).1, y ∈ pc.1.set :=
  View.cover_of_tiledL (kernelRun1_C c i arg1 harg1 arg2 harg2 arg3 harg3 arg4 harg4 arg5 harg5 arg6 harg6 arg7 harg7 hc0 hc1 x0 x1 x2 x3 xs0 xs1).1 S64x64.size (by sl_kernel_rfl) y

/-- What case C leaves in the output's staging buffer: its piece read back over junk — the sums divided by the counts
    (at least one), projected, plus the bias. -/
def out1_C_4 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i)
    (x0 : Vec F S2048x384 .f32) (x1 : Vec F S1x2048 .i32) (x2 : Vec F S384x64 .f32) (x3 : Vec F S1x64 .f32) (xs0 : Vec F S64x384 .f32) (xs1 : Vec F S64x1 .f32) : Vec F S64x64 .f32 :=
  VO1_4.read (Elt F) (VO1_4.writes (Elt F) VO1_4.junk (kernelRun1_C c i arg1 harg1 arg2 harg2 arg3 harg3 arg4 harg4 arg5 harg5 arg6 harg6 arg7 harg7 hc0 hc1 x0 x1 x2 x3 xs0 xs1).1)

/-- Case C's pieces for the accumulator of sums cover it: 1 piece of the whole 64x384 extent. -/
theorem scover1_C_0 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i)
    (x0 : Vec F S2048x384 .f32) (x1 : Vec F S1x2048 .i32) (x2 : Vec F S384x64 .f32) (x3 : Vec F S1x64 .f32) (xs0 : Vec F S64x384 .f32) (xs1 : Vec F S64x1 .f32) (y : S64x384.Idx) :
    ∃ pc ∈ (kernelRun1_C c i arg1 harg1 arg2 harg2 arg3 harg3 arg4 harg4 arg5 harg5 arg6 harg6 arg7 harg7 hc0 hc1 x0 x1 x2 x3 xs0 xs1).2.1, y ∈ pc.1.set :=
  View.cover_of_tiledL (kernelRun1_C c i arg1 harg1 arg2 harg2 arg3 harg3 arg4 harg4 arg5 harg5 arg6 harg6 arg7 harg7 hc0 hc1 x0 x1 x2 x3 xs0 xs1).2.1 S64x384.size (by sl_kernel_rfl) y

/-- What case C leaves in the accumulator of sums: its pieces read back over junk — what the point before left plus the last block's segment sums. -/
def sout1_C_0 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i)
    (x0 : Vec F S2048x384 .f32) (x1 : Vec F S1x2048 .i32) (x2 : Vec F S384x64 .f32) (x3 : Vec F S1x64 .f32) (xs0 : Vec F S64x384 .f32) (xs1 : Vec F S64x1 .f32) : Vec F S64x384 .f32 :=
  VS1_0.read (Elt F) (VS1_0.writes (Elt F) VS1_0.junk (kernelRun1_C c i arg1 harg1 arg2 harg2 arg3 harg3 arg4 harg4 arg5 harg5 arg6 harg6 arg7 harg7 hc0 hc1 x0 x1 x2 x3 xs0 xs1).2.1)

/-- Case C's pieces for the accumulator of counts cover it: 1 piece of the whole 64x1 extent. -/
theorem scover1_C_1 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i)
    (x0 : Vec F S2048x384 .f32) (x1 : Vec F S1x2048 .i32) (x2 : Vec F S384x64 .f32) (x3 : Vec F S1x64 .f32) (xs0 : Vec F S64x384 .f32) (xs1 : Vec F S64x1 .f32) (y : S64x1.Idx) :
    ∃ pc ∈ (kernelRun1_C c i arg1 harg1 arg2 harg2 arg3 harg3 arg4 harg4 arg5 harg5 arg6 harg6 arg7 harg7 hc0 hc1 x0 x1 x2 x3 xs0 xs1).2.2.1, y ∈ pc.1.set :=
  View.cover_of_tiledL (kernelRun1_C c i arg1 harg1 arg2 harg2 arg3 harg3 arg4 harg4 arg5 harg5 arg6 harg6 arg7 harg7 hc0 hc1 x0 x1 x2 x3 xs0 xs1).2.2.1 S64x1.size (by sl_kernel_rfl) y

/-- What case C leaves in the accumulator of counts: its pieces read back over junk — what the point before left plus the last block's segment counts. -/
def sout1_C_1 (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i)
    (x0 : Vec F S2048x384 .f32) (x1 : Vec F S1x2048 .i32) (x2 : Vec F S384x64 .f32) (x3 : Vec F S1x64 .f32) (xs0 : Vec F S64x384 .f32) (xs1 : Vec F S64x1 .f32) : Vec F S64x1 .f32 :=
  VS1_1.read (Elt F) (VS1_1.writes (Elt F) VS1_1.junk (kernelRun1_C c i arg1 harg1 arg2 harg2 arg3 harg3 arg4 harg4 arg5 harg5 arg6 harg6 arg7 harg7 hc0 hc1 x0 x1 x2 x3 xs0 xs1).2.2.1)

/-! ## What the buffers hold after each point -/

/-- THE ACCUMULATION. What the output's staging buffer and the two accumulators hold after the body at position `n` (a
    triple: the output's buffer, the sums, the counts): the case the closed forms select at `n`, run at the point's
    memrefs and input blocks, each accumulator at what this leaves at `n - 1`. Position 0 is case A; a later position
    is case C if it is the last and case B otherwise (no later position is a multiple of 49: no case there). -/
def outsAt1 (c : Dev nD) : (n : ℕ) → n < cfg1.N → Vec F S64x64 .f32 × Vec F S64x384 .f32 × Vec F S64x1 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 49 = 0 then
      False.elim (by have hN : n + 1 < 49 := lt_of_lt_of_eq hn (show cfg1.N = 49 from N_1); omega)
    else
      if h1 : (n + 1) % 49 = 48 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)

/-- `outsAt1` at the point of case A: that case's contents. -/
theorem outsAt1_A (c : Dev nD) (t : Fin cfg1.N) (h0 : t.val % 49 = 0) (h1 : ¬t.val % 49 = 48) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (by exfalso; have hN : n + 1 < 49 := lt_of_lt_of_eq hn (show cfg1.N = 49 from N_1); (try dsimp only at h0); omega)

/-- `outsAt1` at a point of case B: that case's contents, over what the point before left. -/
theorem outsAt1_B (c : Dev nD) (t : Fin cfg1.N) (h0 : ¬t.val % 49 = 0) (h1 : ¬t.val % 49 = 48) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at the point of case C: that case's contents, over what the point before left. -/
theorem outsAt1_C (c : Dev nD) (t : Fin cfg1.N) (h0 : ¬t.val % 49 = 0) (h1 : t.val % 49 = 48) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point what the launch hands the region (every scoped
    buffer that is no staging buffer of this call at anything, the generator register at some state); afterwards the
    nine untouched buffers at anything, each accumulator at exactly what the point before left in it (`outsAt1`'s second
    and third components), and the generator register at some state. -/
def PhiS1 (c : Dev nD) : (n : ℕ) → n ≤ cfg1.N → sProp 𝕄
  | 0, _ => Pipeline.ΦA spec1 c
  | n + 1, hn => iprop(iprop(R9 (F := F) c ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop(R9 (F := F) c ∗ owns (c : Thread nD τ) scM1_0 fullShare ((outsAt1 V c n hn).2.1) ∗ owns (c : Thread nD τ) scM1_1 fullShare ((outsAt1 V c n hn).2.2)) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(R9 (F := F) c ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

/-- The proof data of this pipeline on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The proof data bounds the core's recorded waits by nothing (the body takes on no new units): the field at its default. -/
theorem rec1 (c : Dev nD) (t : Fin (cfg1.N + 1)) : (dat1 V c).recorded t = Set.univ := rfl

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the closed forms say which case the point is in; the
    invariant hands the body both accumulators — at anything at the first point, where the body clears them before
    reading, and otherwise at exactly what the point before left — with the generator register, the nine untouched
    buffers passing by; the case's run applies; the accumulators come back with the case's pieces written, which cover
    them, hence at this point's contents. At the first point and the middle points the output's buffer is handed back as
    found (idle, not written back); at the last point it comes back covered by the one store. The core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 49 := lt_of_lt_of_eq t.isLt (show cfg1.N = 49 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 49 = 0
  · by_cases h1 : t.val % 49 = 48
    · exfalso; omega
    · rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1; (try dsimp only)
      have hz : t.val = 0 := by omega
      rw [PhiS1_castSucc V c t, PhiS1_zero V c _ _ hz, PhiA1_eq]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 49 = 48
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1; (try dsimp only)
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1; (try dsimp only)
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulators' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1⟩, Hg⟩
  isplitl [HR HS0 HS1]
  · isplitl [HR]; · iexact HR
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 49 := N_1; omega)

end Cert.KernelIdeal.Frm

end
-- ==== Proof.KernelIdeal.Halves.lean ====
/-
  The two regions' halves put into the launch: the projection region's proof data (class A: each output buffer is the
  body's one store over the input blocks) and the pooling region's (the two accumulators carried between points, the
  result stored at the last point only), with the facts the launch asks of them. The program's frame claim and the
  contents of its result array at the end follow.
-/
import proofs.«421251_j42829413875734_1_alg».proof.Proof.KernelIdeal.Run
import proofs.«421251_j42829413875734_1_alg».proof.Proof.KernelIdeal.R0
import proofs.«421251_j42829413875734_1_alg».proof.Proof.KernelIdeal.R1

noncomputable section

namespace Cert.KernelIdeal.Frm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The projection region's half: its invariant is the class's at every point. -/
def half0 : Half0 (F := F) where
  dat := dat0
  hA := A_eq0
  hshare V c := (dat0 V c).share_full fun _ => rfl
  howed _ _ _ := rfl
  hrec _ _ _ := rfl
  hin V c := by rw [show (dat0 V c).Φ 0 = Pipeline.ΦA spec0 c from rfl]
  hout V c := by rw [show (dat0 V c).Φ (Fin.last cfg0.N) = Pipeline.ΦA spec0 c from rfl]
  hbody := body_obligation0

/-- The pooling region's half: the class invariant before the first point and after the last, the accumulators named
    in between. -/
def half1 : Half1 (F := F) where
  dat := dat1
  hA := A_eq1
  hshare V c := (dat1 V c).share_full fun _ => rfl
  howed _ _ _ := rfl
  hrec _ _ _ := rfl
  hin := hin1
  hout := hout1
  hbody := body_obligation1

variable (m : (ℓ : Loc nD τ sig) → Buf (Elt F) ℓ) (ρ : Dev nD → PrngReg)

/-- What the pooling region is entered from. -/
abbrev entry1 : Entry F := E7 (half0 (F := F)) m

/-- THE PROGRAM'S FRAME: it runs to the end, faults nowhere, and leaves every argument array as launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame half0 half1 m ρ

end Cert.KernelIdeal.Frm

end
-- ==== Proof.LibAfter.lean ====
/-
  Two small general facts about the contents after a list of host operations. The contents after two lists in a row are
  the second list's contents from the first's. And each operation leaves, at its own result buffer, its function of its
  operands' contents, and at every other buffer what was there — which holds equally for a buffer read inside the operand
  list of a concatenation.
-/
import Idealize.ShloMosaic.Lib.StableHlo.Run

namespace Cert.LibAfter

open Idealize.ShloMosaic Idealize.ShloMosaic.StableHlo

/-- The contents after two lists of operations run one after the other. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter

/-- Each operation's result at its own buffer is its function of the operands' contents; at any other buffer the contents
    are unchanged. Applied operation by operation until no fold is left. -/
macro "after_results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.quaternary_result] | rw [Idealize.ShloMosaic.StableHlo.reshape_result]
      | rw [Idealize.ShloMosaic.StableHlo.nary_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))
-- ==== Proof.PayIdx.lean ====
/-
  The payloads of the idealized kernel read at an index, over the extended reals (operations exact, the format changes
  the identity). The projection: a row of the input times the weight matrix plus the bias row, and that value times the
  scale. The pooling: the one-hot mask of a block of graph ids (row b, column j is one exactly when the id at column j
  is b), the mask's product with the block of node features added to the running sums, the mask's row sums added to the
  running counts, and at the end the sums divided by the counts (each raised to at least one), times the head's weights,
  plus the head's bias. Every index is written by its coordinates.
-/
import proofs.«421251_j42829413875734_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdx

open Cert.KernelIdeal Cert.KernelIdeal.Gen Idealize.ShloMosaic Idealize.ShloMosaic.ValueIdx

/-- The block the first grid point stores into the pooled sums is zero everywhere. -/
theorem k1_pay1_apply (i : S64x384.Idx) : k1_pay1 (F := Ideal) i = 0 := by
  unfold k1_pay1
  rw [shapeCast_self, broadcast_apply]
  exact Ideal.ofBits_zero_f32

/-- The block the first grid point stores into the counts is zero everywhere. -/
theorem k1_pay2_apply (i : S64x1.Idx) : k1_pay2 (F := Ideal) i = 0 := by
  unfold k1_pay2
  rw [shapeCast_self, broadcast_apply]
  exact Ideal.ofBits_zero_f32

/-- The signed reading of a one-bit equality test widened to 32 bits, as an extended real: one when the two words are
    equal, zero otherwise. -/
theorem sitofp_cond (x y : BitVec 32) :
    (FloatOps.sitofp (F := Ideal) FTy.f32 (BitVec.setWidth 32 (IntOp.cmpi CmpIPredicate.eq x y)) : EReal)
      = if x = y then (1 : EReal) else 0 := by
  show ((((BitVec.setWidth 32 (BitVec.ofBool (x == y))).toInt : ℤ) : ℝ) : EReal) = _
  by_cases h : x = y
  · rw [if_pos h]
    have hb : (x == y) = true := by simp [h]
    rw [hb]
    have : (BitVec.setWidth 32 (BitVec.ofBool true)).toInt = 1 := by decide
    rw [this]; norm_num
  · rw [if_neg h]
    have hb : (x == y) = false := by simp [h]
    rw [hb]
    have : (BitVec.setWidth 32 (BitVec.ofBool false)).toInt = 0 := by decide
    rw [this]; norm_num

/-- The one-hot mask at (b, j): one when graph number b, as a 32-bit word, is the id stored at column j; zero otherwise. -/
theorem pay3_apply (v3 : Vec Ideal S1x2048 .i32) (b : Fin 64) (j : Fin 2048) :
    k1_pay3 (F := Ideal) v3 (ix2 b j) = if BitVec.ofNat 32 b.val = v3 (ix2 0 j) then (1 : EReal) else 0 := by
  unfold k1_pay3
  rw [sitofp_apply, extui_apply]
  have h1 : iota Kind.tc S64x2048 32 [0] iota_S64x2048_d0_w32 (ix2 b j) = BitVec.ofNat 32 b.val :=
    iota_single_apply _ _ _ _ _ _
  have h2 : broadcastTo S64x2048 (shapeCast S1x2048 v3 shapeCasts_S1x2048_S1x2048) broadcasts_S1x2048_S64x2048 (ix2 b j)
      = v3 (ix2 0 j) := by
    rw [shapeCast_self]; exact broadcastTo_1b_ab_apply v3 _ b j
  show FloatOps.sitofp FTy.f32 (BitVec.setWidth 32 (IntOp.cmpi CmpIPredicate.eq
      (iota Kind.tc S64x2048 32 [0] iota_S64x2048_d0_w32 (ix2 b j))
      (broadcastTo S64x2048 (shapeCast S1x2048 v3 shapeCasts_S1x2048_S1x2048) broadcasts_S1x2048_S64x2048 (ix2 b j)))) = _
  rw [h1, h2]
  exact sitofp_cond _ _

/-- A vector of length a viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The running count of graph b: the count held so far plus the number of columns of this block whose id is b. -/
theorem pay5_apply (v3 : Vec Ideal S1x2048 .i32) (v20 : Vec Ideal S64x1 .f32) (b : Fin 64) :
    k1_pay5 (F := Ideal) v3 v20 (ix2 b 0)
      = v20 (ix2 b 0) + ∑ j : Fin 2048, k1_pay3 (F := Ideal) v3 (ix2 b j) := by
  unfold k1_pay5
  rw [shapeCast_self, addf_apply, shapeCast_a_a1_apply]
  refine congrArg (v20 (ix2 b 0) + ·) ?_
  refine (Ideal.multiReduction_add_single (k1_pay3 (F := Ideal) v3) 0x00000000#32 reduces_S64x2048_S64 (.inl rfl) rfl
    (ix1 b)).trans ?_
  refine Finset.sum_congr rfl fun k _ => congrArg _ ?_
  funext a
  match a with
  | ⟨0, _⟩ => rfl
  | ⟨1, _⟩ => rfl

/-- The left operand's index at output (i) and contraction index q: row from the output, column from the contraction. -/
theorem lhs_proj_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_proj_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index: row from the contraction, column from the output. -/
theorem rhs_proj_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_proj_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The [5000, 128] by [128, 128] product into the zero block, at (p, q): the sum over k of x (p, k) times w (k, q). -/
theorem matmul_proj_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

/-- The projection at (p, q): row p of the input times column q of the weights, plus the bias at q. -/
theorem pay1_apply (v0 : Vec Ideal S5000x128 .f32) (v2 : Vec Ideal S128x128 .f32) (v5 : Vec Ideal S1x128 .f32)
    (p : Fin 5000) (q : Fin 128) :
    k0_pay1 (F := Ideal) v0 v2 v5 (ix2 p q)
      = (∑ k : Fin 128, v0 (ix2 p k) * v2 (ix2 k q)) + v5 (ix2 0 q) := by
  unfold k0_pay1
  rw [addf_apply, shapeCast_self, broadcastTo_1b_ab_apply, matmul_proj_apply]
  rfl

/-- The scaled projection at (p, q): the projection there times the one scale. -/
theorem pay2_apply (v0 : Vec Ideal S5000x128 .f32) (v2 : Vec Ideal S128x128 .f32) (v5 : Vec Ideal S1x128 .f32)
    (v10 : Vec Ideal S1x1 .f32) (p : Fin 5000) (q : Fin 128) :
    k0_pay2 (F := Ideal) v0 v2 v5 v10 (ix2 p q) = k0_pay1 (F := Ideal) v0 v2 v5 (ix2 p q) * v10 (ix2 0 0) := by
  unfold k0_pay2
  rw [mulf_apply, broadcast_apply]
  unfold extractAt
  refine congrArg (k0_pay1 (F := Ideal) v0 v2 v5 (ix2 p q) * v10 ·) ?_
  funext a
  match a with
  | ⟨0, _⟩ => rfl
  | ⟨1, _⟩ => rfl

/-- The left operand's index at output (i) and contraction index q: row from the output, column from the contraction. -/
theorem lhs_pool_0 (i : S64x384.Idx) (q : dot_S64x2048_S2048x384_S64x384_1_0_0_1_n_n.contr.Idx) :
    (dot_S64x2048_S2048x384_S64x384_1_0_0_1_n_n.lhsIdx i q 0).val = (i 0).val := by
  unfold DotDims.lhsIdx
  rw [dif_neg (show ¬(0 : Fin S64x2048.rank) ∈ dot_S64x2048_S2048x384_S64x384_1_0_0_1_n_n.lhsBatch by decide), dif_pos (show (0 : Fin S64x2048.rank) ∈ dot_S64x2048_S2048x384_S64x384_1_0_0_1_n_n.lhsNonContracting by decide)]
  rfl
theorem lhs_pool_1 (i : S64x384.Idx) (q : dot_S64x2048_S2048x384_S64x384_1_0_0_1_n_n.contr.Idx) :
    (dot_S64x2048_S2048x384_S64x384_1_0_0_1_n_n.lhsIdx i q 1).val = (q ⟨0, by decide⟩).val :=
  dot_S64x2048_S2048x384_S64x384_1_0_0_1_n_n.lhsIdx_val_of_single rfl i q
/-- The right operand's index: row from the contraction, column from the output. -/
theorem rhs_pool_0 (i : S64x384.Idx) (q : dot_S64x2048_S2048x384_S64x384_1_0_0_1_n_n.contr.Idx) :
    (dot_S64x2048_S2048x384_S64x384_1_0_0_1_n_n.rhsIdx i q 0).val = (q ⟨0, by decide⟩).val :=
  dot_S64x2048_S2048x384_S64x384_1_0_0_1_n_n.rhsIdx_val_of_single rfl i q
theorem rhs_pool_1 (i : S64x384.Idx) (q : dot_S64x2048_S2048x384_S64x384_1_0_0_1_n_n.contr.Idx) :
    (dot_S64x2048_S2048x384_S64x384_1_0_0_1_n_n.rhsIdx i q 1).val = (i 1).val := by
  unfold DotDims.rhsIdx
  rw [dif_neg (show ¬(1 : Fin S2048x384.rank) ∈ dot_S64x2048_S2048x384_S64x384_1_0_0_1_n_n.rhsBatch by decide), dif_pos (show (1 : Fin S2048x384.rank) ∈ dot_S64x2048_S2048x384_S64x384_1_0_0_1_n_n.rhsNonContracting by decide)]
  rfl

/-- The [64, 2048] by [2048, 384] product into the zero block, at (p, q): the sum over k of x (p, k) times w (k, q). -/
theorem matmul_pool_apply (x : FVec Ideal S64x2048 .bf16) (w : FVec Ideal S2048x384 .bf16) (p : Fin 64) (q : Fin 384) :
    matmul dot_S64x2048_S2048x384_S64x384_1_0_0_1_n_n none x w (constant (F := Ideal) S64x384 .f32 0x00000000#32) (ix2 p q)
      = ∑ k : Fin 2048, x (ix2 p k) * w (ix2 k q) := by
  simp only [matmul]
  rw [Ideal.matmul_constant_zero_apply, ← Equiv.sum_comp (contrEquiv1 dot_S64x2048_S2048x384_S64x384_1_0_0_1_n_n 2048 rfl rfl).symm]
  refine Finset.sum_congr rfl fun k _ => ?_
  have hk := contrEquiv1_symm_val dot_S64x2048_S2048x384_S64x384_1_0_0_1_n_n 2048 rfl rfl k
  have el : dot_S64x2048_S2048x384_S64x384_1_0_0_1_n_n.lhsIdx (ix2 p q) ((contrEquiv1 dot_S64x2048_S2048x384_S64x384_1_0_0_1_n_n 2048 rfl rfl).symm k) = ix2 p k := funext fun a => Fin.ext (by
    match a with
    | ⟨0, _⟩ => exact lhs_pool_0 _ _
    | ⟨1, _⟩ => exact (lhs_pool_1 _ _).trans hk)
  have er : dot_S64x2048_S2048x384_S64x384_1_0_0_1_n_n.rhsIdx (ix2 p q) ((contrEquiv1 dot_S64x2048_S2048x384_S64x384_1_0_0_1_n_n 2048 rfl rfl).symm k) = ix2 k q := funext fun a => Fin.ext (by
    match a with
    | ⟨0, _⟩ => exact (rhs_pool_0 _ _).trans hk
    | ⟨1, _⟩ => exact rhs_pool_1 _ _)
  rw [el, er]

/-- The running sums at (b, k): the sum held so far plus, over the block's columns j, the mask at (b, j) times the
    features at (j, k). -/
theorem pay4_apply (v3 : Vec Ideal S1x2048 .i32) (v11 : Vec Ideal S2048x384 .f32) (v14 : Vec Ideal S64x384 .f32)
    (b : Fin 64) (k : Fin 384) :
    k1_pay4 (F := Ideal) v3 v11 v14 (ix2 b k)
      = v14 (ix2 b k) + ∑ j : Fin 2048, k1_pay3 (F := Ideal) v3 (ix2 b j) * v11 (ix2 j k) := by
  unfold k1_pay4
  simp only [shapeCast_self]
  rw [addf_apply, matmul_pool_apply]
  rfl

/-- The left operand's index at output (i) and contraction index q: row from the output, column from the contraction. -/
theorem lhs_head_0 (i : S64x64.Idx) (q : dot_S64x384_S384x64_S64x64_1_0_0_1_n_n.contr.Idx) :
    (dot_S64x384_S384x64_S64x64_1_0_0_1_n_n.lhsIdx i q 0).val = (i 0).val := by
  unfold DotDims.lhsIdx
  rw [dif_neg (show ¬(0 : Fin S64x384.rank) ∈ dot_S64x384_S384x64_S64x64_1_0_0_1_n_n.lhsBatch by decide), dif_pos (show (0 : Fin S64x384.rank) ∈ dot_S64x384_S384x64_S64x64_1_0_0_1_n_n.lhsNonContracting by decide)]
  rfl
theorem lhs_head_1 (i : S64x64.Idx) (q : dot_S64x384_S384x64_S64x64_1_0_0_1_n_n.contr.Idx) :
    (dot_S64x384_S384x64_S64x64_1_0_0_1_n_n.lhsIdx i q 1).val = (q ⟨0, by decide⟩).val :=
  dot_S64x384_S384x64_S64x64_1_0_0_1_n_n.lhsIdx_val_of_single rfl i q
/-- The right operand's index: row from the contraction, column from the output. -/
theorem rhs_head_0 (i : S64x64.Idx) (q : dot_S64x384_S384x64_S64x64_1_0_0_1_n_n.contr.Idx) :
    (dot_S64x384_S384x64_S64x64_1_0_0_1_n_n.rhsIdx i q 0).val = (q ⟨0, by decide⟩).val :=
  dot_S64x384_S384x64_S64x64_1_0_0_1_n_n.rhsIdx_val_of_single rfl i q
theorem rhs_head_1 (i : S64x64.Idx) (q : dot_S64x384_S384x64_S64x64_1_0_0_1_n_n.contr.Idx) :
    (dot_S64x384_S384x64_S64x64_1_0_0_1_n_n.rhsIdx i q 1).val = (i 1).val := by
  unfold DotDims.rhsIdx
  rw [dif_neg (show ¬(1 : Fin S384x64.rank) ∈ dot_S64x384_S384x64_S64x64_1_0_0_1_n_n.rhsBatch by decide), dif_pos (show (1 : Fin S384x64.rank) ∈ dot_S64x384_S384x64_S64x64_1_0_0_1_n_n.rhsNonContracting by decide)]
  rfl

/-- The [64, 384] by [384, 64] product into the zero block, at (p, q): the sum over k of x (p, k) times w (k, q). -/
theorem matmul_head_apply (x : FVec Ideal S64x384 .bf16) (w : FVec Ideal S384x64 .bf16) (p : Fin 64) (q : Fin 64) :
    matmul dot_S64x384_S384x64_S64x64_1_0_0_1_n_n none x w (constant (F := Ideal) S64x64 .f32 0x00000000#32) (ix2 p q)
      = ∑ k : Fin 384, x (ix2 p k) * w (ix2 k q) := by
  simp only [matmul]
  rw [Ideal.matmul_constant_zero_apply, ← Equiv.sum_comp (contrEquiv1 dot_S64x384_S384x64_S64x64_1_0_0_1_n_n 384 rfl rfl).symm]
  refine Finset.sum_congr rfl fun k _ => ?_
  have hk := contrEquiv1_symm_val dot_S64x384_S384x64_S64x64_1_0_0_1_n_n 384 rfl rfl k
  have el : dot_S64x384_S384x64_S64x64_1_0_0_1_n_n.lhsIdx (ix2 p q) ((contrEquiv1 dot_S64x384_S384x64_S64x64_1_0_0_1_n_n 384 rfl rfl).symm k) = ix2 p k := funext fun a => Fin.ext (by
    match a with
    | ⟨0, _⟩ => exact lhs_head_0 _ _
    | ⟨1, _⟩ => exact (lhs_head_1 _ _).trans hk)
  have er : dot_S64x384_S384x64_S64x64_1_0_0_1_n_n.rhsIdx (ix2 p q) ((contrEquiv1 dot_S64x384_S384x64_S64x64_1_0_0_1_n_n 384 rfl rfl).symm k) = ix2 k q := funext fun a => Fin.ext (by
    match a with
    | ⟨0, _⟩ => exact (rhs_head_0 _ _).trans hk
    | ⟨1, _⟩ => exact rhs_head_1 _ _)
  rw [el, er]

/-- A column [a, 1] broadcast along the rows to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- The head at (b, o): over the features k, the pooled sum at (b, k) divided by the count of b raised to at least one,
    times the head's weight at (k, o); plus the head's bias at o. -/
theorem pay6_apply (v31 : Vec Ideal S64x1 .f32) (v34 : Vec Ideal S64x384 .f32) (v38 : Vec Ideal S384x64 .f32)
    (v41 : Vec Ideal S1x64 .f32) (b o : Fin 64) :
    k1_pay6 (F := Ideal) v31 v34 v38 v41 (ix2 b o)
      = (∑ k : Fin 384, FloatOps.divf (v34 (ix2 b k))
            (FloatOps.maximumf (v31 (ix2 b 0)) (Scalar.ofBits (F := Ideal) .f32 0x3F800000#32)) * v38 (ix2 k o))
        + v41 (ix2 0 o) := by
  unfold k1_pay6
  rw [addf_apply, shapeCast_self, broadcastTo_1b_ab_apply, matmul_head_apply]
  refine congrArg (· + v41 (ix2 0 o)) (Finset.sum_congr rfl fun k _ => ?_)
  rw [truncf_apply, truncf_apply]
  show FloatOps.divf (F := Ideal) (φ := .f32) (v34 (ix2 b k))
      (broadcastTo S64x384 (maximumf (F := Ideal) (φ := .f32) v31 (broadcast S64x1 (Scalar.ofBits (F := Ideal) .f32 0x3F800000#32)))
        broadcasts_S64x1_S64x384 (ix2 b k)) * v38 (ix2 k o) = _
  rw [broadcastTo_a1_ab_apply]
  rfl

end Cert.KernelIdeal.PayIdx

end
-- ==== Proof.KernelIdeal.Val0.lean ====
/- The VALUE of region 0 at the ideal reals: what the two output arrays hold after all twenty write-backs. -/
import proofs.«421251_j42829413875734_1_alg».proof.Proof.KernelIdeal.R0
import proofs.«421251_j42829413875734_1_alg».proof.Proof.Gen.KernelIdeal.Regions
import proofs.«421251_j42829413875734_1_alg».proof.Proof.Gen.ReferenceIdeal.Read
import proofs.«421251_j42829413875734_1_alg».proof.Proof.LibAfter
import proofs.«421251_j42829413875734_1_alg».proof.Proof.PayIdx
import Idealize.ShloMosaic.Lib.ValueIdx
import Idealize.ShloMosaic.Lib.Pipeline.Value
import Idealize.ShloMosaic.PureOps.Ideal.Laws

noncomputable section

open scoped BigOperators

namespace Cert.KernelIdeal.Val

open Cert.KernelIdeal Cert.KernelIdeal.Gen Cert.KernelIdeal.Frm Cert.KernelIdeal.PayIdx
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The two output arrays as functions of the input arrays -/

/-- Row `i 0` of the activations times column `i 1` of the weights, plus the bias at that column. -/
def G4 (X : S100000x128.Idx → EReal) (W : S128x128.Idx → EReal) (Br : S1x128.Idx → EReal) : S100000x128.Idx → EReal :=
  fun i => (∑ k : Fin 128, X (ix2 (n0 := 100000) (n1 := 128) (i 0) k) * W (ix2 (n0 := 128) (n1 := 128) k (i 1)))
    + Br (ix2 (n0 := 1) (n1 := 128) 0 (i 1))

/-- The same, times the one scale entry. -/
def G5 (X : S100000x128.Idx → EReal) (W : S128x128.Idx → EReal) (Br : S1x128.Idx → EReal) (Sc : S1x1.Idx → EReal) :
    S100000x128.Idx → EReal :=
  fun i => G4 X W Br i * Sc (ix2 (n0 := 1) (n1 := 1) 0 0)

theorem hz : (![0, 0] : Fin 2 → Nat) = fun _ => 0 := funext fun a => by fin_cases a <;> rfl

/-! ## Where each window's block sits at a grid point -/

/-- Decided once over the twenty points: the row window and both output windows sit at row block `t`, column block
    0; the weight, bias and scale windows always at block (0, 0). -/
theorem where_blocks : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks, read off the arrays -/

/-- The row window's block at point `t` is rows `5000 t … 5000 t + 4999` of the activations. -/
theorem rows_block (c : Dev nD) (t : Fin cfg0.N) (x : S5000x128.Idx) (k : S100000x128.Idx)
    (hk0 : (k 0).val = 5000 * t.val + (x 0).val) (hk1 : (k 1).val = (x 1).val) :
    (iblk0 (F := Ideal) (fun c b => V1 m c b) c 0 t : Vec Ideal S5000x128 .f32) x
      = (V1 m c main_arg0 : S100000x128.Idx → EReal) k := by
  obtain ⟨e0, e1, -⟩ := where_blocks t
  unfold iblk0
  rw [View.read_apply]
  show V1 m c main_arg0 _ = V1 m c main_arg0 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The weight window's block is the whole weight matrix at every point. -/
theorem weights_block (c : Dev nD) (t : Fin cfg0.N) :
    (iblk0 (F := Ideal) (fun c b => V1 m c b) c 1 t : Vec Ideal S128x128 .f32) = (V1 m c main_arg6 : S128x128.Idx → EReal) := by
  obtain ⟨-, -, e0, e1, -⟩ := where_blocks t
  funext x
  unfold iblk0
  rw [View.read_apply]
  show V1 m c main_arg6 _ = V1 m c main_arg6 _
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- The bias window's block is the whole bias row at every point. -/
theorem bias_block (c : Dev nD) (t : Fin cfg0.N) :
    (iblk0 (F := Ideal) (fun c b => V1 m c b) c 2 t : Vec Ideal S1x128 .f32) = (V1 m c main_v3 : S1x128.Idx → EReal) := by
  obtain ⟨-, -, -, -, e0, e1, -⟩ := where_blocks t
  funext x
  unfold iblk0
  rw [View.read_apply]
  show V1 m c main_v3 _ = V1 m c main_v3 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- The scale window's block is the one scale entry at every point. -/
theorem scale_block (c : Dev nD) (t : Fin cfg0.N) :
    (iblk0 (F := Ideal) (fun c b => V1 m c b) c 3 t : Vec Ideal S1x1 .f32) = (V1 m c main_v2 : S1x1.Idx → EReal) := by
  obtain ⟨-, -, -, -, -, -, e0, e1, -⟩ := where_blocks t
  funext x
  unfold iblk0
  rw [View.read_apply]
  show V1 m c main_v2 _ = V1 m c main_v2 _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 1 + 1 * (x 1).val = (x 1).val; rw [e1]; omega

/-! ## The payloads at an index of the array -/

/-- At an index `i` of the array lying in row block `n` at position `j`, the first store's payload is `G4` there. -/
theorem pay1_at (v0 : Vec Ideal S5000x128 .f32) (v2 : Vec Ideal S128x128 .f32) (v5 : Vec Ideal S1x128 .f32)
    (X : S100000x128.Idx → EReal) (W : S128x128.Idx → EReal) (Br : S1x128.Idx → EReal) (n : ℕ)
    (h0 : ∀ (x : S5000x128.Idx) (k : S100000x128.Idx), (k 0).val = 5000 * n + (x 0).val → (k 1).val = (x 1).val → v0 x = X k)
    (h2 : v2 = W) (h5 : v5 = Br)
    (j : S5000x128.Idx) (i : S100000x128.Idx) (hi0 : (i 0).val = 5000 * n + (j 0).val) (hi1 : (i 1).val = (j 1).val) :
    k0_pay1 (F := Ideal) v0 v2 v5 j = G4 X W Br i := by
  subst h2; subst h5
  obtain ⟨p, q, rfl⟩ : ∃ (p : Fin 5000) (q : Fin 128), j = ix2 p q := ⟨j 0, j 1, eq_ix2 j⟩
  have hq : i 1 = q := Fin.ext hi1
  rw [pay1_apply]
  unfold G4
  rw [hq]
  congr 1
  refine Finset.sum_congr rfl fun k _ => ?_
  congr 1
  exact h0 _ _ hi0 rfl

/-- and the second store's payload is `G5` there. -/
theorem pay2_at (v0 : Vec Ideal S5000x128 .f32) (v2 : Vec Ideal S128x128 .f32) (v5 : Vec Ideal S1x128 .f32) (v10 : Vec Ideal S1x1 .f32)
    (X : S100000x128.Idx → EReal) (W : S128x128.Idx → EReal) (Br : S1x128.Idx → EReal) (Sc : S1x1.Idx → EReal) (n : ℕ)
    (h0 : ∀ (x : S5000x128.Idx) (k : S100000x128.Idx), (k 0).val = 5000 * n + (x 0).val → (k 1).val = (x 1).val → v0 x = X k)
    (h2 : v2 = W) (h5 : v5 = Br) (h10 : v10 = Sc)
    (j : S5000x128.Idx) (i : S100000x128.Idx) (hi0 : (i 0).val = 5000 * n + (j 0).val) (hi1 : (i 1).val = (j 1).val) :
    k0_pay2 (F := Ideal) v0 v2 v5 v10 j = G5 X W Br Sc i := by
  have h1 := pay1_at v0 v2 v5 X W Br n h0 h2 h5 j i hi0 hi1
  subst h10
  obtain ⟨p, q, rfl⟩ : ∃ (p : Fin 5000) (q : Fin 128), j = ix2 p q := ⟨j 0, j 1, eq_ix2 j⟩
  rw [pay2_apply, h1]
  rfl

/-! ## What each point writes back -/

/-- Point `t` writes block `t` of `G4` of the arrays as the region finds them into the first output array. -/
theorem flushed4_eq (c : Dev nD) (t : Fin cfg0.N) :
    (dat0 (F := Ideal) (fun c b => V1 m c b) c).flushed 4 t
      = ((cfg0.win 4).blk t).view.read (Elt Ideal) (G4 (V1 m c main_arg0) (V1 m c main_arg6) (V1 m c main_v3)) := by
  show (cfg0.win 4).cut (grid0.coords t) ((dat0 (F := Ideal) (fun c b => V1 m c b) c).after 4 t) = _
  rw [after0_4]
  unfold out0_4
  rw [View.canon_unit_zero hz]
  simp only [View.ld_unit_zero (S := S5000x128) hz, View.ld_unit_zero (S := S128x128) hz, View.ld_unit_zero (S := S1x128) hz]
  obtain ⟨-, -, -, -, -, -, -, -, e0, e1, -⟩ := where_blocks t
  funext j
  show k0_pay1 (F := Ideal) _ _ _ j = G4 _ _ _ (((cfg0.win 4).blk t).view.emb j)
  refine pay1_at _ _ _ _ _ _ t.val (fun x k => rows_block m c t x k) (weights_block m c t) (bias_block m c t) _ _ ?_ ?_
  · show win0_4.index t (0 : Fin 2) * 5000 + 1 * (j 0).val = _; rw [e0]; omega
  · show win0_4.index t (1 : Fin 2) * 128 + 1 * (j 1).val = _; rw [e1]; omega

/-- Point `t` writes block `t` of `G5` into the second output array. -/
theorem flushed5_eq (c : Dev nD) (t : Fin cfg0.N) :
    (dat0 (F := Ideal) (fun c b => V1 m c b) c).flushed 5 t
      = ((cfg0.win 5).blk t).view.read (Elt Ideal) (G5 (V1 m c main_arg0) (V1 m c main_arg6) (V1 m c main_v3) (V1 m c main_v2)) := by
  show (cfg0.win 5).cut (grid0.coords t) ((dat0 (F := Ideal) (fun c b => V1 m c b) c).after 5 t) = _
  rw [after0_5]
  unfold out0_5
  rw [View.canon_unit_zero hz]
  simp only [View.ld_unit_zero (S := S5000x128) hz, View.ld_unit_zero (S := S128x128) hz, View.ld_unit_zero (S := S1x128) hz,
    View.ld_unit_zero (S := S1x1) hz]
  obtain ⟨-, -, -, -, -, -, -, -, -, -, e0, e1⟩ := where_blocks t
  funext j
  show k0_pay2 (F := Ideal) _ _ _ _ j = G5 _ _ _ _ (((cfg0.win 5).blk t).view.emb j)
  refine pay2_at _ _ _ _ _ _ _ _ t.val (fun x k => rows_block m c t x k) (weights_block m c t) (bias_block m c t) (scale_block m c t) _ _ ?_ ?_
  · show win0_5.index t (0 : Fin 2) * 5000 + 1 * (j 0).val = _; rw [e0]; omega
  · show win0_5.index t (1 : Fin 2) * 128 + 1 * (j 1).val = _; rw [e1]; omega

/-! ## The blocks cover the arrays -/

/-- An index of the first output array is in point `t`'s block iff each coordinate is in the block's range. -/
theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v4_0).slice (win0_4.rect t)).set ↔ _
  rw [View.set_slice_whole, Rect.mem_set_unit]
  exact Iff.rfl

theorem mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v4_1).slice (win0_5.rect t)).set ↔ _
  rw [View.set_slice_whole, Rect.mem_set_unit]
  exact Iff.rfl

/-- The grid point whose row block holds row `r`: `r / 5000`. -/
def pointOf (i : S100000x128.Idx) : Fin cfg0.N :=
  ⟨(i 0).val / 5000, by
    have h : (i 0).val < 100000 := (i 0).isLt
    rw [show cfg0.N = 20 from N_0]; omega⟩

theorem pointOf_val (i : S100000x128.Idx) : (pointOf i).val = (i 0).val / 5000 := rfl

/-- Every index of the first output array is in the block of the point that holds its row, and that point writes back. -/
theorem cover4 (i : S100000x128.Idx) : ∃ t : Fin cfg0.N, (cfg0.win 4).flush t = true ∧ i ∈ ((cfg0.win 4).blk t).view.set := by
  refine ⟨pointOf i, flush0_4 _, ?_⟩
  obtain ⟨-, -, -, -, -, -, -, -, e0, e1, -⟩ := where_blocks (pointOf i)
  have h0 : (i 0).val < 100000 := (i 0).isLt
  have h1 : (i 1).val < 128 := (i 1).isLt
  have hp := pointOf_val i
  rw [mem_blk4]
  intro a
  match a with
  | ⟨0, _⟩ => show win0_4.index (pointOf i) (0 : Fin 2) * 5000 ≤ (i 0).val ∧ (i 0).val < win0_4.index (pointOf i) (0 : Fin 2) * 5000 + 5000; rw [e0]; omega
  | ⟨1, _⟩ => show win0_4.index (pointOf i) (1 : Fin 2) * 128 ≤ (i 1).val ∧ (i 1).val < win0_4.index (pointOf i) (1 : Fin 2) * 128 + 128; rw [e1]; omega

theorem cover5 (i : S100000x128.Idx) : ∃ t : Fin cfg0.N, (cfg0.win 5).flush t = true ∧ i ∈ ((cfg0.win 5).blk t).view.set := by
  refine ⟨pointOf i, flush0_5 _, ?_⟩
  obtain ⟨-, -, -, -, -, -, -, -, -, -, e0, e1⟩ := where_blocks (pointOf i)
  have h0 : (i 0).val < 100000 := (i 0).isLt
  have h1 : (i 1).val < 128 := (i 1).isLt
  have hp := pointOf_val i
  rw [mem_blk5]
  intro a
  match a with
  | ⟨0, _⟩ => show win0_5.index (pointOf i) (0 : Fin 2) * 5000 ≤ (i 0).val ∧ (i 0).val < win0_5.index (pointOf i) (0 : Fin 2) * 5000 + 5000; rw [e0]; omega
  | ⟨1, _⟩ => show win0_5.index (pointOf i) (1 : Fin 2) * 128 ≤ (i 1).val ∧ (i 1).val < win0_5.index (pointOf i) (1 : Fin 2) * 128 + 128; rw [e1]; omega

/-! ## The arrays after the last write-back, over the region-entry contents -/

theorem arr4_G (c : Dev nD) : (dat0 (F := Ideal) (fun c b => V1 m c b) c).arrAt 4 cfg0.N
    = G4 (V1 m c main_arg0) (V1 m c main_arg6) (V1 m c main_v3) :=
  (dat0 (F := Ideal) (fun c b => V1 m c b) c).arrAt_eq_of_cover 4 (G4 (V1 m c main_arg0) (V1 m c main_arg6) (V1 m c main_v3))
    (fun t _ => flushed4_eq m c t) cover4

theorem arr5_G (c : Dev nD) : (dat0 (F := Ideal) (fun c b => V1 m c b) c).arrAt 5 cfg0.N
    = G5 (V1 m c main_arg0) (V1 m c main_arg6) (V1 m c main_v3) (V1 m c main_v2) :=
  (dat0 (F := Ideal) (fun c b => V1 m c b) c).arrAt_eq_of_cover 5 (G5 (V1 m c main_arg0) (V1 m c main_arg6) (V1 m c main_v3) (V1 m c main_v2))
    (fun t _ => flushed5_eq m c t) cover5

/-! ## The region-entry contents, from the launch memory

The activations and the weights are arguments no host operation writes. The bias row is the bias vector reshaped to one row;
the scale entry is one plus the argument `eps`, reshaped to a one-by-one array. -/

theorem entry_x (c : Dev nD) : (V1 m c main_arg0 : S100000x128.Idx → EReal) = m ((c.tc : Thread nD τ).loc main_arg0) :=
  (V1_of m c main_arg0 (by decide)).trans rfl

theorem entry_w (c : Dev nD) : (V1 m c main_arg6 : S128x128.Idx → EReal) = m ((c.tc : Thread nD τ).loc main_arg6) :=
  (V1_of m c main_arg6 (by decide)).trans rfl

/-- The bias row at column `q` is the bias vector at `q`. -/
theorem bias_at (c : Dev nD) (q : Fin 128) :
    (V1 m c main_v3 : S1x128.Idx → EReal) (ix2 (n0 := 1) (n1 := 128) 0 q)
      = (m ((c.tc : Thread nD τ).loc main_arg7) : S128.Idx → EReal) (ix1 q) := by
  have e : (V1 m c main_v3 : S1x128.Idx → EReal)
      = shapeCast S1x128 (m ((c.tc : Thread nD τ).loc main_arg7) : S128.Idx → EReal) shapeCasts_S128_S1x128 := by
    dsimp only [V1, V0, hostOps0]; after_results; rfl
  rw [e]
  exact shapeCast_apply (s := S128) (t := S1x128) _ shapeCasts_S128_S1x128 (ix2 (n0 := 1) (n1 := 128) 0 q) (ix1 q) (by
    rw [Shape.rowMajor_val_one, Shape.rowMajor_val_two]
    show q.val = 0 * 128 + q.val
    omega)

/-- The scale entry is one (the f32 word of 1.0) plus `eps`. -/
theorem scale_at (c : Dev nD) :
    (V1 m c main_v2 : S1x1.Idx → EReal) (ix2 (n0 := 1) (n1 := 1) 0 0)
      = FloatOps.ofBits (F := Ideal) .f32 0x3F800000#32 + (m ((c.tc : Thread nD τ).loc main_arg8) : S1.Idx → EReal) (ix1 (n := 1) 0) := by
  have e : (V1 m c main_v2 : S1x1.Idx → EReal)
      = shapeCast S1x1 (addf (broadcastInDim S1 ![] bcast_S_S1 (constant (F := Ideal) S_ .f32 0x3F800000#32))
          (m ((c.tc : Thread nD τ).loc main_arg8) : S1.Idx → EReal)) shapeCasts_S1_S1x1 := by
    dsimp only [V1, V0, hostOps0]; after_results; rfl
  rw [e]
  rw [shapeCast_apply _ shapeCasts_S1_S1x1 (ix2 (n0 := 1) (n1 := 1) 0 0) (ix1 (n := 1) 0) (by
    rw [Shape.rowMajor_val_one, Shape.rowMajor_val_two]
    show 0 = 0 * 1 + 0
    rfl)]
  rw [addf_apply, broadcastInDim_apply _ bcast_S_S1 _ (ix1 (n := 1) 0) ix0 (fun a => a.elim0)]
  rfl

/-! ## The reference's two stages, in the same form -/

open Cert.ReferenceIdeal.Read in
/-- The reference's first stage at an index: the same row-by-column sum plus the bias vector at the column. -/
theorem ref_proj (x0 : S100000x128.Idx → EReal) (x6 : S128x128.Idx → EReal) (x7 : S128.Idx → EReal) (i : S100000x128.Idx) :
    val_main_v3 (F := Ideal) x0 x6 x7 i
      = (∑ k : Fin 128, x0 (ix2 (n0 := 100000) (n1 := 128) (i 0) k) * x6 (ix2 (n0 := 128) (n1 := 128) k (i 1))) + x7 (ix1 (i 1)) := by
  have el : ∀ k : Fin 128, lidx_main_v0 i k = ix2 (n0 := 100000) (n1 := 128) (i 0) k := fun k =>
    funext fun a => Fin.ext (by match a with | ⟨0, _⟩ => rfl | ⟨1, _⟩ => rfl)
  have er : ∀ k : Fin 128, ridx_main_v0 i k = ix2 (n0 := 128) (n1 := 128) k (i 1) := fun k =>
    funext fun a => Fin.ext (by match a with | ⟨0, _⟩ => rfl | ⟨1, _⟩ => rfl)
  have eb : idx_main_v1 (idx_main_v2 i) = ix1 (i 1) :=
    funext fun a => Fin.ext (by match a with | ⟨0, _⟩ => rfl)
  rw [val_main_v3_apply, val_main_v0_apply, val_main_v2_apply, val_main_v1_apply]
  simp only [el, er, eb]
  rfl

open Cert.ReferenceIdeal.Read in
/-- The reference's second stage at an index: one plus `eps`, times the first stage there. -/
theorem ref_scaled (x0 : S100000x128.Idx → EReal) (x6 : S128x128.Idx → EReal) (x7 : S128.Idx → EReal) (x8 : S1.Idx → EReal)
    (i : S100000x128.Idx) :
    val_main_v8 (F := Ideal) x0 x6 x7 x8 i
      = (FloatOps.ofBits (F := Ideal) .f32 0x3F800000#32 + x8 (ix1 (n := 1) 0)) * val_main_v3 (F := Ideal) x0 x6 x7 i := by
  have e8 : idx_main_v6 (idx_main_v7 i) = ix1 (n := 1) 0 :=
    funext fun a => Fin.ext (by match a with | ⟨0, _⟩ => rfl)
  rw [val_main_v8_apply, val_main_v7_apply, val_main_v6_apply, val_main_v5_apply, val_main_v4_apply, val_main_cst_apply]
  simp only [e8]
  rfl

/-! ## The claim -/

/-- After all twenty write-backs the first output array is the reference's biased projection, -/
theorem arr4_eq (m : (ℓ : Loc nD τ sig) → Buf (Elt Ideal) ℓ) (c : Dev nD) :
    (dat0 (F := Ideal) (fun c b => V1 m c b) c).arrAt 4 cfg0.N
      = Cert.ReferenceIdeal.Read.val_main_v3 (F := Ideal) (m ((c.tc : Thread nD τ).loc main_arg0))
          (m ((c.tc : Thread nD τ).loc main_arg6)) (m ((c.tc : Thread nD τ).loc main_arg7)) := by
  rw [arr4_G]
  funext i
  rw [ref_proj]
  unfold G4
  rw [entry_x, entry_w, bias_at m c (i 1)]

/-- and the second is the reference's scaled projection: the two differ by the order of one product. -/
theorem arr5_eq (m : (ℓ : Loc nD τ sig) → Buf (Elt Ideal) ℓ) (c : Dev nD) :
    (dat0 (F := Ideal) (fun c b => V1 m c b) c).arrAt 5 cfg0.N
      = Cert.ReferenceIdeal.Read.val_main_v8 (F := Ideal) (m ((c.tc : Thread nD τ).loc main_arg0))
          (m ((c.tc : Thread nD τ).loc main_arg6)) (m ((c.tc : Thread nD τ).loc main_arg7)) (m ((c.tc : Thread nD τ).loc main_arg8)) := by
  rw [arr5_G]
  funext i
  rw [ref_scaled, ref_proj]
  unfold G5 G4
  rw [entry_x, entry_w, bias_at m c (i 1), scale_at]
  exact mul_comm _ _

end Cert.KernelIdeal.Val

end
-- ==== Proof.PoolSum.lean ====
/-
  TILE SUMS AND SELECTED-ROW SUMS ON THE EXTENDED REALS.

  A running total that adds one tile's term after another equals the start value plus the sum of all the terms.
  Each tile's term is a sum over its 2048 rows of (one-hot of segment b against the row's word) times (the row's
  value). Laid end to end, 49 tiles of 2048 rows are the rows 0 .. 100351; rows 100000 .. 100351 are padding,
  whose value is 0 and whose word is the all-ones word, which is no segment number below 64. So the 49 tile terms
  add up to the sum, over the 100000 real rows whose word read as a signed integer is b, of the row's value.
  Only commutativity and associativity of +, 0 * x = 0 and 1 * x = x are used: all hold for every extended real.
-/
import Mathlib.Data.EReal.Basic
import Mathlib.Algebra.BigOperators.Fin
import Mathlib.Algebra.BigOperators.Group.Finset.Basic

open scoped BigOperators

namespace Cert.PoolSum

/-! ## The one-hot of a segment number against a 32-bit word -/

/-- 1 if the word is the segment number b written in 32 bits, else 0. -/
noncomputable def oh (b : Fin 64) (w : BitVec 32) : EReal := if BitVec.ofNat 32 b.val = w then 1 else 0

/-- A segment number below 64, written in 32 bits, reads back signed as itself. -/
theorem toInt_ofNat_seg (b : Fin 64) : (BitVec.ofNat 32 b.val).toInt = (b.val : Int) := by
  have hb := b.isLt
  rw [BitVec.toInt_ofNat']
  apply Int.bmod_eq_of_le_mul_two <;> omega

/-- For b < 64: the word is b written in 32 bits exactly when it reads signed as b. -/
theorem oh_eq_iff_toInt (b : Fin 64) (w : BitVec 32) : BitVec.ofNat 32 b.val = w ↔ w.toInt = (b.val : Int) := by
  constructor
  · intro h
    rw [← h]
    exact toInt_ofNat_seg b
  · intro h
    apply BitVec.eq_of_toInt_eq
    rw [toInt_ofNat_seg, h]

/-- The all-ones word is no segment number below 64. -/
theorem ofNat_seg_ne_allOnes (b : Fin 64) : BitVec.ofNat 32 b.val ≠ 4294967295#32 := by
  intro h
  have h1 := (oh_eq_iff_toInt b _).1 h
  have h2 : (4294967295#32 : BitVec 32).toInt = -1 := by decide
  have hb := b.isLt
  omega

theorem oh_allOnes (b : Fin 64) : oh b 4294967295#32 = 0 := by
  unfold oh
  rw [if_neg (ofNat_seg_ne_allOnes b)]

/-- The one-hot times a value keeps the value on a row of segment b and is 0 elsewhere. -/
theorem oh_mul (b : Fin 64) (w : BitVec 32) (x : EReal) :
    oh b w * x = if w.toInt = (b.val : Int) then x else 0 := by
  unfold oh
  by_cases h : BitVec.ofNat 32 b.val = w
  · rw [if_pos h, if_pos ((oh_eq_iff_toInt b w).1 h), one_mul]
  · rw [if_neg h, if_neg (fun h' => h ((oh_eq_iff_toInt b w).2 h')), zero_mul]

theorem oh_eq_ite (b : Fin 64) (w : BitVec 32) :
    oh b w = if w.toInt = (b.val : Int) then (1 : EReal) else 0 := by
  have := oh_mul b w 1
  rwa [mul_one] at this

/-! ## The running total -/

/-- A total that starts at z + T 0 and adds T (n + 1) at step n + 1 is z plus the sum of the terms so far. -/
theorem acc_eq_sum (z : EReal) (T : ℕ → EReal) (S : ℕ → EReal) (h0 : S 0 = z + T 0)
    (hs : ∀ n, S (n + 1) = S n + T (n + 1)) (n : ℕ) : S n = z + ∑ t ∈ Finset.range (n + 1), T t := by
  induction n with
  | zero => rw [h0, Finset.sum_range_one]
  | succ k ih => rw [hs k, ih, Finset.sum_range_succ T (k + 1), add_assoc]

/-! ## Tiles laid end to end -/

/-- m tiles of n rows each, summed tile by tile, are the rows 0 .. m * n - 1 summed in order. -/
theorem sum_tiles {M : Type*} [AddCommMonoid M] (F : ℕ → M) (n m : ℕ) :
    (∑ t ∈ Finset.range m, ∑ j : Fin n, F (t * n + j.val)) = ∑ i ∈ Finset.range (m * n), F i := by
  induction m with
  | zero => rw [Finset.sum_range_zero, Nat.zero_mul, Finset.sum_range_zero]
  | succ k ih =>
    rw [Finset.sum_range_succ, ih, Nat.succ_mul, Finset.sum_range_add,
      Fin.sum_univ_eq_sum_range (fun j => F (k * n + j)) n]

/-! ## Padding -/

/-- The words, continued past row 100000 by the all-ones word. -/
def padW (w : Fin 100000 → BitVec 32) (i : ℕ) : BitVec 32 := if h : i < 100000 then w ⟨i, h⟩ else 4294967295#32

/-- The values, continued past row 100000 by 0. -/
noncomputable def padX (x : Fin 100000 → EReal) (i : ℕ) : EReal := if h : i < 100000 then x ⟨i, h⟩ else 0

theorem padW_real (w : Fin 100000 → BitVec 32) (n : Fin 100000) : padW w n.val = w n := by
  unfold padW
  rw [dif_pos n.isLt]

theorem padX_real (x : Fin 100000 → EReal) (n : Fin 100000) : padX x n.val = x n := by
  unfold padX
  rw [dif_pos n.isLt]

theorem padW_pad (w : Fin 100000 → BitVec 32) (i : ℕ) : padW w (100000 + i) = 4294967295#32 := by
  unfold padW
  rw [dif_neg (by omega)]

theorem padX_pad (x : Fin 100000 → EReal) (i : ℕ) : padX x (100000 + i) = 0 := by
  unfold padX
  rw [dif_neg (by omega)]

/-- A sum over the 100352 padded rows whose 352 padding terms vanish is the sum over the 100000 real rows. -/
theorem sum_padded {M : Type*} [AddCommMonoid M] (F : ℕ → M) (hpad : ∀ i, F (100000 + i) = 0) :
    (∑ t ∈ Finset.range 49, ∑ j : Fin 2048, F (t * 2048 + j.val)) = ∑ n : Fin 100000, F n.val := by
  rw [sum_tiles F 2048 49]
  have hN : 49 * 2048 = 100000 + 352 := by norm_num
  rw [hN, Finset.sum_range_add, Finset.sum_congr rfl (fun i _ => hpad i), Finset.sum_const_zero, add_zero,
    Fin.sum_univ_eq_sum_range F 100000]

/-! ## The two results -/

/-- The 49 tile terms of segment b add up to the values of the real rows whose word reads signed as b. -/
theorem tiles_eq_filter (w : Fin 100000 → BitVec 32) (x : Fin 100000 → EReal) (b : Fin 64) :
    (∑ t ∈ Finset.range 49, ∑ j : Fin 2048, oh b (padW w (t * 2048 + j.val)) * padX x (t * 2048 + j.val))
      = ∑ n ∈ Finset.univ.filter (fun n : Fin 100000 => (w n).toInt = (b.val : Int)), x n := by
  rw [sum_padded (fun i => oh b (padW w i) * padX x i) (fun i => by rw [padX_pad, mul_zero]), Finset.sum_filter]
  refine Finset.sum_congr rfl (fun n _ => ?_)
  rw [padW_real, padX_real, oh_mul]

/-- The 49 tile counts of segment b add up to the number of real rows whose word reads signed as b. -/
theorem tiles_count_eq_filter (w : Fin 100000 → BitVec 32) (b : Fin 64) :
    (∑ t ∈ Finset.range 49, ∑ j : Fin 2048, oh b (padW w (t * 2048 + j.val)))
      = ∑ n ∈ Finset.univ.filter (fun n : Fin 100000 => (w n).toInt = (b.val : Int)), (1 : EReal) := by
  rw [sum_padded (fun i => oh b (padW w i)) (fun i => by rw [padW_pad, oh_allOnes]), Finset.sum_filter]
  refine Finset.sum_congr rfl (fun n _ => ?_)
  rw [padW_real, oh_eq_ite]

end Cert.PoolSum
-- ==== Proof.KernelIdeal.ValHost.lean ====
/-
  THE HOST STRETCH BETWEEN THE TWO KERNEL REGIONS, READ AT AN INDEX (idealized program, extended reals).

  Between the projection kernel and the pooling kernel the host runs two rounds of neighbour aggregation (wrap a
  negative index, gather the rows it names, scatter-add them at the receiving rows), joins the scaled projection with
  the two aggregates along the feature axis, and pads: 352 rows of zeros under the joined features, 352 copies of the
  all-ones word after the segment words; the padded words and the head's bias are then viewed as one-row matrices.
  Given that the projection kernel left the reference's two projection stages in its output arrays, the joined
  features are the reference's joined features, the padded features are they continued by zero rows, the padded words
  are the segment words continued by the all-ones word, and the bias row and the head's weights are as launched.
-/
import proofs.«421251_j42829413875734_1_alg».proof.Proof.Gen.KernelIdeal.Regions
import proofs.«421251_j42829413875734_1_alg».proof.Proof.Gen.ReferenceIdeal.Read
import proofs.«421251_j42829413875734_1_alg».proof.Proof.PoolSum
import proofs.«421251_j42829413875734_1_alg».proof.Proof.LibAfter
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

noncomputable section

open scoped BigOperators

namespace Cert.KernelIdeal.Val

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (outs : Outs (F := Ideal)) (c : Dev nD)

/-! ## Reading the buffers after a stretch -/

/-- An operation over a literal family of three operand buffers leaves, at its result buffer, its function of the three
    operands' contents, each at its own buffer. -/
theorem nary3_result {τ' : Topo} {sig' : RefSig} {Val : EltTy → Type} {x a b y : Ref sig' .tc}
    (f : ((k : Fin 3) → ((![x, a, b] : Fin 3 → Ref sig' .tc) k).ty.Contents Val) → y.ty.Contents Val) (hxs hy)
    (F : Valuation τ' sig' Val) :
    (nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result buffer matched up to unfolding, for rewriting under one simplification pass. -/
theorem nary3_result' {τ' : Topo} {sig' : RefSig} {Val : EltTy → Type} {x a b y : Ref sig' .tc}
    (f : ((k : Fin 3) → ((![x, a, b] : Fin 3 → Ref sig' .tc) k).ty.Contents Val) → y.ty.Contents Val) (hxs hy)
    (F : Valuation τ' sig' Val) :
    (nary (τ := τ') ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Each operation's result at its own buffer is its function of the operands' contents; at any other buffer the
    contents are unchanged: all of a stretch's operations in one simplification pass, every shared operand visited once. -/
macro "after_results3" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.reshape_result', Cert.KernelIdeal.Val.nary3_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.reshape_result_ne', Idealize.ShloMosaic.StableHlo.nary_result_ne']))

/-- After the projection kernel its second output array holds what the kernel left there. -/
theorem V2_v4_1 : V2 m outs c main_v4_1 = outs 2 main_v4_1 c := Function.update_self ..

/-- After the projection kernel its first output array holds what the kernel left there. -/
theorem V2_v4_0 : V2 m outs c main_v4_0 = outs 2 main_v4_0 c := by
  show Function.update (Function.update (V1 m c) _ _) _ _ _ = _
  rw [Function.update_of_ne (StableHlo.devRef_ne_of_ne (by decide)), Function.update_self]

/-- A buffer that neither the first host stretch nor the projection kernel writes holds its launch contents. -/
theorem V2_launch (r : Ref sig .tc) (h2 : r ∉ ([main_v4_0, main_v4_1] : List (Ref sig .tc))) (h1 : r ∉ hostOps0_W) :
    V2 m outs c r = m ((c.tc : Thread nD τ).loc r) :=
  (V2_of m outs c r h2).trans ((V1_of m c r h1).trans rfl)

/-! ## What no host operation writes -/

/-- The head's weight matrix reaches the pooling kernel as launched: no host stretch writes an argument. -/
theorem v7_arg9 : V7 m outs c main_arg9 = m ((c.tc : Thread nD τ).loc main_arg9) :=
  (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide)).trans rfl

/-! ## The bias row and the padded segment words -/

/-- The head's bias viewed as a one-row matrix reads, at (0, o), the bias at o. -/
theorem v29_apply (o : Fin 64) :
    V7 m outs c main_v29 (ix2 0 o) = m ((c.tc : Thread nD τ).loc main_arg10) (ix1 o) := by
  dsimp only [V7, hostOps1_4]
  after_results
  rw [V2_of m outs c main_arg10 (by decide), V1_of m c main_arg10 (by decide)]
  show shapeCast S1x64 (m ((c.tc : Thread nD τ).loc main_arg10)) shapeCasts_S64_S1x64 (ix2 0 o) = _
  exact shapeCast_apply _ shapeCasts_S64_S1x64 _ _ (by
    rw [Shape.rowMajor_val_two, Shape.rowMajor_val_one]
    show o.val = 0 * 64 + o.val
    omega)

/-- The padded segment words viewed as a one-row matrix read, at (0, n), the word of row n below row 100000 and the
    all-ones word from there on. -/
theorem v28_apply (n : Fin 100352) :
    V7 m outs c main_v28 (ix2 0 n)
      = Cert.PoolSum.padW (fun n' : Fin 100000 => m ((c.tc : Thread nD τ).loc main_arg1) (ix1 n')) n.val := by
  dsimp only [V7, hostOps1_4]
  after_results
  show shapeCast S1x100352 (pad S100352 ![0] ![352] ![0] (V2 m outs c main_arg1 : S100000.Idx → BitVec 32)
      (constantI S_ 32 4294967295#32) pads_S100000_S100352_03520 h_S_) shapeCasts_S100352_S1x100352 (ix2 0 n) = _
  rw [V2_of m outs c main_arg1 (by decide), V1_of m c main_arg1 (by decide)]
  rw [shapeCast_apply _ shapeCasts_S100352_S1x100352 (ix2 0 n) (ix1 n) (by
    rw [Shape.rowMajor_val_two, Shape.rowMajor_val_one]
    show n.val = 0 * 100352 + n.val
    omega)]
  unfold Cert.PoolSum.padW
  by_cases h : n.val < 100000
  · rw [dif_pos h]
    exact pad_apply_of_inside _ _ _ _ _ _ _ _ (ix1 ⟨n.val, h⟩) (fun a => by
      match a with
      | ⟨0, _⟩ => show n.val = 0 + n.val * (0 + 1); omega)
  · rw [dif_neg h]
    rw [pad_apply_of_not_inside _ _ _ _ _ _ _ (ix1 n) 0 (fun hh => h (by
      have h3 := hh.2.2
      change (n.val - 0) / (0 + 1) < 100000 at h3
      omega))]
    rfl

/-! ## The joined features -/

set_option quotPrecheck false

local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)

/-- The last two operations of the stretch after the projection kernel: the join along the feature axis, and a constant. -/
abbrev joinOps : List (HloOp τ sig (Elt Ideal)) :=
  [ StableHlo.nary ![main_v4_1, main_v14, main_v24] main_v25 (fun u => concatenate S100000x384 1 [⟨S100000x128, u 0⟩, ⟨S100000x128, u 1⟩, ⟨S100000x128, u 2⟩] concatenates_S100000x128_S100000x128_S100000x128_S100000x384_d1),
    StableHlo.nullary main_c_5 (constantI S_ 32 0#32) ]

/-- The stretch is its first twenty-six operations followed by those two. -/
theorem hostOps1_split : (hostOps1 : List (HloOp τ sig (Elt Ideal))) = hostOps1.take 26 ++ joinOps := rfl

/-- After the stretch the joined array is the join of the three arrays it reads, as the stretch leaves them. -/
theorem v25_join :
    V3 m outs c main_v25 = concatenate S100000x384 1 [⟨S100000x128, V3 m outs c main_v4_1⟩, ⟨S100000x128, V3 m outs c main_v14⟩,
      ⟨S100000x128, V3 m outs c main_v24⟩] concatenates_S100000x128_S100000x128_S100000x128_S100000x384_d1 := by
  show after (hostOps1.take 26 ++ joinOps) (V2 m outs c) main_v25
    = concatenate S100000x384 1 [⟨S100000x128, after (hostOps1.take 26 ++ joinOps) (V2 m outs c) main_v4_1⟩,
      ⟨S100000x128, after (hostOps1.take 26 ++ joinOps) (V2 m outs c) main_v14⟩,
      ⟨S100000x128, after (hostOps1.take 26 ++ joinOps) (V2 m outs c) main_v24⟩]
      concatenates_S100000x128_S100000x128_S100000x128_S100000x384_d1
  rw [Cert.LibAfter.after_append]
  generalize after (List.take 26 hostOps1) (V2 m outs c) = W
  dsimp only [joinOps]
  after_results
  rfl

/-- The first aggregate: the rows of the first projection stage named by the wrapped sender indices, added up at the
    receiver rows. It is the reference's, given that the kernel left the reference's first stage. -/
theorem v14_eq (h0 : outs 2 main_v4_0 c = Cert.ReferenceIdeal.Read.val_main_v3 (F := Ideal) x0 x6 x7) :
    (V3 m outs c main_v14 : S100000x128.Idx → EReal) = Cert.ReferenceIdeal.Read.val_main_v18 (F := Ideal) x0 x2 x3 x6 x7 := by
  dsimp only [V3, hostOps1]
  after_results3
  rw [V2_v4_0, V2_launch m outs c main_arg2 (by decide) (by decide), V2_launch m outs c main_arg3 (by decide) (by decide), h0]
  rfl

/-- The second aggregate: the same hop over the first aggregate, with the second pair of index lists. -/
theorem v24_eq (h0 : outs 2 main_v4_0 c = Cert.ReferenceIdeal.Read.val_main_v3 (F := Ideal) x0 x6 x7) :
    (V3 m outs c main_v24 : S100000x128.Idx → EReal)
      = Cert.ReferenceIdeal.Read.val_main_v28 (F := Ideal) x0 x2 x3 x4 x5 x6 x7 := by
  dsimp only [V3, hostOps1]
  after_results3
  rw [V2_v4_0, V2_launch m outs c main_arg2 (by decide) (by decide), V2_launch m outs c main_arg3 (by decide) (by decide),
    V2_launch m outs c main_arg4 (by decide) (by decide), V2_launch m outs c main_arg5 (by decide) (by decide), h0]
  rfl

/-- THE JOINED FEATURES ARE THE REFERENCE'S: the scaled projection beside the two aggregates, given that the kernel left
    the reference's two projection stages in its output arrays. -/
theorem cat_eq (h0 : outs 2 main_v4_0 c = Cert.ReferenceIdeal.Read.val_main_v3 (F := Ideal) x0 x6 x7)
    (h1 : outs 2 main_v4_1 c = Cert.ReferenceIdeal.Read.val_main_v8 (F := Ideal) x0 x6 x7 x8) :
    (V3 m outs c main_v25 : S100000x384.Idx → EReal)
      = Cert.ReferenceIdeal.Read.val_main_v29 (F := Ideal) x0 x2 x3 x4 x5 x6 x7 x8 := by
  rw [v25_join, v14_eq m outs c h0, v24_eq m outs c h0, V3_of m outs c main_v4_1 (by decide), V2_v4_1, h1]
  rfl

/-- The stretch's last operation leaves the integer zero in its scalar buffer. -/
theorem v3_c5 : V3 m outs c main_c_5 = constantI S_ 32 0#32 := by
  dsimp only [V3, hostOps1]
  after_results3

/-! ## The padded features -/

/-- The padded features read, at row n and column k, the reference's joined features below row 100000 and zero from
    there on. -/
theorem v26_apply (h0 : outs 2 main_v4_0 c = Cert.ReferenceIdeal.Read.val_main_v3 (F := Ideal) x0 x6 x7)
    (h1 : outs 2 main_v4_1 c = Cert.ReferenceIdeal.Read.val_main_v8 (F := Ideal) x0 x6 x7 x8) (n : Fin 100352) (k : Fin 384) :
    V7 m outs c main_v26 (ix2 n k)
      = Cert.PoolSum.padX (fun n' : Fin 100000 => Cert.ReferenceIdeal.Read.val_main_v29 (F := Ideal) x0 x2 x3 x4 x5 x6 x7 x8 (ix2 n' k)) n.val := by
  rw [V7_of m outs c main_v26 (by decide), V6_of m outs c main_v26 (by decide), V5_of m outs c main_v26 (by decide)]
  have e25 := cat_eq m outs c h0 h1
  have ec5 := v3_c5 m outs c
  show after hostOps1_1 (V3 m outs c) main_v26 (ix2 n k) = _
  generalize V3 m outs c = W at e25 ec5 ⊢
  dsimp only [hostOps1_1]
  after_results
  show pad S100352x384 ![0, 0] ![352, 0] ![0, 0] (W main_v25 : S100000x384.Idx → EReal)
    (sitofp (F := Ideal) FTy.f32 (W main_c_5 : IVec S_ 32) : S_.Idx → EReal)
    pads_S100000x384_S100352x384_03520_000 h_S_ (ix2 n k) = _
  rw [e25, ec5]
  unfold Cert.PoolSum.padX
  by_cases h : n.val < 100000
  · rw [dif_pos h]
    exact pad_apply_of_inside _ _ _ _ _ _ _ _ (ix2 ⟨n.val, h⟩ k) (fun a => by
      match a with
      | ⟨0, _⟩ => show n.val = 0 + n.val * (0 + 1); omega
      | ⟨1, _⟩ => show k.val = 0 + k.val * (0 + 1); omega)
  · rw [dif_neg h]
    rw [pad_apply_of_not_inside _ _ _ _ _ _ _ (ix2 n k) 0 (fun hh => h (by
      have h3 := hh.2.2
      change (n.val - 0) / (0 + 1) < 100000 at h3
      omega))]
    show (((0#32 : BitVec 32).toInt : ℝ) : EReal) = 0
    have hz : (0#32 : BitVec 32).toInt = 0 := by decide
    rw [hz]
    norm_num

end Cert.KernelIdeal.Val

end
-- ==== Proof.KernelIdeal.Blk1.lean ====
/-
  THE BLOCKS OF THE POOLING REGION, READ AT AN INDEX.

  Each input window's block at grid point t is a rectangle of the window's array, and an element of the block at
  coordinates y is the array's element at (block index) × (block size) + y on every axis. Over the 49 points the
  printed index maps are: the data window's block index is (t, 0) with blocks of [2048 × 384], so its row j is the
  table's row t · 2048 + j; the ids window's block index is (0, t) with blocks of [1 × 2048], so its position j is
  position t · 2048 + j of the row of ids; the projection matrix and the bias row are one block each at block index
  (0, 0), so the block is the whole array.
-/
import proofs.«421251_j42829413875734_1_alg».proof.Proof.KernelIdeal.R1Runs
import Idealize.ShloMosaic.Lib.ValueIdx
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx

variable {F : FTy → Type} [FloatOps F]

variable (V : (c : Dev nD) → (b : Ref sig .tc) → Buf (Elt F) ((c : Thread nD τ).loc b))

/-- The printed index maps of the four input windows, decided over the grid's 49 points: the data window's block
    index is (t, 0), the ids window's is (0, t), and the two one-block windows' are (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The data block of point `t` at (j, k) is the table at (t · 2048 + j, k). -/
theorem iblk1_0_apply (c : Dev nD) (t : Fin cfg1.N) (j : Fin 2048) (k : Fin 384) (h : t.val * 2048 + j.val < 100352) :
    iblk1 V c 0 t (ix2 j k) = V c main_v26 (ix2 (⟨t.val * 2048 + j.val, h⟩ : Fin 100352) k) := by
  obtain ⟨e0, e1, -⟩ := idx_facts1 t
  show V c main_v26 (((cfg1.win 0).blk t).view.emb (ix2 j k)) = V c main_v26 (ix2 (⟨t.val * 2048 + j.val, h⟩ : Fin 100352) k)
  refine congrArg (V c main_v26) ?_
  funext a; apply Fin.ext
  match a with
  | ⟨0, _⟩ => show win1_0.index t (0 : Fin 2) * 2048 + 1 * j.val = t.val * 2048 + j.val; omega
  | ⟨1, _⟩ => show win1_0.index t (1 : Fin 2) * 384 + 1 * k.val = k.val; omega

/-- The ids block of point `t` at (0, j) is the row of ids at (0, t · 2048 + j). -/
theorem iblk1_1_apply (c : Dev nD) (t : Fin cfg1.N) (j : Fin 2048) (h : t.val * 2048 + j.val < 100352) :
    iblk1 V c 1 t (ix2 (0 : Fin 1) j) = V c main_v28 (ix2 (0 : Fin 1) (⟨t.val * 2048 + j.val, h⟩ : Fin 100352)) := by
  obtain ⟨-, -, e0, e1, -⟩ := idx_facts1 t
  show V c main_v28 (((cfg1.win 1).blk t).view.emb (ix2 (0 : Fin 1) j)) = V c main_v28 (ix2 (0 : Fin 1) (⟨t.val * 2048 + j.val, h⟩ : Fin 100352))
  refine congrArg (V c main_v28) ?_
  funext a; apply Fin.ext
  match a with
  | ⟨0, _⟩ => show win1_1.index t (0 : Fin 2) * 1 + 1 * (0 : Fin 1).val = (0 : Fin 1).val; omega
  | ⟨1, _⟩ => show win1_1.index t (1 : Fin 2) * 2048 + 1 * j.val = t.val * 2048 + j.val; omega

/-- The projection matrix's one block is the whole matrix, at every point. -/
theorem iblk1_2_eq (c : Dev nD) (t : Fin cfg1.N) : iblk1 V c 2 t = V c main_arg9 := by
  obtain ⟨-, -, -, -, e0, e1, -⟩ := idx_facts1 t
  funext y
  show V c main_arg9 (((cfg1.win 2).blk t).view.emb y) = V c main_arg9 y
  refine congrArg (V c main_arg9) ?_
  funext a; apply Fin.ext
  match a with
  | ⟨0, _⟩ => show win1_2.index t (0 : Fin 2) * 384 + 1 * (y 0).val = (y 0).val; omega
  | ⟨1, _⟩ => show win1_2.index t (1 : Fin 2) * 64 + 1 * (y 1).val = (y 1).val; omega

/-- The bias row's one block is the whole row, at every point. -/
theorem iblk1_3_eq (c : Dev nD) (t : Fin cfg1.N) : iblk1 V c 3 t = V c main_v29 := by
  obtain ⟨-, -, -, -, -, -, e0, e1⟩ := idx_facts1 t
  funext y
  show V c main_v29 (((cfg1.win 3).blk t).view.emb y) = V c main_v29 y
  refine congrArg (V c main_v29) ?_
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

end Cert.KernelIdeal.Frm

end
-- ==== Proof.KernelIdeal.Val1.lean ====
/- The VALUE of the pooling region, read off its frame data. -/
import proofs.«421251_j42829413875734_1_alg».proof.Proof.KernelIdeal.R1
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.Tactic
open Idealize.ShloMosaic.Pipeline (Dat)

section Pieces

variable {F : FTy → Type} [FloatOps F]

theorem zero_off : (![0, 0] : Fin 2 → Nat) = fun _ => 0 := funext fun a => by fin_cases a <;> rfl

/-! ## What each case's found pieces leave, as values of the blocks

Each accumulator is overwritten whole by one store whose payload adds the point's contribution to what the buffer held;
at the first point a store of zeros comes first and the update reads those zeros back. -/

/-- First point, the sums: zero plus the first block's segment sums. -/
theorem sumsA (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : cond1_0 i) (hc1 : ¬cond1_1 i) (x0 : Vec F S2048x384 .f32) (x1 : Vec F S1x2048 .i32) (x2 : Vec F S384x64 .f32) (x3 : Vec F S1x64 .f32) :
    VS1_0.read (Elt F) (VS1_0.writes (Elt F) VS1_0.junk (kernelRun1_A c i arg1 harg1 arg2 harg2 arg3 harg3 arg4 harg4 arg5 harg5 arg6 harg6 arg7 harg7 hc0 hc1 x0 x1 x2 x3).2.1)
      = k1_pay4 x1 x0 (k1_pay1 (F := F)) := by
  rw [View.read_writes_junk_eq_canon]
  unfold kernelRun1_A
  dsimp only
  sl_unfold_words
  rw [View.canon_cons_unit_zero (S := S64x384) zero_off]
  simp only [View.readAt_eq_ld, harg1.read_unread, harg2.read_unread, harg3.read_unread, harg4.read_unread, harg5.read_unread, harg6.read_unread, harg7.read_unread, View.ld_unit_zero (S := S2048x384) zero_off, View.ld_unit_zero (S := S1x2048) zero_off, View.ld_unit_zero (S := S384x64) zero_off, View.ld_unit_zero (S := S1x64) zero_off, View.ld_unit_zero (S := S64x384) zero_off, View.ld_unit_zero (S := S64x1) zero_off, View.ld_unit_zero (S := S64x64) zero_off, View.readCov_unit_zero (S := S64x384) _ zero_off, View.readCov_unit_zero (S := S64x1) _ zero_off]

/-- First point, the counts: zero plus the first block's segment counts. -/
theorem countsA (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : cond1_0 i) (hc1 : ¬cond1_1 i) (x0 : Vec F S2048x384 .f32) (x1 : Vec F S1x2048 .i32) (x2 : Vec F S384x64 .f32) (x3 : Vec F S1x64 .f32) :
    VS1_1.read (Elt F) (VS1_1.writes (Elt F) VS1_1.junk (kernelRun1_A c i arg1 harg1 arg2 harg2 arg3 harg3 arg4 harg4 arg5 harg5 arg6 harg6 arg7 harg7 hc0 hc1 x0 x1 x2 x3).2.2.1)
      = k1_pay5 x1 (k1_pay2 (F := F)) := by
  rw [View.read_writes_junk_eq_canon]
  unfold kernelRun1_A
  dsimp only
  sl_unfold_words
  rw [View.canon_cons_unit_zero (S := S64x1) zero_off]
  simp only [View.readAt_eq_ld, harg1.read_unread, harg2.read_unread, harg3.read_unread, harg4.read_unread, harg5.read_unread, harg6.read_unread, harg7.read_unread, View.ld_unit_zero (S := S2048x384) zero_off, View.ld_unit_zero (S := S1x2048) zero_off, View.ld_unit_zero (S := S384x64) zero_off, View.ld_unit_zero (S := S1x64) zero_off, View.ld_unit_zero (S := S64x384) zero_off, View.ld_unit_zero (S := S64x1) zero_off, View.ld_unit_zero (S := S64x64) zero_off, View.readCov_unit_zero (S := S64x384) _ zero_off, View.readCov_unit_zero (S := S64x1) _ zero_off]

/-- A middle point, the sums: what the point before left plus this block's segment sums. -/
theorem sumsB (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : ¬cond1_1 i) (x0 : Vec F S2048x384 .f32) (x1 : Vec F S1x2048 .i32) (x2 : Vec F S384x64 .f32) (x3 : Vec F S1x64 .f32) (xs0 : Vec F S64x384 .f32) (xs1 : Vec F S64x1 .f32) :
    VS1_0.read (Elt F) (VS1_0.writes (Elt F) VS1_0.junk (kernelRun1_B c i arg1 harg1 arg2 harg2 arg3 harg3 arg4 harg4 arg5 harg5 arg6 harg6 arg7 harg7 hc0 hc1 x0 x1 x2 x3 xs0 xs1).2.1)
      = k1_pay4 x1 x0 xs0 := by
  rw [View.read_writes_junk_eq_canon]
  unfold kernelRun1_B
  dsimp only
  try sl_unfold_words
  rw [View.canon_unit_zero zero_off]
  simp only [View.readAt_eq_ld, harg1.read_unread, harg2.read_unread, harg3.read_unread, harg4.read_unread, harg5.read_unread, harg6.read_unread, harg7.read_unread, View.ld_unit_zero (S := S2048x384) zero_off, View.ld_unit_zero (S := S1x2048) zero_off, View.ld_unit_zero (S := S384x64) zero_off, View.ld_unit_zero (S := S1x64) zero_off, View.ld_unit_zero (S := S64x384) zero_off, View.ld_unit_zero (S := S64x1) zero_off, View.ld_unit_zero (S := S64x64) zero_off]

/-- A middle point, the counts. -/
theorem countsB (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : ¬cond1_1 i) (x0 : Vec F S2048x384 .f32) (x1 : Vec F S1x2048 .i32) (x2 : Vec F S384x64 .f32) (x3 : Vec F S1x64 .f32) (xs0 : Vec F S64x384 .f32) (xs1 : Vec F S64x1 .f32) :
    VS1_1.read (Elt F) (VS1_1.writes (Elt F) VS1_1.junk (kernelRun1_B c i arg1 harg1 arg2 harg2 arg3 harg3 arg4 harg4 arg5 harg5 arg6 harg6 arg7 harg7 hc0 hc1 x0 x1 x2 x3 xs0 xs1).2.2.1)
      = k1_pay5 x1 xs1 := by
  rw [View.read_writes_junk_eq_canon]
  unfold kernelRun1_B
  dsimp only
  try sl_unfold_words
  rw [View.canon_unit_zero zero_off]
  simp only [View.readAt_eq_ld, harg1.read_unread, harg2.read_unread, harg3.read_unread, harg4.read_unread, harg5.read_unread, harg6.read_unread, harg7.read_unread, View.ld_unit_zero (S := S2048x384) zero_off, View.ld_unit_zero (S := S1x2048) zero_off, View.ld_unit_zero (S := S384x64) zero_off, View.ld_unit_zero (S := S1x64) zero_off, View.ld_unit_zero (S := S64x384) zero_off, View.ld_unit_zero (S := S64x1) zero_off, View.ld_unit_zero (S := S64x64) zero_off]

/-- The last point, the sums: as at a middle point. -/
theorem sumsC (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i) (x0 : Vec F S2048x384 .f32) (x1 : Vec F S1x2048 .i32) (x2 : Vec F S384x64 .f32) (x3 : Vec F S1x64 .f32) (xs0 : Vec F S64x384 .f32) (xs1 : Vec F S64x1 .f32) :
    VS1_0.read (Elt F) (VS1_0.writes (Elt F) VS1_0.junk (kernelRun1_C c i arg1 harg1 arg2 harg2 arg3 harg3 arg4 harg4 arg5 harg5 arg6 harg6 arg7 harg7 hc0 hc1 x0 x1 x2 x3 xs0 xs1).2.1)
      = k1_pay4 x1 x0 xs0 := by
  rw [View.read_writes_junk_eq_canon]
  unfold kernelRun1_C
  dsimp only
  try sl_unfold_words
  rw [View.canon_unit_zero zero_off]
  simp only [View.readAt_eq_ld, harg1.read_unread, harg2.read_unread, harg3.read_unread, harg4.read_unread, harg5.read_unread, harg6.read_unread, harg7.read_unread, View.ld_unit_zero (S := S2048x384) zero_off, View.ld_unit_zero (S := S1x2048) zero_off, View.ld_unit_zero (S := S384x64) zero_off, View.ld_unit_zero (S := S1x64) zero_off, View.ld_unit_zero (S := S64x384) zero_off, View.ld_unit_zero (S := S64x1) zero_off, View.ld_unit_zero (S := S64x64) zero_off]

/-- The last point, the counts. -/
theorem countsC (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i) (x0 : Vec F S2048x384 .f32) (x1 : Vec F S1x2048 .i32) (x2 : Vec F S384x64 .f32) (x3 : Vec F S1x64 .f32) (xs0 : Vec F S64x384 .f32) (xs1 : Vec F S64x1 .f32) :
    VS1_1.read (Elt F) (VS1_1.writes (Elt F) VS1_1.junk (kernelRun1_C c i arg1 harg1 arg2 harg2 arg3 harg3 arg4 harg4 arg5 harg5 arg6 harg6 arg7 harg7 hc0 hc1 x0 x1 x2 x3 xs0 xs1).2.2.1)
      = k1_pay5 x1 xs1 := by
  rw [View.read_writes_junk_eq_canon]
  unfold kernelRun1_C
  dsimp only
  try sl_unfold_words
  rw [View.canon_unit_zero zero_off]
  simp only [View.readAt_eq_ld, harg1.read_unread, harg2.read_unread, harg3.read_unread, harg4.read_unread, harg5.read_unread, harg6.read_unread, harg7.read_unread, View.ld_unit_zero (S := S2048x384) zero_off, View.ld_unit_zero (S := S1x2048) zero_off, View.ld_unit_zero (S := S384x64) zero_off, View.ld_unit_zero (S := S1x64) zero_off, View.ld_unit_zero (S := S64x384) zero_off, View.ld_unit_zero (S := S64x1) zero_off, View.ld_unit_zero (S := S64x64) zero_off]

/-- The last point, the output: computed from the two accumulators AFTER this point's contribution went in —
    the sums divided by the counts (at least one), projected, plus the bias. -/
theorem outC (c : Dev nD) (i : grid1.Coords) (arg1 : Memref sig .tc .vmem S2048x384 .f32) (harg1 : arg1.IsWhole) (arg2 : Memref sig .tc .vmem S1x2048 .i32) (harg2 : arg2.IsWhole) (arg3 : Memref sig .tc .vmem S384x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x384 .f32) (harg6 : arg6.IsWhole) (arg7 : Memref sig .tc .vmem S64x1 .f32) (harg7 : arg7.IsWhole) (hc0 : ¬cond1_0 i) (hc1 : cond1_1 i) (x0 : Vec F S2048x384 .f32) (x1 : Vec F S1x2048 .i32) (x2 : Vec F S384x64 .f32) (x3 : Vec F S1x64 .f32) (xs0 : Vec F S64x384 .f32) (xs1 : Vec F S64x1 .f32) :
    VO1_4.read (Elt F) (VO1_4.writes (Elt F) VO1_4.junk (kernelRun1_C c i arg1 harg1 arg2 harg2 arg3 harg3 arg4 harg4 arg5 harg5 arg6 harg6 arg7 harg7 hc0 hc1 x0 x1 x2 x3 xs0 xs1).1)
      = k1_pay6 (k1_pay5 x1 xs1) (k1_pay4 x1 x0 xs0) x2 x3 := by
  rw [View.read_writes_junk_eq_canon]
  unfold kernelRun1_C
  dsimp only
  sl_unfold_words
  rw [View.canon_unit_zero zero_off]
  simp only [View.readAt_eq_ld, harg1.read_unread, harg2.read_unread, harg3.read_unread, harg4.read_unread, harg5.read_unread, harg6.read_unread, harg7.read_unread, View.ld_unit_zero (S := S2048x384) zero_off, View.ld_unit_zero (S := S1x2048) zero_off, View.ld_unit_zero (S := S384x64) zero_off, View.ld_unit_zero (S := S1x64) zero_off, View.ld_unit_zero (S := S64x384) zero_off, View.ld_unit_zero (S := S64x1) zero_off, View.ld_unit_zero (S := S64x64) zero_off, View.readCov_unit_zero (S := S64x384) _ zero_off, View.readCov_unit_zero (S := S64x1) _ zero_off]

end Pieces

/-! ## The two accumulators after each point, at the ideal reals -/

section Fold

variable (V : (c : Dev nD) → (b : Ref sig .tc) → Buf (Elt Ideal) ((c : Thread nD τ).loc b))

/-- The block of segment ids at point `n` (anything past the grid). -/
def nbAt (c : Dev nD) (n : ℕ) : Vec Ideal S1x2048 .i32 := if h : n < cfg1.N then iblk1 V c 1 ⟨n, h⟩ else fun _ => 0#32

/-- The block of data rows at point `n` (anything past the grid). -/
def dtAt (c : Dev nD) (n : ℕ) : Vec Ideal S2048x384 .f32 := if h : n < cfg1.N then iblk1 V c 0 ⟨n, h⟩ else fun _ => 0

theorem nbAt_lt (c : Dev nD) (n : ℕ) (h : n < cfg1.N) : nbAt V c n = iblk1 V c 1 ⟨n, h⟩ := dif_pos h
theorem dtAt_lt (c : Dev nD) (n : ℕ) (h : n < cfg1.N) : dtAt V c n = iblk1 V c 0 ⟨n, h⟩ := dif_pos h

/-- The running segment sums: zero plus the first block's contribution, then each later block's added in point order. -/
def Sacc (c : Dev nD) : ℕ → Vec Ideal S64x384 .f32
  | 0 => k1_pay4 (F := Ideal) (nbAt V c 0) (dtAt V c 0) (k1_pay1 (F := Ideal))
  | n + 1 => k1_pay4 (F := Ideal) (nbAt V c (n + 1)) (dtAt V c (n + 1)) (Sacc c n)

/-- The running segment counts, likewise. -/
def Cacc (c : Dev nD) : ℕ → Vec Ideal S64x1 .f32
  | 0 => k1_pay5 (F := Ideal) (nbAt V c 0) (k1_pay2 (F := Ideal))
  | n + 1 => k1_pay5 (F := Ideal) (nbAt V c (n + 1)) (Cacc c n)

/-- What the frame's recursion carries in the two accumulators after point `n` IS the running sums and counts:
    by induction on the point — the first point resets and adds, every later point (the last included) adds. -/
theorem scratch_eq (c : Dev nD) : ∀ (n : ℕ) (hn : n < cfg1.N),
    (outsAt1 V c n hn).2.1 = Sacc V c n ∧ (outsAt1 V c n hn).2.2 = Cacc V c n
  | 0, hn => by
    have hA : outsAt1 V c 0 hn = _ := outsAt1_A V c (⟨0, hn⟩ : Fin cfg1.N) rfl (by show ¬(0 : ℕ) % 49 = 48; decide)
    rw [hA]; dsimp only
    refine ⟨?_, ?_⟩
    · refine (sumsA (F := Ideal) c (grid1.coords (⟨0, hn⟩ : Fin cfg1.N)) (ms1_0 (⟨0, hn⟩ : Fin cfg1.N)) (hs1_0 (⟨0, hn⟩ : Fin cfg1.N)) (ms1_1 (⟨0, hn⟩ : Fin cfg1.N)) (hs1_1 (⟨0, hn⟩ : Fin cfg1.N)) (ms1_2 (⟨0, hn⟩ : Fin cfg1.N)) (hs1_2 (⟨0, hn⟩ : Fin cfg1.N)) (ms1_3 (⟨0, hn⟩ : Fin cfg1.N)) (hs1_3 (⟨0, hn⟩ : Fin cfg1.N)) (ms1_4 (⟨0, hn⟩ : Fin cfg1.N)) (hs1_4 (⟨0, hn⟩ : Fin cfg1.N)) scM1_0 (Memref.isWhole_whole _) scM1_1 (Memref.isWhole_whole _) _ _ (iblk1 V c 0 (⟨0, hn⟩ : Fin cfg1.N)) (iblk1 V c 1 (⟨0, hn⟩ : Fin cfg1.N)) (iblk1 V c 2 (⟨0, hn⟩ : Fin cfg1.N)) (iblk1 V c 3 (⟨0, hn⟩ : Fin cfg1.N))).trans ?_
      show _ = k1_pay4 (F := Ideal) (nbAt V c 0) (dtAt V c 0) (k1_pay1 (F := Ideal))
      rw [nbAt_lt V c 0 hn, dtAt_lt V c 0 hn]
    · refine (countsA (F := Ideal) c (grid1.coords (⟨0, hn⟩ : Fin cfg1.N)) (ms1_0 (⟨0, hn⟩ : Fin cfg1.N)) (hs1_0 (⟨0, hn⟩ : Fin cfg1.N)) (ms1_1 (⟨0, hn⟩ : Fin cfg1.N)) (hs1_1 (⟨0, hn⟩ : Fin cfg1.N)) (ms1_2 (⟨0, hn⟩ : Fin cfg1.N)) (hs1_2 (⟨0, hn⟩ : Fin cfg1.N)) (ms1_3 (⟨0, hn⟩ : Fin cfg1.N)) (hs1_3 (⟨0, hn⟩ : Fin cfg1.N)) (ms1_4 (⟨0, hn⟩ : Fin cfg1.N)) (hs1_4 (⟨0, hn⟩ : Fin cfg1.N)) scM1_0 (Memref.isWhole_whole _) scM1_1 (Memref.isWhole_whole _) _ _ (iblk1 V c 0 (⟨0, hn⟩ : Fin cfg1.N)) (iblk1 V c 1 (⟨0, hn⟩ : Fin cfg1.N)) (iblk1 V c 2 (⟨0, hn⟩ : Fin cfg1.N)) (iblk1 V c 3 (⟨0, hn⟩ : Fin cfg1.N))).trans ?_
      show _ = k1_pay5 (F := Ideal) (nbAt V c 0) (k1_pay2 (F := Ideal))
      rw [nbAt_lt V c 0 hn]
  | n + 1, hn => by
    have hN : n + 1 < 49 := lt_of_lt_of_eq hn (show cfg1.N = 49 from N_1)
    obtain ⟨ihS, ihC⟩ := scratch_eq c n (Nat.lt_of_succ_lt hn)
    have h0 : ¬(n + 1) % 49 = 0 := by omega
    by_cases h1 : (n + 1) % 49 = 48
    · have hC : outsAt1 V c (n + 1) hn = _ := outsAt1_C V c (⟨n + 1, hn⟩ : Fin cfg1.N) h0 h1
      rw [hC]; dsimp only
      refine ⟨?_, ?_⟩
      · refine (sumsC (F := Ideal) c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) (ms1_4 (⟨n + 1, hn⟩ : Fin cfg1.N)) (hs1_4 (⟨n + 1, hn⟩ : Fin cfg1.N)) scM1_0 (Memref.isWhole_whole _) scM1_1 (Memref.isWhole_whole _) _ _ (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (outsAt1 V c n (Nat.lt_of_succ_lt hn)).2.1 (outsAt1 V c n (Nat.lt_of_succ_lt hn)).2.2).trans ?_
        show _ = k1_pay4 (F := Ideal) (nbAt V c (n + 1)) (dtAt V c (n + 1)) (Sacc V c n)
        rw [nbAt_lt V c (n + 1) hn, dtAt_lt V c (n + 1) hn, ihS]
      · refine (countsC (F := Ideal) c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) (ms1_4 (⟨n + 1, hn⟩ : Fin cfg1.N)) (hs1_4 (⟨n + 1, hn⟩ : Fin cfg1.N)) scM1_0 (Memref.isWhole_whole _) scM1_1 (Memref.isWhole_whole _) _ _ (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (outsAt1 V c n (Nat.lt_of_succ_lt hn)).2.1 (outsAt1 V c n (Nat.lt_of_succ_lt hn)).2.2).trans ?_
        show _ = k1_pay5 (F := Ideal) (nbAt V c (n + 1)) (Cacc V c n)
        rw [nbAt_lt V c (n + 1) hn, ihC]
    · have hB : outsAt1 V c (n + 1) hn = _ := outsAt1_B V c (⟨n + 1, hn⟩ : Fin cfg1.N) h0 h1
      rw [hB]; dsimp only
      refine ⟨?_, ?_⟩
      · refine (sumsB (F := Ideal) c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) (ms1_4 (⟨n + 1, hn⟩ : Fin cfg1.N)) (hs1_4 (⟨n + 1, hn⟩ : Fin cfg1.N)) scM1_0 (Memref.isWhole_whole _) scM1_1 (Memref.isWhole_whole _) _ _ (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (outsAt1 V c n (Nat.lt_of_succ_lt hn)).2.1 (outsAt1 V c n (Nat.lt_of_succ_lt hn)).2.2).trans ?_
        show _ = k1_pay4 (F := Ideal) (nbAt V c (n + 1)) (dtAt V c (n + 1)) (Sacc V c n)
        rw [nbAt_lt V c (n + 1) hn, dtAt_lt V c (n + 1) hn, ihS]
      · refine (countsB (F := Ideal) c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) (ms1_4 (⟨n + 1, hn⟩ : Fin cfg1.N)) (hs1_4 (⟨n + 1, hn⟩ : Fin cfg1.N)) scM1_0 (Memref.isWhole_whole _) scM1_1 (Memref.isWhole_whole _) _ _ (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (outsAt1 V c n (Nat.lt_of_succ_lt hn)).2.1 (outsAt1 V c n (Nat.lt_of_succ_lt hn)).2.2).trans ?_
        show _ = k1_pay5 (F := Ideal) (nbAt V c (n + 1)) (Cacc V c n)
        rw [nbAt_lt V c (n + 1) hn, ihC]

/-! ## The output's buffer after the last point -/

/-- At the point where the second conditional fires, the output's buffer holds the pooled means — the sums over
    the counts (at least one), projected, plus the bias — of the accumulators AFTER that point's own contribution.
    Stated at any such point, so that nothing unrolls the recursion. -/
theorem out_at_last (c : Dev nD) : ∀ (N : ℕ) (hN : N < cfg1.N), N % 49 = 48 →
    (outsAt1 V c N hN).1
      = k1_pay6 (F := Ideal) (Cacc V c N) (Sacc V c N) (iblk1 V c 2 ⟨N, hN⟩) (iblk1 V c 3 ⟨N, hN⟩)
  | 0, _, h => absurd h (by decide)
  | n + 1, hn, h1 => by
    have hN : n + 1 < 49 := lt_of_lt_of_eq hn (show cfg1.N = 49 from N_1)
    obtain ⟨ihS, ihC⟩ := scratch_eq V c n (Nat.lt_of_succ_lt hn)
    have h0 : ¬(n + 1) % 49 = 0 := by omega
    have hC : outsAt1 V c (n + 1) hn = _ := outsAt1_C V c (⟨n + 1, hn⟩ : Fin cfg1.N) h0 h1
    rw [hC]; dsimp only
    refine (outC (F := Ideal) c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) (ms1_4 (⟨n + 1, hn⟩ : Fin cfg1.N)) (hs1_4 (⟨n + 1, hn⟩ : Fin cfg1.N)) scM1_0 (Memref.isWhole_whole _) scM1_1 (Memref.isWhole_whole _) _ _ (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (outsAt1 V c n (Nat.lt_of_succ_lt hn)).2.1 (outsAt1 V c n (Nat.lt_of_succ_lt hn)).2.2).trans ?_
    show _ = k1_pay6 (F := Ideal) (k1_pay5 (F := Ideal) (nbAt V c (n + 1)) (Cacc V c n))
        (k1_pay4 (F := Ideal) (nbAt V c (n + 1)) (dtAt V c (n + 1)) (Sacc V c n))
        (iblk1 V c 2 (⟨n + 1, hn⟩ : Fin cfg1.N)) (iblk1 V c 3 (⟨n + 1, hn⟩ : Fin cfg1.N))
    rw [nbAt_lt V c (n + 1) hn, dtAt_lt V c (n + 1) hn, ihS, ihC]

theorem lt48 : 48 < cfg1.N := by rw [show cfg1.N = 49 from N_1]; decide

/-- The last of the 49 points is point 48. -/
theorem out_last (c : Dev nD) :
    (outsAt1 V c 48 lt48).1
      = k1_pay6 (F := Ideal) (Cacc V c 48) (Sacc V c 48) (iblk1 V c 2 ⟨48, lt48⟩) (iblk1 V c 3 ⟨48, lt48⟩) :=
  out_at_last V c 48 lt48 (by decide)

end Fold

end Cert.KernelIdeal.Val

end
-- ==== Proof.KernelIdeal.Val1Arr.lean ====
/- REGION 1 (the pooling call): what the result array holds when the region ends. The output window's index map is
   constant and its block is the whole 64x64 array; the pipeline writes the block back exactly once, at the last point
   of the grid (point 48). So the array after all 49 points is what the body left in the output's staging buffer at
   point 48: the first component of the accumulation there. -/
import proofs.«421251_j42829413875734_1_alg».proof.Proof.KernelIdeal.R1
import Idealize.ShloMosaic.Lib.Pipeline.Value

-- membership of an index in a rectangle of these extents is looked up coordinate by coordinate: the elaborator
-- recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

/-- The output window's block index is zero on both axes at every point: its index map is constant. -/
theorem idx1_4 : ∀ (t : Fin cfg1.N) (a : Fin 2), win1_4.index t a = 0 :=
  (by decide +kernel : ∀ (t : Fin grid1.N) (a : Fin 2), win1_4.index t a = 0)

/-- An index of the result array is in point `t`'s block iff each coordinate is in the block's range on its axis. -/
theorem mem_blk1_4 (t : Fin cfg1.N) (i : S64x64.Idx) :
    i ∈ ((cfg1.win 4).blk t).view.set ↔ ∀ a : Fin 2, win1_4.index t a * S64x64.size a ≤ (i a).val ∧ (i a).val < win1_4.index t a * S64x64.size a + S64x64.size a := by
  show i ∈ ((View.whole main_v30).slice (win1_4.rect t)).set ↔ _
  rw [View.set_slice_whole, Rect.mem_set_unit]
  exact Iff.rfl

/-- Point 48 is a point of the grid. -/
theorem lt48 : 48 < cfg1.N := lt_of_lt_of_eq (by decide : 48 < 49) N_1.symm

/-- What a point writes back to the result array is its staging buffer's contents read through the point's block: for any
    proof data of this pipeline, at any point, whatever the body left there (`X`). The window is uncut, so the
    write-back moves all of the buffer; the block index is zero on both axes, so the block's element at `j` is the array's
    element at `j`. -/
theorem flushed1_4_of {c : Dev nD} (dat : Dat τ (Elt F) Unit ℕ (UR sig nD τ) ℕ cfg1 c) (t : Fin cfg1.N) (X : Vec F S64x64 .f32)
    (h : dat.after 4 t = X) : dat.flushed 4 t = ((cfg1.win 4).blk t).view.read (Elt F) X := by
  show (cfg1.win 4).cut (grid1.coords t) (dat.after 4 t) = _
  rw [h]
  funext j
  show X _ = X _
  congr 1
  funext a; apply Fin.ext
  show (j a).val = ((win1_4.rect t).emb j a : Nat)
  rw [Window.rect_emb_val_of_index_zero _ _ a (idx1_4 t a) j]

/-- The accumulation at equal positions is the same (whatever the proofs that the positions are points of the grid). -/
theorem outsAt1_congr (c : Dev nD) {n n' : ℕ} (h : n = n') (hn : n < cfg1.N) (hn' : n' < cfg1.N) :
    outsAt1 V c n hn = outsAt1 V c n' hn' := by
  subst h; rfl

/-- THE RESULT ARRAY after the region: what the body left in the output's staging buffer at the last point. The one
    write-back (at point 48) moves the whole block, the block is the whole array (block index zero, block extents the
    array's), so every index of the array is covered by that one write and reads what it wrote. -/
theorem arr1_4_flush (c : Dev nD) : (dat1 V c).arrAt 4 cfg1.N = (outsAt1 V c 48 lt48).1 := by
  generalize hG : (outsAt1 V c 48 lt48).1 = G
  refine (dat1 V c).arrAt_eq_of_cover 4 G (fun t hf => ?_) (fun i => ?_)
  · -- the only point that writes back is point 48
    have ht : t.val = 48 := by
      have h1 := (flush1_4 t).mp hf
      have hN : t.val < 49 := lt_of_lt_of_eq t.isLt (show cfg1.N = 49 from N_1)
      omega
    exact flushed1_4_of (dat1 V c) t G
      ((after1_4 V c t).trans ((congrArg Prod.fst (outsAt1_congr V c ht t.isLt lt48)).trans hG))
  · -- and its block holds every index of the array
    refine ⟨⟨48, lt48⟩, (flush1_4 _).mpr rfl, (mem_blk1_4 _ i).mpr fun a => ?_⟩
    rw [idx1_4 ⟨48, lt48⟩ a]
    have hi : (i a).val < S64x64.size a := (i a).isLt
    omega

end Cert.KernelIdeal.Frm

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.RefIdx.lean ====
/-
  THE REFERENCE READ AT AN INDEX, at the extended reals with exact operations.

  The reference pools the rows of a [100000 × 384] table by segment: row `n` belongs to segment `ids n`, and
    sums (b, k)   = 0 + Σ over the rows n with ids n = b of table (n, k)          (a scatter-add into zeros),
    counts (b, 0) = 0 + Σ over the rows n with ids n = b of 1                     (a scatter-add of ones into zeros),
    result (b, o) = Σ over k of (sums (b, k) / max (counts (b, 0)) 1) · W (k, o)  +  bias o.
  A row whose id read signed is negative or is 64 or more belongs to no segment and is added nowhere.
  Each statement reads one stage of the reference at explicit coordinates; the division and the maximum stay the
  host's operations, unevaluated, and the constant one of the maximum stays its bit pattern.
-/
import proofs.«421251_j42829413875734_1_alg».proof.Proof.Gen.ReferenceIdeal.Read
import proofs.«421251_j42829413875734_1_alg».proof.Proof.LibGatherScatter
import Idealize.ShloMosaic.Lib.ValueIdx
import Idealize.ShloMosaic.PureOps.Ideal.Laws

open scoped BigOperators

noncomputable section

namespace Cert.RefIdx

open Cert.ReferenceIdeal Cert.ReferenceIdeal.Read Idealize.ShloMosaic Idealize.ShloMosaic.ValueIdx
  Idealize.ShloMosaic.RowOps Idealize.ShloMosaic.StableHlo.Predicate

/-! ## The two constants -/

/-- The pattern of `1.0` denotes the extended real `1`: sign 0, biased exponent 127, fraction 0. -/
theorem ofBits_one_f32 : Ideal.ofBits .f32 0x3F800000#32 = 1 := by
  simp [Ideal.ofBits, Ideal.ieee, -EReal.coe_mul]; norm_num

/-! ## The column of segment ids -/

/-- The [100000 × 1] column the first scatter indexes by is the vector of segment ids, row by row. -/
theorem ids_col (x1 : (⟨S100000, .i32⟩ : BufTy).Contents (Elt Ideal)) (e : Fin 100000) :
    val_main_v31 (F := Ideal) x1 (ixP e) = x1 (ix1 e) := by
  rw [val_main_v31_apply]
  congr 1
  funext a
  match a with
  | ⟨0, _⟩ => rfl

/-- The second scatter's column of indices is the same vector of segment ids. -/
theorem ids_col' (x1 : (⟨S100000, .i32⟩ : BufTy).Contents (Elt Ideal)) (e : Fin 100000) :
    val_main_v35 (F := Ideal) x1 (ixP e) = x1 (ix1 e) := by
  rw [val_main_v35_apply]
  congr 1
  funext a
  match a with
  | ⟨0, _⟩ => rfl

/-! ## The pooled sums -/

/-- Segment `b`'s pooled sum at column `k`: zero plus column `k` of every row whose id reads signed as `b`. -/
theorem sums_apply (x0 : (⟨S100000x128, .f32⟩ : BufTy).Contents (Elt Ideal)) (x1 : (⟨S100000, .i32⟩ : BufTy).Contents (Elt Ideal))
    (x2 x3 x4 x5 : (⟨S1600000, .i32⟩ : BufTy).Contents (Elt Ideal)) (x6 : (⟨S128x128, .f32⟩ : BufTy).Contents (Elt Ideal))
    (x7 : (⟨S128, .f32⟩ : BufTy).Contents (Elt Ideal)) (x8 : (⟨S1, .f32⟩ : BufTy).Contents (Elt Ideal))
    (b : Fin 64) (k : Fin 384) :
    val_main_v32 (F := Ideal) x0 x1 x2 x3 x4 x5 x6 x7 x8 (ix2 b k)
      = 0 + ∑ n ∈ Finset.univ.filter (fun n : Fin 100000 => (x1 (ix1 n)).toInt = (b.val : Int)),
          val_main_v29 (F := Ideal) x0 x2 x3 x4 x5 x6 x7 x8 (ix2 n k) := by
  -- the operand scattered into is the zero table
  have h30 : val_main_v30 (F := Ideal) (ix2 b k) = 0 := by
    rw [val_main_v30_apply, val_main_cst_5_apply, Ideal.ofBits_def]
    exact Ideal.ofBits_zero_f32
  -- a row lands on segment b exactly when its id reads signed as b
  have hset : Finset.univ.filter (fun e : Fin 100000 => lands (val_main_v31 (F := Ideal) x1) e b.val)
      = Finset.univ.filter (fun n : Fin 100000 => (x1 (ix1 n)).toInt = (b.val : Int)) := by
    apply Finset.filter_congr
    intro e _
    unfold lands
    rw [ids_col]
  unfold val_main_v32
  show Ideal.hostScatterAdd scatter_S64x384_S100000x1_S100000x384_1_0_0_1 (val_main_v30 (F := Ideal))
      (val_main_v31 (F := Ideal) x1) (val_main_v29 (F := Ideal) x0 x2 x3 x4 x5 x6 x7 x8) (ix2 b k) = _
  rw [scatterAdd_rows scatter_S64x384_S100000x1_S100000x384_1_0_0_1 rfl rfl rfl rfl, h30, hset]

/-! ## The counts -/

/-- Segment `b`'s count: zero plus a one for every row whose id reads signed as `b`. -/
theorem counts_apply (x1 : (⟨S100000, .i32⟩ : BufTy).Contents (Elt Ideal)) (b : Fin 64) :
    val_main_v36 (F := Ideal) x1 (ix2 b (0 : Fin 1))
      = 0 + ∑ n ∈ Finset.univ.filter (fun n : Fin 100000 => (x1 (ix1 n)).toInt = (b.val : Int)), (1 : EReal) := by
  have h34 : val_main_v34 (F := Ideal) (ix2 b (0 : Fin 1)) = 0 := by
    rw [val_main_v34_apply, val_main_cst_7_apply, Ideal.ofBits_def]
    exact Ideal.ofBits_zero_f32
  -- every update is the constant one
  have h33 : ∀ i : S100000x1.Idx, val_main_v33 (F := Ideal) i = (1 : EReal) := fun i => by
    rw [val_main_v33_apply, val_main_cst_6_apply, Ideal.ofBits_def]
    exact ofBits_one_f32
  have hset : Finset.univ.filter (fun e : Fin 100000 => lands (val_main_v35 (F := Ideal) x1) e b.val)
      = Finset.univ.filter (fun n : Fin 100000 => (x1 (ix1 n)).toInt = (b.val : Int)) := by
    apply Finset.filter_congr
    intro e _
    unfold lands
    rw [ids_col']
  unfold val_main_v36
  show Ideal.hostScatterAdd scatter_S64x1_S100000x1_S100000x1_1_0_0_1 (val_main_v34 (F := Ideal))
      (val_main_v35 (F := Ideal) x1) (val_main_v33 (F := Ideal)) (ix2 b (0 : Fin 1)) = _
  rw [scatterAdd_rows scatter_S64x1_S100000x1_S100000x1_1_0_0_1 rfl rfl rfl rfl, h34, hset]
  simp only [h33]

/-! ## The result -/

/-- The reference's result at (b, o): the pooled sums of segment `b`, each divided by the larger of the segment's count
    and one, contracted with column `o` of the weights, plus the bias at `o`. -/
theorem result_apply (x0 : (⟨S100000x128, .f32⟩ : BufTy).Contents (Elt Ideal)) (x1 : (⟨S100000, .i32⟩ : BufTy).Contents (Elt Ideal))
    (x2 x3 x4 x5 : (⟨S1600000, .i32⟩ : BufTy).Contents (Elt Ideal)) (x6 : (⟨S128x128, .f32⟩ : BufTy).Contents (Elt Ideal))
    (x7 : (⟨S128, .f32⟩ : BufTy).Contents (Elt Ideal)) (x8 : (⟨S1, .f32⟩ : BufTy).Contents (Elt Ideal))
    (x9 : (⟨S384x64, .f32⟩ : BufTy).Contents (Elt Ideal)) (x10 : (⟨S64, .f32⟩ : BufTy).Contents (Elt Ideal))
    (b o : Fin 64) :
    val_main_v44 (F := Ideal) x0 x1 x2 x3 x4 x5 x6 x7 x8 x9 x10 (ix2 b o)
      = (∑ k : Fin 384,
          FloatOps.hostDivf (F := Ideal) (φ := .f32) (val_main_v32 (F := Ideal) x0 x1 x2 x3 x4 x5 x6 x7 x8 (ix2 b k))
              (FloatOps.maximumf (F := Ideal) (φ := .f32) (val_main_v36 (F := Ideal) x1 (ix2 b (0 : Fin 1)))
                (val_main_v37 (F := Ideal) (ix2 b (0 : Fin 1))))
            * x9 (ix2 k o))
        + x10 (ix1 o) := by
  -- the indices the layout stages and the contraction read at, by coordinates
  have el : ∀ k : Fin 384, lidx_main_v41 (ix2 b o) k = ix2 b k := fun k =>
    funext fun a => Fin.ext (by match a with | ⟨0, _⟩ => rfl | ⟨1, _⟩ => rfl)
  have er : ∀ k : Fin 384, ridx_main_v41 (ix2 b o) k = ix2 k o := fun k =>
    funext fun a => Fin.ext (by match a with | ⟨0, _⟩ => rfl | ⟨1, _⟩ => rfl)
  have e39 : ∀ k : Fin 384, idx_main_v39 (ix2 b k) = ix2 b (0 : Fin 1) := fun k =>
    funext fun a => Fin.ext (by match a with | ⟨0, _⟩ => rfl | ⟨1, _⟩ => rfl)
  have e42 : idx_main_v42 (idx_main_v43 (ix2 b o)) = ix1 o :=
    funext fun a => Fin.ext (by match a with | ⟨0, _⟩ => rfl)
  -- each term of the contraction, read through the division, the broadcast of the maximum and the maximum
  have hsum : (∑ k : Fin 384, (val_main_v40 (F := Ideal) x0 x1 x2 x3 x4 x5 x6 x7 x8) (lidx_main_v41 (ix2 b o) k)
        * x9 (ridx_main_v41 (ix2 b o) k))
      = ∑ k : Fin 384,
          FloatOps.hostDivf (F := Ideal) (φ := .f32) (val_main_v32 (F := Ideal) x0 x1 x2 x3 x4 x5 x6 x7 x8 (ix2 b k))
              (FloatOps.maximumf (F := Ideal) (φ := .f32) (val_main_v36 (F := Ideal) x1 (ix2 b (0 : Fin 1)))
                (val_main_v37 (F := Ideal) (ix2 b (0 : Fin 1))))
            * x9 (ix2 k o) :=
    Finset.sum_congr rfl fun k _ => by
      rw [el, er, val_main_v40_apply, val_main_v39_apply, e39, val_main_v38_apply]
  rw [val_main_v44_apply, Ideal.addf_def, val_main_v41_apply, val_main_v43_apply, val_main_v42_apply, e42, hsum]

/-! ## The constant of the maximum -/

/-- The table the counts are compared with reads the pattern of `1.0` everywhere. -/
theorem one_apply (i : S64x1.Idx) :
    val_main_v37 (F := Ideal) i = Scalar.ofBits (F := Ideal) .f32 0x3F800000#32 := by
  rw [val_main_v37_apply, val_main_cst_8_apply]

end Cert.RefIdx

end
-- ==== Proof.Bridge.lean ====
/-
  THE POOLING'S RESULT IS THE REFERENCE'S LAST STAGE, over the extended reals with exact operations.

  The pooling runs over 49 blocks of 2048 padded rows. After block n the running sums S n and counts C n are the
  previous ones plus the block's one-hot mask times its features, and plus the mask's row sums; they start from zero.
  Read at one segment b and one column k, each is a scalar recursion S (n + 1) = S n + T (n + 1), so after the last
  block it is zero plus the sum of the 49 block terms; the blocks laid end to end are the 100000 real rows followed by
  padding that contributes nothing, so that sum is the sum over the real rows whose id reads signed as b: the
  reference's scatter-add. The head then divides by the count raised to at least one, contracts with the weights and
  adds the bias, term by term as the reference does; at the extended reals the kernel's division and the host's are one.
-/
import proofs.«421251_j42829413875734_1_alg».proof.Proof.PayIdx
import proofs.«421251_j42829413875734_1_alg».proof.Proof.PoolSum
import proofs.«421251_j42829413875734_1_alg».proof.Proof.RefIdx

noncomputable section

open scoped BigOperators

namespace Cert.Bridge

open Cert.KernelIdeal Cert.KernelIdeal.Gen Cert.KernelIdeal.PayIdx Cert.PoolSum Idealize.ShloMosaic Idealize.ShloMosaic.ValueIdx

/-- The pooled sum of segment b at column k after the 49 blocks: zero plus column k of every real row whose id reads
    signed as b. The blocks' ids and features are the padded columns laid end to end. -/
theorem sum48 (w : Fin 100000 → BitVec 32) (X : Fin 384 → Fin 100000 → EReal)
    (nb : ℕ → Vec Ideal S1x2048 .i32) (dt : ℕ → Vec Ideal S2048x384 .f32)
    (hnb : ∀ t, t < 49 → ∀ j : Fin 2048, nb t (ix2 0 j) = padW w (t * 2048 + j.val))
    (hdt : ∀ t, t < 49 → ∀ (j : Fin 2048) (k : Fin 384), dt t (ix2 j k) = padX (X k) (t * 2048 + j.val))
    (S : ℕ → Vec Ideal S64x384 .f32)
    (hS0 : S 0 = k1_pay4 (F := Ideal) (nb 0) (dt 0) (k1_pay1 (F := Ideal)))
    (hSs : ∀ n, S (n + 1) = k1_pay4 (F := Ideal) (nb (n + 1)) (dt (n + 1)) (S n))
    (b : Fin 64) (k : Fin 384) :
    S 48 (ix2 b k)
      = 0 + ∑ n ∈ Finset.univ.filter (fun n : Fin 100000 => (w n).toInt = (b.val : Int)), X k n := by
  obtain ⟨T, hT⟩ : ∃ T : ℕ → EReal,
      ∀ t, T t = ∑ j : Fin 2048, k1_pay3 (F := Ideal) (nb t) (ix2 b j) * dt t (ix2 j k) := ⟨_, fun _ => rfl⟩
  have h0 : S 0 (ix2 b k) = 0 + T 0 := by rw [hS0, pay4_apply, k1_pay1_apply, hT]
  have hs : ∀ n, S (n + 1) (ix2 b k) = S n (ix2 b k) + T (n + 1) := fun n => by rw [hSs n, pay4_apply, hT]
  refine (acc_eq_sum 0 T (fun n => S n (ix2 b k)) h0 hs 48).trans (congrArg (0 + ·) ?_)
  refine Eq.trans ?_ (tiles_eq_filter w (X k) b)
  refine Finset.sum_congr rfl fun t ht => ?_
  have ht' : t < 49 := Finset.mem_range.mp ht
  rw [hT]
  refine Finset.sum_congr rfl fun j _ => ?_
  rw [pay3_apply, hnb t ht' j, hdt t ht' j k]
  rfl

/-- The count of segment b after the 49 blocks: zero plus a one for every real row whose id reads signed as b. -/
theorem count48 (w : Fin 100000 → BitVec 32) (nb : ℕ → Vec Ideal S1x2048 .i32)
    (hnb : ∀ t, t < 49 → ∀ j : Fin 2048, nb t (ix2 0 j) = padW w (t * 2048 + j.val))
    (C : ℕ → Vec Ideal S64x1 .f32)
    (hC0 : C 0 = k1_pay5 (F := Ideal) (nb 0) (k1_pay2 (F := Ideal)))
    (hCs : ∀ n, C (n + 1) = k1_pay5 (F := Ideal) (nb (n + 1)) (C n))
    (b : Fin 64) :
    C 48 (ix2 b 0)
      = 0 + ∑ n ∈ Finset.univ.filter (fun n : Fin 100000 => (w n).toInt = (b.val : Int)), (1 : EReal) := by
  obtain ⟨T, hT⟩ : ∃ T : ℕ → EReal,
      ∀ t, T t = ∑ j : Fin 2048, k1_pay3 (F := Ideal) (nb t) (ix2 b j) := ⟨_, fun _ => rfl⟩
  have h0 : C 0 (ix2 b 0) = 0 + T 0 := by rw [hC0, pay5_apply, k1_pay2_apply, hT]
  have hs : ∀ n, C (n + 1) (ix2 b 0) = C n (ix2 b 0) + T (n + 1) := fun n => by rw [hCs n, pay5_apply, hT]
  refine (acc_eq_sum 0 T (fun n => C n (ix2 b 0)) h0 hs 48).trans (congrArg (0 + ·) ?_)
  refine Eq.trans ?_ (tiles_count_eq_filter w b)
  refine Finset.sum_congr rfl fun t ht => ?_
  have ht' : t < 49 := Finset.mem_range.mp ht
  rw [hT]
  refine Finset.sum_congr rfl fun j _ => ?_
  rw [pay3_apply, hnb t ht' j]
  rfl

/-- The pooling's result is the reference's last stage, given the reference's four readings: its pooled sums, its
    counts, its result as a contraction of the quotients with the weights plus the bias, and its constant one. -/
theorem bridge_of (x0 : (⟨Cert.ReferenceIdeal.S100000x128, .f32⟩ : BufTy).Contents (Elt Ideal)) (x1 : (⟨Cert.ReferenceIdeal.S100000, .i32⟩ : BufTy).Contents (Elt Ideal))
    (x2 x3 x4 x5 : (⟨Cert.ReferenceIdeal.S1600000, .i32⟩ : BufTy).Contents (Elt Ideal)) (x6 : (⟨Cert.ReferenceIdeal.S128x128, .f32⟩ : BufTy).Contents (Elt Ideal))
    (x7 : (⟨Cert.ReferenceIdeal.S128, .f32⟩ : BufTy).Contents (Elt Ideal)) (x8 : (⟨Cert.ReferenceIdeal.S1, .f32⟩ : BufTy).Contents (Elt Ideal))
    (x9 : (⟨Cert.ReferenceIdeal.S384x64, .f32⟩ : BufTy).Contents (Elt Ideal)) (x10 : (⟨Cert.ReferenceIdeal.S64, .f32⟩ : BufTy).Contents (Elt Ideal))
    (nb : ℕ → Vec Ideal S1x2048 .i32) (dt : ℕ → Vec Ideal S2048x384 .f32)
    (hnb : ∀ t, t < 49 → ∀ j : Fin 2048, nb t (ix2 0 j) = Cert.PoolSum.padW (fun n : Fin 100000 => x1 (ix1 n)) (t * 2048 + j.val))
    (hdt : ∀ t, t < 49 → ∀ (j : Fin 2048) (k : Fin 384), dt t (ix2 j k)
      = Cert.PoolSum.padX (fun n : Fin 100000 => Cert.ReferenceIdeal.Read.val_main_v29 (F := Ideal) x0 x2 x3 x4 x5 x6 x7 x8 (ix2 n k)) (t * 2048 + j.val))
    (S : ℕ → Vec Ideal S64x384 .f32) (C : ℕ → Vec Ideal S64x1 .f32)
    (hS0 : S 0 = k1_pay4 (F := Ideal) (nb 0) (dt 0) (k1_pay1 (F := Ideal)))
    (hSs : ∀ n, S (n + 1) = k1_pay4 (F := Ideal) (nb (n + 1)) (dt (n + 1)) (S n))
    (hC0 : C 0 = k1_pay5 (F := Ideal) (nb 0) (k1_pay2 (F := Ideal)))
    (hCs : ∀ n, C (n + 1) = k1_pay5 (F := Ideal) (nb (n + 1)) (C n))
    (W : Vec Ideal S384x64 .f32) (hW : ∀ (k : Fin 384) (o : Fin 64), W (ix2 k o) = x9 (ix2 k o))
    (B : Vec Ideal S1x64 .f32) (hB : ∀ o : Fin 64, B (ix2 0 o) = x10 (ix1 o))
    (hsum : ∀ (b : Fin 64) (k : Fin 384), Cert.ReferenceIdeal.Read.val_main_v32 (F := Ideal) x0 x1 x2 x3 x4 x5 x6 x7 x8 (ix2 b k)
      = 0 + ∑ n ∈ Finset.univ.filter (fun n : Fin 100000 => (x1 (ix1 n)).toInt = (b.val : Int)),
          Cert.ReferenceIdeal.Read.val_main_v29 (F := Ideal) x0 x2 x3 x4 x5 x6 x7 x8 (ix2 n k))
    (hcnt : ∀ b : Fin 64, Cert.ReferenceIdeal.Read.val_main_v36 (F := Ideal) x1 (ix2 b (0 : Fin 1))
      = 0 + ∑ n ∈ Finset.univ.filter (fun n : Fin 100000 => (x1 (ix1 n)).toInt = (b.val : Int)), (1 : EReal))
    (hres : ∀ b o : Fin 64, Cert.ReferenceIdeal.Read.val_main_v44 (F := Ideal) x0 x1 x2 x3 x4 x5 x6 x7 x8 x9 x10 (ix2 b o)
      = (∑ k : Fin 384,
          FloatOps.hostDivf (F := Ideal) (φ := .f32) (Cert.ReferenceIdeal.Read.val_main_v32 (F := Ideal) x0 x1 x2 x3 x4 x5 x6 x7 x8 (ix2 b k))
              (FloatOps.maximumf (F := Ideal) (φ := .f32) (Cert.ReferenceIdeal.Read.val_main_v36 (F := Ideal) x1 (ix2 b (0 : Fin 1)))
                (Cert.ReferenceIdeal.Read.val_main_v37 (F := Ideal) (ix2 b (0 : Fin 1))))
            * x9 (ix2 k o))
        + x10 (ix1 o))
    (hone : ∀ i : Cert.ReferenceIdeal.S64x1.Idx, Cert.ReferenceIdeal.Read.val_main_v37 (F := Ideal) i = Scalar.ofBits (F := Ideal) .f32 0x3F800000#32) :
    k1_pay6 (F := Ideal) (C 48) (S 48) W B = Cert.ReferenceIdeal.Read.val_main_v44 (F := Ideal) x0 x1 x2 x3 x4 x5 x6 x7 x8 x9 x10 := by
  funext i
  obtain ⟨b, o, rfl⟩ : ∃ (b : Fin 64) (o : Fin 64), i = ix2 b o := ⟨i 0, i 1, eq_ix2 i⟩
  rw [pay6_apply, hres b o, hB o]
  refine congrArg (· + x10 (ix1 o)) (Finset.sum_congr rfl fun k _ => ?_)
  rw [sum48 (fun n : Fin 100000 => x1 (ix1 n))
      (fun k n => Cert.ReferenceIdeal.Read.val_main_v29 (F := Ideal) x0 x2 x3 x4 x5 x6 x7 x8 (ix2 n k)) nb dt hnb hdt S hS0 hSs b k,
    count48 (fun n : Fin 100000 => x1 (ix1 n)) nb hnb C hC0 hCs b, hsum b k, hcnt b, hone, hW k o]
  rfl

/-- The pooling kernel's result, written over its accumulator recursion, is the reference's last stage. -/
theorem bridge (x0 : (⟨Cert.ReferenceIdeal.S100000x128, .f32⟩ : BufTy).Contents (Elt Ideal)) (x1 : (⟨Cert.ReferenceIdeal.S100000, .i32⟩ : BufTy).Contents (Elt Ideal))
    (x2 x3 x4 x5 : (⟨Cert.ReferenceIdeal.S1600000, .i32⟩ : BufTy).Contents (Elt Ideal)) (x6 : (⟨Cert.ReferenceIdeal.S128x128, .f32⟩ : BufTy).Contents (Elt Ideal))
    (x7 : (⟨Cert.ReferenceIdeal.S128, .f32⟩ : BufTy).Contents (Elt Ideal)) (x8 : (⟨Cert.ReferenceIdeal.S1, .f32⟩ : BufTy).Contents (Elt Ideal))
    (x9 : (⟨Cert.ReferenceIdeal.S384x64, .f32⟩ : BufTy).Contents (Elt Ideal)) (x10 : (⟨Cert.ReferenceIdeal.S64, .f32⟩ : BufTy).Contents (Elt Ideal))
    (nb : ℕ → Vec Ideal S1x2048 .i32) (dt : ℕ → Vec Ideal S2048x384 .f32)
    (hnb : ∀ t, t < 49 → ∀ j : Fin 2048, nb t (ix2 0 j) = Cert.PoolSum.padW (fun n : Fin 100000 => x1 (ix1 n)) (t * 2048 + j.val))
    (hdt : ∀ t, t < 49 → ∀ (j : Fin 2048) (k : Fin 384), dt t (ix2 j k)
      = Cert.PoolSum.padX (fun n : Fin 100000 => Cert.ReferenceIdeal.Read.val_main_v29 (F := Ideal) x0 x2 x3 x4 x5 x6 x7 x8 (ix2 n k)) (t * 2048 + j.val))
    (S : ℕ → Vec Ideal S64x384 .f32) (C : ℕ → Vec Ideal S64x1 .f32)
    (hS0 : S 0 = k1_pay4 (F := Ideal) (nb 0) (dt 0) (k1_pay1 (F := Ideal)))
    (hSs : ∀ n, S (n + 1) = k1_pay4 (F := Ideal) (nb (n + 1)) (dt (n + 1)) (S n))
    (hC0 : C 0 = k1_pay5 (F := Ideal) (nb 0) (k1_pay2 (F := Ideal)))
    (hCs : ∀ n, C (n + 1) = k1_pay5 (F := Ideal) (nb (n + 1)) (C n))
    (W : Vec Ideal S384x64 .f32) (hW : ∀ (k : Fin 384) (o : Fin 64), W (ix2 k o) = x9 (ix2 k o))
    (B : Vec Ideal S1x64 .f32) (hB : ∀ o : Fin 64, B (ix2 0 o) = x10 (ix1 o)) :
    k1_pay6 (F := Ideal) (C 48) (S 48) W B = Cert.ReferenceIdeal.Read.val_main_v44 (F := Ideal) x0 x1 x2 x3 x4 x5 x6 x7 x8 x9 x10 :=
  bridge_of x0 x1 x2 x3 x4 x5 x6 x7 x8 x9 x10 nb dt hnb hdt S C hS0 hSs hC0 hCs W hW B hB
    (fun b k => Cert.RefIdx.sums_apply x0 x1 x2 x3 x4 x5 x6 x7 x8 b k)
    (fun b => Cert.RefIdx.counts_apply x1 b)
    (fun b o => Cert.RefIdx.result_apply x0 x1 x2 x3 x4 x5 x6 x7 x8 x9 x10 b o)
    (fun i => Cert.RefIdx.one_apply i)

end Cert.Bridge

end
-- ==== Proof.KernelIdeal.ValMain.lean ====
/-
  The idealized kernel's result array is the reference's last stage. The projection region leaves the reference's
  stages %3 and %8 in its two result arrays; the stretch between the regions is the reference's own gather /
  scatter-add / concatenate, then a padding with zero rows and with the id -1; the pooling region's blocks are those
  padded arrays read tile by tile, its accumulators the tile sums, and its last point applies the head. The tile sums
  over the padded rows are the reference's segment sums over the real rows.
-/
import proofs.«421251_j42829413875734_1_alg».proof.Proof.KernelIdeal.Halves
import proofs.«421251_j42829413875734_1_alg».proof.Proof.KernelIdeal.Val0
import proofs.«421251_j42829413875734_1_alg».proof.Proof.KernelIdeal.ValHost
import proofs.«421251_j42829413875734_1_alg».proof.Proof.KernelIdeal.Blk1
import proofs.«421251_j42829413875734_1_alg».proof.Proof.KernelIdeal.Val1
import proofs.«421251_j42829413875734_1_alg».proof.Proof.KernelIdeal.Val1Arr
import proofs.«421251_j42829413875734_1_alg».proof.Proof.Bridge

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem

variable (m : (ℓ : Loc nD τ sig) → Buf (Elt Ideal) ℓ) (ρ : Dev nD → PrngReg)

/-- What the pooling region is entered from. -/
abbrev Vp : Entry Ideal := E7 (half0 (F := Ideal)) m

/-- The projection region's first result array is the reference's stage %3. -/
theorem res0 (c : Dev nD) : outsA (half0 (F := Ideal)) m 2 main_v4_0 c
    = Cert.ReferenceIdeal.Read.val_main_v3 (F := Ideal) (m ((c.tc : Thread nD τ).loc main_arg0)) (m ((c.tc : Thread nD τ).loc main_arg6)) (m ((c.tc : Thread nD τ).loc main_arg7)) :=
  (X2_arr (half0 (F := Ideal)) m c 4).trans (arr4_eq m c)

/-- Its second result array is the reference's stage %8. -/
theorem res1 (c : Dev nD) : outsA (half0 (F := Ideal)) m 2 main_v4_1 c
    = Cert.ReferenceIdeal.Read.val_main_v8 (F := Ideal) (m ((c.tc : Thread nD τ).loc main_arg0)) (m ((c.tc : Thread nD τ).loc main_arg6)) (m ((c.tc : Thread nD τ).loc main_arg7)) (m ((c.tc : Thread nD τ).loc main_arg8)) :=
  (X2_arr (half0 (F := Ideal)) m c 5).trans (arr5_eq m c)

/-- THE RESULT: what the pooling region's one write-back leaves in the result array is the reference's last stage of
    the argument arrays. -/
theorem result_value (c : Dev nD) :
    ((half1 (F := Ideal)).dat (Vp m) c).arrAt 4 cfg1.N
      = Cert.ReferenceIdeal.Read.val_main_v44 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  show (dat1 (F := Ideal) (Vp m) c).arrAt 4 cfg1.N = _
  refine ((arr1_4_flush (Vp m) c).trans (out_last (Vp m) c)).trans ?_
  refine Cert.Bridge.bridge _ _ _ _ _ _ _ _ _ _ _ (nbAt (Vp m) c) (dtAt (Vp m) c) ?hnb ?hdt (Sacc (Vp m) c) (Cacc (Vp m) c) rfl (fun _ => rfl) rfl (fun _ => rfl) _ ?hW _ ?hB
  case hnb =>
    intro t ht j
    have hN : t < cfg1.N := lt_of_lt_of_eq ht N_1.symm
    have hb : t * 2048 + j.val < 100352 := by have := j.isLt; omega
    unfold nbAt
    rw [dif_pos hN, iblk1_1_apply (Vp m) c ⟨t, hN⟩ j hb]
    exact v28_apply m (outsA (half0 (F := Ideal)) m) c ⟨t * 2048 + j.val, hb⟩
  case hdt =>
    intro t ht j k
    have hN : t < cfg1.N := lt_of_lt_of_eq ht N_1.symm
    have hb : t * 2048 + j.val < 100352 := by have := j.isLt; omega
    unfold dtAt
    rw [dif_pos hN, iblk1_0_apply (Vp m) c ⟨t, hN⟩ j k hb]
    exact v26_apply m (outsA (half0 (F := Ideal)) m) c (res0 m c) (res1 m c) ⟨t * 2048 + j.val, hb⟩ k
  case hW =>
    intro k o
    rw [iblk1_2_eq (Vp m) c]
    exact congrFun (v7_arg9 m (outsA (half0 (F := Ideal)) m) c) _
  case hB =>
    intro o
    rw [iblk1_3_eq (Vp m) c]
    exact v29_apply m (outsA (half0 (F := Ideal)) m) c o

/-- THE IDEALIZED KERNEL'S RUN: every weakly fair execution ends, the result array at the reference's last stage of
    the arguments, the arguments as launched. -/
theorem run_value : θ_run defs (onTc (τ := τ) (main (F := Ideal))) ⟨m, fun _ => 0, ρ⟩ (fun r => ∀ c : Dev nD,
      r.2.mem ((c.tc : Thread nD τ).loc main_v30)
        = Cert.ReferenceIdeal.Read.val_main_v44 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(result_eq (half0 (F := Ideal)) (half1 (F := Ideal)) m r h c).trans (result_value m c),
     args_kept (half0 (F := Ideal)) (half1 (F := Ideal)) m r h c⟩) (run_all (half0 (F := Ideal)) (half1 (F := Ideal)) m ρ)

end Cert.KernelIdeal.Val

end
-- ==== Proof.RefFrame.lean ====
/-
  The reference program has no kernel: its @main is a straight line of host operations, so every execution ends with
  each buffer at the operations' composed term of the arguments. Its frame claim is that run with the result dropped.
-/
import proofs.«421251_j42829413875734_1_alg».proof.Defs
import proofs.«421251_j42829413875734_1_alg».proof.Proof.Gen.ReferenceIdeal
import proofs.«421251_j42829413875734_1_alg».proof.Proof.Gen.Pre_finite_inputs
import proofs.«421251_j42829413875734_1_alg».proof.Proof.Gen.ReferenceIdeal.Run
import proofs.«421251_j42829413875734_1_alg».proof.Proof.Gen.ReferenceIdeal.Read

noncomputable section

namespace Cert.Proof.RefFrame

open Idealize.ShloMosaic Idealize.ShloMosaic.TcCoe Idealize.SL.Sem

/-- The reference runs to the end, faults nowhere, and leaves every argument array as it found it. -/
theorem frame_ri [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.lean ====
/-
  The certificate of a two-kernel graph network step against its jnp reference, over the extended reals.

  The kernel program projects the node features (x · W0 + b0, and that times 1 + eps) in a first Pallas kernel, runs two
  gather / scatter-add hops and a concatenation on the host, pads the rows to a multiple of the pooling tile, and in a
  second Pallas kernel sums each graph's rows tile by tile through a one-hot matrix product, counts them by a lane sum,
  and at the last tile divides by max(count, 1) and applies the head x · Wp + bp. The reference does the same with a
  segment sum over the rows. At the exact instance the one-hot products over the padded rows are the segment sums over
  the real rows: a padded row carries the id -1, which matches no segment, and a row whose id is out of range lands in
  no segment on either side.

  The three frames: each kernel program's run is the launch over its two regions and the host stretches between them
  (at the word-level instance and at the exact one, the same text); the reference is a straight line of host operations.
  The idealization's one rewrite (a narrowing to bf16 widened back, the identity at the exact instance) is its rule's
  statement.
-/
import proofs.«421251_j42829413875734_1_alg».proof.Defs
import proofs.«421251_j42829413875734_1_alg».proof.Proof.Gen.Kernel
import proofs.«421251_j42829413875734_1_alg».proof.Proof.Gen.KernelIdeal
import proofs.«421251_j42829413875734_1_alg».proof.Proof.Gen.ReferenceIdeal
import proofs.«421251_j42829413875734_1_alg».proof.Proof.Gen.Pre_finite_inputs
import proofs.«421251_j42829413875734_1_alg».proof.Proof.Kernel.Halves
import proofs.«421251_j42829413875734_1_alg».proof.Proof.KernelIdeal.Halves
import proofs.«421251_j42829413875734_1_alg».proof.Proof.KernelIdeal.ValMain
import proofs.«421251_j42829413875734_1_alg».proof.Proof.RefFrame
import Idealize.ShloMosaic.Adequacy
import Idealize.ShloMosaic.Init

noncomputable section

namespace Cert.Proof

open Idealize.ShloMosaic Idealize.ShloMosaic.TcCoe Idealize.SL.Sem

/-- The word-level kernel program runs to the end, faults nowhere, and keeps its arguments. -/
theorem frame_p : Cert.frame_Kernel := fun m ρ _ => Cert.Kernel.Frm.frame_main (F := Bits) m ρ

/-- So does the idealized one. -/
theorem frame_pi : Cert.frame_KernelIdeal := fun m ρ _ => Cert.KernelIdeal.Frm.frame_main (F := Ideal) m ρ

/-- The one ledger entry: a value narrowed to bf16 and widened back is itself at the exact instance, and the rounding
    through bf16 at the word-level one. -/
theorem preserves : Cert.preserves_Kernel_KernelIdeal := IdealRules.truncf_extf.statement _ .f32 .bf16

/-- At the exact instance, from memories agreeing on the arguments, both programs end with the same result array: the
    kernel's is the reference's last stage of the arguments, and so is the reference's own. -/
theorem algebraic : Cert.algebraic_KernelIdeal_ReferenceIdeal := by
  intro m ρ m' ρ' _ hagree
  refine ⟨_, Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, Cert.Proof.RefFrame.frame_ri, preserves, algebraic⟩

end Cert.Proof

end
